-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v42)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v42) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v111) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x5 : Shape := ⟨2, ![4096, 5]⟩
abbrev S_ : Shape := ⟨0, ![]⟩

class Facts : Prop where
  bcast_S_S4096x5 : S_.BroadcastsInDim S4096x5 (![] : Fin 0 → Fin S4096x5.rank)
  reducesTo_S4096x5_S_d0_1 : S4096x5.ReducesTo [0, 1] S_
  h_S_ : 0 < S_.numel

variable [Facts]

def fn {F : FTy → Type} [FloatOps F] (main_arg0 : FVec F S4096x5 .f32) : IVec S_ 1 :=
  let main_v0 : FVec F S4096x5 .f32 := Host.absf main_arg0
  let main_cst : FVec F S_ .f32 := constant S_ .f32 0x7F800000#32
  let main_v1 : FVec F S4096x5 .f32 := broadcastInDim S4096x5 ![] bcast_S_S4096x5 main_cst
  let main_v2 : IVec S4096x5 1 := cmpf .olt main_v0 main_v1
  let main_c : IVec S_ 1 := constantI S_ 1 1#1
  let main_v3 : IVec S_ 1 := (fun x v => Host.reduce IntOp.andi x v reducesTo_S4096x5_S_d0_1 h_S_) main_v2 main_c
  main_v3
-- ==== Kernel.lean ====
abbrev S4096x5 : Shape := ⟨2, ![4096, 5]⟩
abbrev S4x2 : Shape := ⟨2, ![4, 2]⟩
abbrev S4096x2 : Shape := ⟨2, ![4096, 2]⟩
abbrev S4096x1 : Shape := ⟨2, ![4096, 1]⟩
abbrev S4096 : Shape := ⟨1, ![4096]⟩
abbrev S1x4x2 : Shape := ⟨3, ![1, 4, 2]⟩
abbrev S_ : Shape := ⟨0, ![]⟩
abbrev S4096x1x2 : Shape := ⟨3, ![4096, 1, 2]⟩
abbrev S4096x4x2 : Shape := ⟨3, ![4096, 4, 2]⟩
abbrev S4096x2x2 : Shape := ⟨3, ![4096, 2, 2]⟩
abbrev S4x2x4096 : Shape := ⟨3, ![4, 2, 4096]⟩
abbrev S2x2x4096 : Shape := ⟨3, ![2, 2, 4096]⟩
abbrev S4096x4096 : Shape := ⟨2, ![4096, 4096]⟩
abbrev S512x4x2 : Shape := ⟨3, ![512, 4, 2]⟩
abbrev S4x2x512 : Shape := ⟨3, ![4, 2, 512]⟩
abbrev S512x2x2 : Shape := ⟨3, ![512, 2, 2]⟩
abbrev S2x2x512 : Shape := ⟨3, ![2, 2, 512]⟩
abbrev S512x512 : Shape := ⟨2, ![512, 512]⟩
abbrev S512x4x1 : Shape := ⟨3, ![512, 4, 1]⟩
abbrev S512x4 : Shape := ⟨2, ![512, 4]⟩
abbrev S512x2x1 : Shape := ⟨3, ![512, 2, 1]⟩
abbrev S512x2 : Shape := ⟨2, ![512, 2]⟩
abbrev S4x1x512 : Shape := ⟨3, ![4, 1, 512]⟩
abbrev S4x512 : Shape := ⟨2, ![4, 512]⟩
abbrev S2x1x512 : Shape := ⟨3, ![2, 1, 512]⟩
abbrev S2x512 : Shape := ⟨2, ![2, 512]⟩
abbrev S1x512 : Shape := ⟨2, ![1, 512]⟩
abbrev S512x1 : Shape := ⟨2, ![512, 1]⟩

abbrev nBuf : Space → Nat
  | .hbm => 46
  | .vmem => 10
  | .smem => 0
  | _ => 0

abbrev bufTy : (tb : Table) → Fin (tcTables nBuf tb) → BufTy
  | .hbm, ⟨0, _⟩ => ⟨S4096x5, .f32⟩
  | .hbm, ⟨1, _⟩ => ⟨S4x2, .f32⟩
  | .hbm, ⟨2, _⟩ => ⟨S4096x2, .f32⟩
  | .hbm, ⟨3, _⟩ => ⟨S4096x2, .f32⟩
  | .hbm, ⟨4, _⟩ => ⟨S4096x1, .f32⟩
  | .hbm, ⟨5, _⟩ => ⟨S4096, .f32⟩
  | .hbm, ⟨6, _⟩ => ⟨S1x4x2, .f32⟩
  | .hbm, ⟨7, _⟩ => ⟨S_, .f32⟩
  | .hbm, ⟨8, _⟩ => ⟨S4096x2, .f32⟩
  | .hbm, ⟨9, _⟩ => ⟨S4096x2, .f32⟩
  | .hbm, ⟨10, _⟩ => ⟨S4096x1x2, .f32⟩
  | .hbm, ⟨11, _⟩ => ⟨S4096x4x2, .f32⟩
  | .hbm, ⟨12, _⟩ => ⟨S4096x4x2, .f32⟩
  | .hbm, ⟨13, _⟩ => ⟨S4096x4x2, .f32⟩
  | .hbm, ⟨14, _⟩ => ⟨S4096, .f32⟩
  | .hbm, ⟨15, _⟩ => ⟨S4096, .f32⟩
  | .hbm, ⟨16, _⟩ => ⟨S4096, .f32⟩
  | .hbm, ⟨17, _⟩ => ⟨S4096x1, .f32⟩
  | .hbm, ⟨18, _⟩ => ⟨S4096x1, .f32⟩
  | .hbm, ⟨19, _⟩ => ⟨S4096x2, .f32⟩
  | .hbm, ⟨20, _⟩ => ⟨S4096x1, .f32⟩
  | .hbm, ⟨21, _⟩ => ⟨S4096x1, .f32⟩
  | .hbm, ⟨22, _⟩ => ⟨S4096x2, .f32⟩
  | .hbm, ⟨23, _⟩ => ⟨S4096x1x2, .f32⟩
  | .hbm, ⟨24, _⟩ => ⟨S4096x1x2, .f32⟩
  | .hbm, ⟨25, _⟩ => ⟨S4096x2x2, .f32⟩
  | .hbm, ⟨26, _⟩ => ⟨S4096x4x2, .f32⟩
  | .hbm, ⟨27, _⟩ => ⟨S4096x1x2, .f32⟩
  | .hbm, ⟨28, _⟩ => ⟨S4096x4x2, .f32⟩
  | .hbm, ⟨29, _⟩ => ⟨S4096x4x2, .f32⟩
  | .hbm, ⟨30, _⟩ => ⟨S4096x1x2, .f32⟩
  | .hbm, ⟨31, _⟩ => ⟨S4096x2, .f32⟩
  | .hbm, ⟨32, _⟩ => ⟨S4096x1x2, .f32⟩
  | .hbm, ⟨33, _⟩ => ⟨S4096x2, .f32⟩
  | .hbm, ⟨34, _⟩ => ⟨S4096x2, .f32⟩
  | .hbm, ⟨35, _⟩ => ⟨S4096x1x2, .f32⟩
  | .hbm, ⟨36, _⟩ => ⟨S4096x2, .f32⟩
  | .hbm, ⟨37, _⟩ => ⟨S4096x1x2, .f32⟩
  | .hbm, ⟨38, _⟩ => ⟨S4096x2, .f32⟩
  | .hbm, ⟨39, _⟩ => ⟨S4096x2, .f32⟩
  | .hbm, ⟨40, _⟩ => ⟨S4096x1x2, .f32⟩
  | .hbm, ⟨41, _⟩ => ⟨S4096x1x2, .f32⟩
  | .hbm, ⟨42, _⟩ => ⟨S4096x2x2, .f32⟩
  | .hbm, ⟨43, _⟩ => ⟨S4x2x4096, .f32⟩
  | .hbm, ⟨44, _⟩ => ⟨S2x2x4096, .f32⟩
  | .hbm, ⟨45, _⟩ => ⟨S4096x4096, .f32⟩
  | .local _ .vmem, ⟨0, _⟩ => ⟨S512x4x2, .f32⟩
  | .local _ .vmem, ⟨1, _⟩ => ⟨S512x4x2, .f32⟩
  | .local _ .vmem, ⟨2, _⟩ => ⟨S4x2x512, .f32⟩
  | .local _ .vmem, ⟨3, _⟩ => ⟨S4x2x512, .f32⟩
  | .local _ .vmem, ⟨4, _⟩ => ⟨S512x2x2, .f32⟩
  | .local _ .vmem, ⟨5, _⟩ => ⟨S512x2x2, .f32⟩
  | .local _ .vmem, ⟨6, _⟩ => ⟨S2x2x512, .f32⟩
  | .local _ .vmem, ⟨7, _⟩ => ⟨S2x2x512, .f32⟩
  | .local _ .vmem, ⟨8, _⟩ => ⟨S512x512, .f32⟩
  | .local _ .vmem, ⟨9, _⟩ => ⟨S512x512, .f32⟩
  | _, _ => ⟨S4096x5, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst_0 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_v29 : Ref sig .tc := ⟨.hbm, 32, rfl⟩
abbrev main_v30 : Ref sig .tc := ⟨.hbm, 33, rfl⟩
abbrev main_v31 : Ref sig .tc := ⟨.hbm, 34, rfl⟩
abbrev main_v32 : Ref sig .tc := ⟨.hbm, 35, rfl⟩
abbrev main_v33 : Ref sig .tc := ⟨.hbm, 36, rfl⟩
abbrev main_v34 : Ref sig .tc := ⟨.hbm, 37, rfl⟩
abbrev main_v35 : Ref sig .tc := ⟨.hbm, 38, rfl⟩
abbrev main_v36 : Ref sig .tc := ⟨.hbm, 39, rfl⟩
abbrev main_v37 : Ref sig .tc := ⟨.hbm, 40, rfl⟩
abbrev main_v38 : Ref sig .tc := ⟨.hbm, 41, rfl⟩
abbrev main_v39 : Ref sig .tc := ⟨.hbm, 42, rfl⟩
abbrev main_v40 : Ref sig .tc := ⟨.hbm, 43, rfl⟩
abbrev main_v41 : Ref sig .tc := ⟨.hbm, 44, rfl⟩
abbrev main_v42 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x4x2 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4x2x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x2x2 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2x2x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  slices_S4096x5_S4096x2_0_0 : S4096x5.Slices ![0, 0] S4096x2
  slices_S4096x5_S4096x2_0_2 : S4096x5.Slices ![0, 2] S4096x2
  slices_S4096x5_S4096x1_0_4 : S4096x5.Slices ![0, 4] S4096x1
  shapeCasts_S4096x1_S4096 : S4096x1.ShapeCasts S4096
  bcast_S4x2_S1x4x2_1_2 : S4x2.BroadcastsInDim S1x4x2 (![1, 2] : Fin 2 → Fin S1x4x2.rank)
  bcast_S_S4096x2 : S_.BroadcastsInDim S4096x2 (![] : Fin 0 → Fin S4096x2.rank)
  bcast_S4096x2_S4096x1x2_0_2 : S4096x2.BroadcastsInDim S4096x1x2 (![0, 2] : Fin 2 → Fin S4096x1x2.rank)
  bcast_S1x4x2_S4096x4x2_0_1_2 : S1x4x2.BroadcastsInDim S4096x4x2 (![0, 1, 2] : Fin 3 → Fin S4096x4x2.rank)
  bcast_S4096x1x2_S4096x4x2_0_1_2 : S4096x1x2.BroadcastsInDim S4096x4x2 (![0, 1, 2] : Fin 3 → Fin S4096x4x2.rank)
  bcast_S4096_S4096x1_0 : S4096.BroadcastsInDim S4096x1 (![0] : Fin 1 → Fin S4096x1.rank)
  concatenates_S4096x1_S4096x1_S4096x2_d1 : Shape.Concatenates [S4096x1, S4096x1] S4096x2 1
  concatenates_S4096x1x2_S4096x1x2_S4096x2x2_d1 : Shape.Concatenates [S4096x1x2, S4096x1x2] S4096x2x2 1
  slices_S4096x4x2_S4096x1x2_0_1_0 : S4096x4x2.Slices ![0, 1, 0] S4096x1x2
  shapeCasts_S4096x1x2_S4096x2 : S4096x1x2.ShapeCasts S4096x2
  slices_S4096x4x2_S4096x1x2_0_0_0 : S4096x4x2.Slices ![0, 0, 0] S4096x1x2
  slices_S4096x4x2_S4096x1x2_0_3_0 : S4096x4x2.Slices ![0, 3, 0] S4096x1x2
  transposes_S4096x4x2_S4x2x4096_1_2_0 : S4096x4x2.Transposes [1, 2, 0] S4x2x4096
  transposes_S4096x2x2_S2x2x4096_1_2_0 : S4096x2x2.Transposes [1, 2, 0] S2x2x4096
  inb_S512x4x2_S512x4x2_0_0_0 : ∀ a, (![0, 0, 0] : Fin 3 → Nat) a + S512x4x2.size a ≤ S512x4x2.size a
  h_S512x4x2 : 0 < S512x4x2.numel
  shapeCasts_S512x4x2_S512x4x2 : S512x4x2.ShapeCasts S512x4x2
  inb_S512x2x2_S512x2x2_0_0_0 : ∀ a, (![0, 0, 0] : Fin 3 → Nat) a + S512x2x2.size a ≤ S512x2x2.size a
  h_S512x2x2 : 0 < S512x2x2.numel
  shapeCasts_S512x2x2_S512x2x2 : S512x2x2.ShapeCasts S512x2x2
  inb_S4x2x512_S4x2x512_0_0_0 : ∀ a, (![0, 0, 0] : Fin 3 → Nat) a + S4x2x512.size a ≤ S4x2x512.size a
  h_S4x2x512 : 0 < S4x2x512.numel
  shapeCasts_S4x2x512_S4x2x512 : S4x2x512.ShapeCasts S4x2x512
  inb_S2x2x512_S2x2x512_0_0_0 : ∀ a, (![0, 0, 0] : Fin 3 → Nat) a + S2x2x512.size a ≤ S2x2x512.size a
  h_S2x2x512 : 0 < S2x2x512.numel
  shapeCasts_S2x2x512_S2x2x512 : S2x2x512.ShapeCasts S2x2x512
  slices_S512x4x2_o0_0_0_S512x4x1 : S512x4x2.Slices ![0, 0, 0] S512x4x1
  shapeCasts_S512x4x1_S512x4 : S512x4x1.ShapeCasts S512x4
  slices_S512x4x2_o0_0_1_S512x4x1 : S512x4x2.Slices ![0, 0, 1] S512x4x1
  slices_S512x2x2_o0_0_0_S512x2x1 : S512x2x2.Slices ![0, 0, 0] S512x2x1
  shapeCasts_S512x2x1_S512x2 : S512x2x1.ShapeCasts S512x2
  slices_S512x2x2_o0_0_1_S512x2x1 : S512x2x2.Slices ![0, 0, 1] S512x2x1
  slices_S4x2x512_o0_0_0_S4x1x512 : S4x2x512.Slices ![0, 0, 0] S4x1x512
  shapeCasts_S4x1x512_S4x512 : S4x1x512.ShapeCasts S4x512
  slices_S4x2x512_o0_1_0_S4x1x512 : S4x2x512.Slices ![0, 1, 0] S4x1x512
  slices_S2x2x512_o0_0_0_S2x1x512 : S2x2x512.Slices ![0, 0, 0] S2x1x512
  shapeCasts_S2x1x512_S2x512 : S2x1x512.ShapeCasts S2x512
  slices_S2x2x512_o0_1_0_S2x1x512 : S2x2x512.Slices ![0, 1, 0] S2x1x512
  slices_S2x512_o0_0_S1x512 : S2x512.Slices ![0, 0] S1x512
  slices_S512x2_o0_0_S512x1 : S512x2.Slices ![0, 0] S512x1
  slices_S512x4_o0_0_S512x1 : S512x4.Slices ![0, 0] S512x1
  slices_S512x4_o0_1_S512x1 : S512x4.Slices ![0, 1] S512x1
  slices_S512x4_o0_2_S512x1 : S512x4.Slices ![0, 2] S512x1
  slices_S512x4_o0_3_S512x1 : S512x4.Slices ![0, 3] S512x1
  slices_S4x512_o0_0_S1x512 : S4x512.Slices ![0, 0] S1x512
  slices_S4x512_o1_0_S1x512 : S4x512.Slices ![1, 0] S1x512
  slices_S4x512_o2_0_S1x512 : S4x512.Slices ![2, 0] S1x512
  slices_S4x512_o3_0_S1x512 : S4x512.Slices ![3, 0] S1x512
  broadcasts_S512x1_S512x512 : S512x1.Broadcasts S512x512
  broadcasts_S1x512_S512x512 : S1x512.Broadcasts S512x512
  slices_S2x512_o1_0_S1x512 : S2x512.Slices ![1, 0] S1x512
  slices_S512x2_o0_1_S512x1 : S512x2.Slices ![0, 1] S512x1
  iota_S512x512_d0_w32 : S512x512.Iotas .tc 32 [0]
  iota_S512x512_d1_w32 : S512x512.Iotas .tc 32 [1]
  inb_S512x512_S512x512_0_0 : ∀ a, (![0, 0] : Fin 2 → Nat) a + S512x512.size a ≤ S512x512.size a
  h_S512x512 : 0 < S512x512.numel
  dot_S4096x4x2_S4096x2x2_S4096x4x2_2_1_1_2_0_0_wf : DotDims.WF S4096x4x2 S4096x2x2 S4096x4x2 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4x2.size a ≤ S4096x4x2.size a
  hwx0_0 : ∀ i : grid0.Coords, EltTy.bits .f32 = 32 ∨ (Rect.block (s := S4096x4x2) S512x4x2.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4x2x512.size a ≤ S4x2x4096.size a
  hwx0_1 : ∀ i : grid0.Coords, EltTy.bits .f32 = 32 ∨ (Rect.block (s := S4x2x4096) S4x2x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x2x2.size a ≤ S4096x2x2.size a
  hwx0_2 : ∀ i : grid0.Coords, EltTy.bits .f32 = 32 ∨ (Rect.block (s := S4096x2x2) S512x2x2.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2x2x512.size a ≤ S2x2x4096.size a
  hwx0_3 : ∀ i : grid0.Coords, EltTy.bits .f32 = 32 ∨ (Rect.block (s := S2x2x4096) S2x2x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x512.size a ≤ S4096x4096.size a
  hwx0_4 : ∀ i : grid0.Coords, EltTy.bits .f32 = 32 ∨ (Rect.block (s := S4096x4096) S512x512.size (cc0_transform_4 i) (hinb0_4 i)).WholeWords (EltTy.packing .f32)

variable [Facts₀]

def dot_S4096x4x2_S4096x2x2_S4096x4x2_2_1_1_2_0_0 : DotDims S4096x4x2 S4096x2x2 S4096x4x2 where
  lhsContracting := [2]
  rhsContracting := [1]
  lhsNonContracting := [1]
  rhsNonContracting := [2]
  lhsBatch := [0]
  rhsBatch := [0]
  wf := dot_S4096x4x2_S4096x2x2_S4096x4x2_2_1_1_2_0_0_wf

abbrev win0_0 : Pipeline.Window sig grid0 :=
  Pipeline.Window.ofSpec (Memref.whole main_v26) S512x4x2.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v40) S4x2x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v39) S512x2x2.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v41) S2x2x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v42) S512x512.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4096x5 : Shape := ⟨2, ![4096, 5]⟩
abbrev S4x2 : Shape := ⟨2, ![4, 2]⟩
abbrev S4096x2 : Shape := ⟨2, ![4096, 2]⟩
abbrev S4096x1 : Shape := ⟨2, ![4096, 1]⟩
abbrev S4096 : Shape := ⟨1, ![4096]⟩
abbrev S1x4x2 : Shape := ⟨3, ![1, 4, 2]⟩
abbrev S_ : Shape := ⟨0, ![]⟩
abbrev S4096x1x2 : Shape := ⟨3, ![4096, 1, 2]⟩
abbrev S4096x4x2 : Shape := ⟨3, ![4096, 4, 2]⟩
abbrev S4096x2x2 : Shape := ⟨3, ![4096, 2, 2]⟩
abbrev S4096x2x4 : Shape := ⟨3, ![4096, 2, 4]⟩
abbrev S4096x2x4096x4 : Shape := ⟨4, ![4096, 2, 4096, 4]⟩
abbrev S4096x4096x2x4 : Shape := ⟨4, ![4096, 4096, 2, 4]⟩
abbrev S4096x4096x2 : Shape := ⟨3, ![4096, 4096, 2]⟩
abbrev S1x4096x2 : Shape := ⟨3, ![1, 4096, 2]⟩
abbrev S4096x4096x4 : Shape := ⟨3, ![4096, 4096, 4]⟩
abbrev S4096x4096 : Shape := ⟨2, ![4096, 4096]⟩

abbrev nBuf : Space → Nat
  | .hbm => 134
  | .vmem => 0
  | .smem => 0
  | _ => 0

abbrev hbmTy0_0 (i : Nat) : BufTy := match i % 128 with
  | 0 => ⟨S4096x5, .f32⟩
  | 1 => ⟨S4x2, .f32⟩
  | 2 => ⟨S4096x2, .f32⟩
  | 3 => ⟨S4096x2, .f32⟩
  | 4 => ⟨S4096x1, .f32⟩
  | 5 => ⟨S4096, .f32⟩
  | 6 => ⟨S1x4x2, .f32⟩
  | 7 => ⟨S_, .f32⟩
  | 8 => ⟨S4096x2, .f32⟩
  | 9 => ⟨S4096x2, .f32⟩
  | 10 => ⟨S4096x1x2, .f32⟩
  | 11 => ⟨S4096x4x2, .f32⟩
  | 12 => ⟨S4096x4x2, .f32⟩
  | 13 => ⟨S4096x4x2, .f32⟩
  | 14 => ⟨S4096, .f32⟩
  | 15 => ⟨S4096, .f32⟩
  | 16 => ⟨S4096, .f32⟩
  | 17 => ⟨S4096x1, .f32⟩
  | 18 => ⟨S4096x1, .f32⟩
  | 19 => ⟨S4096x2, .f32⟩
  | 20 => ⟨S4096x1, .f32⟩
  | 21 => ⟨S4096x1, .f32⟩
  | 22 => ⟨S4096x2, .f32⟩
  | 23 => ⟨S4096x1x2, .f32⟩
  | 24 => ⟨S4096x1x2, .f32⟩
  | 25 => ⟨S4096x2x2, .f32⟩
  | 26 => ⟨S4096x4x2, .f32⟩
  | 27 => ⟨S4096x1x2, .f32⟩
  | 28 => ⟨S4096x4x2, .f32⟩
  | 29 => ⟨S4096x4x2, .f32⟩
  | 30 => ⟨S4096x1x2, .f32⟩
  | 31 => ⟨S4096x2, .f32⟩
  | 32 => ⟨S4096x1x2, .f32⟩
  | 33 => ⟨S4096x2, .f32⟩
  | 34 => ⟨S4096x2, .f32⟩
  | 35 => ⟨S4096x1x2, .f32⟩
  | 36 => ⟨S4096x2, .f32⟩
  | 37 => ⟨S4096x1x2, .f32⟩
  | 38 => ⟨S4096x2, .f32⟩
  | 39 => ⟨S4096x2, .f32⟩
  | 40 => ⟨S4096x1x2, .f32⟩
  | 41 => ⟨S4096x1x2, .f32⟩
  | 42 => ⟨S4096x2x2, .f32⟩
  | 43 => ⟨S4096x2x4, .f32⟩
  | 44 => ⟨S_, .f32⟩
  | 45 => ⟨S4096x2, .f32⟩
  | 46 => ⟨S_, .f32⟩
  | 47 => ⟨S4096x2, .f32⟩
  | 48 => ⟨S4096x2x4096x4, .f32⟩
  | 49 => ⟨S4096x4096x2x4, .f32⟩
  | 50 => ⟨S_, .f32⟩
  | 51 => ⟨S4096x4096x2, .f32⟩
  | 52 => ⟨S_, .f32⟩
  | 53 => ⟨S4096x4096x2, .f32⟩
  | 54 => ⟨S4096x4096x2, .f32⟩
  | 55 => ⟨S4096x4096x2, .f32⟩
  | 56 => ⟨S4096x1x2, .f32⟩
  | 57 => ⟨S4096x1x2, .f32⟩
  | 58 => ⟨S4096x4096x2, .f32⟩
  | 59 => ⟨S4096x4096x2, .f32⟩
  | 60 => ⟨S4096x4096x2, .f32⟩
  | 61 => ⟨S4096x4096x2, .f32⟩
  | 62 => ⟨S4096x4096x2, .f32⟩
  | 63 => ⟨S_, .f32⟩
  | 64 => ⟨S_, .f32⟩
  | 65 => ⟨S4096x4096x2, .f32⟩
  | 66 => ⟨S4096x4096x2, .f32⟩
  | 67 => ⟨S4096x1x2, .f32⟩
  | 68 => ⟨S4096x4096x2, .f32⟩
  | 69 => ⟨S4096x4096x2, .f32⟩
  | 70 => ⟨S4096x4096x2, .f32⟩
  | 71 => ⟨S4096x4096x2, .f32⟩
  | 72 => ⟨S4096x4096x2, .f32⟩
  | 73 => ⟨S4096x4096x2, .f32⟩
  | 74 => ⟨S4096x4096x2, .f32⟩
  | 75 => ⟨S4096x4096x2, .f32⟩
  | 76 => ⟨S4096x4096x2, .f32⟩
  | 77 => ⟨S4096x4096x2, .f32⟩
  | 78 => ⟨S4096x4096x2, .f32⟩
  | 79 => ⟨S4096x4096x2, .f32⟩
  | 80 => ⟨S4096x4096x2, .f32⟩
  | 81 => ⟨S1x4096x2, .f32⟩
  | 82 => ⟨S1x4096x2, .f32⟩
  | 83 => ⟨S4096x4096x2, .f32⟩
  | 84 => ⟨S4096x4096x2, .f32⟩
  | 85 => ⟨S4096x4096x2, .f32⟩
  | 86 => ⟨S4096x4096x2, .f32⟩
  | 87 => ⟨S4096x4096x2, .f32⟩
  | 88 => ⟨S_, .f32⟩
  | 89 => ⟨S_, .f32⟩
  | 90 => ⟨S4096x4096x2, .f32⟩
  | 91 => ⟨S4096x4096x2, .f32⟩
  | 92 => ⟨S4096x4096x2, .f32⟩
  | 93 => ⟨S1x4096x2, .f32⟩
  | 94 => ⟨S4096x4096x2, .f32⟩
  | 95 => ⟨S4096x4096x2, .f32⟩
  | 96 => ⟨S4096x4096x2, .f32⟩
  | 97 => ⟨S4096x4096x2, .f32⟩
  | 98 => ⟨S4096x4096x2, .f32⟩
  | 99 => ⟨S4096x4096x2, .f32⟩
  | 100 => ⟨S4096x4096x2, .f32⟩
  | 101 => ⟨S4096x4096x2, .f32⟩
  | 102 => ⟨S4096x4096x2, .f32⟩
  | 103 => ⟨S4096x4096x2, .f32⟩
  | 104 => ⟨S4096x4096x2, .f32⟩
  | 105 => ⟨S4096x4096x2, .f32⟩
  | 106 => ⟨S4096x4096x4, .f32⟩
  | 107 => ⟨S_, .f32⟩
  | 108 => ⟨S4096x4096, .f32⟩
  | 109 => ⟨S_, .f32⟩
  | 110 => ⟨S_, .f32⟩
  | 111 => ⟨S4096x4096, .f32⟩
  | 112 => ⟨S4096x4096, .f32⟩
  | 113 => ⟨S4096, .i32⟩
  | 114 => ⟨S_, .i32⟩
  | 115 => ⟨S4096, .i32⟩
  | 116 => ⟨S4096, .i1⟩
  | 117 => ⟨S_, .i32⟩
  | 118 => ⟨S4096, .i32⟩
  | 119 => ⟨S4096, .i32⟩
  | 120 => ⟨S4096, .i32⟩
  | 121 => ⟨S_, .i32⟩
  | 122 => ⟨S4096, .i32⟩
  | 123 => ⟨S4096, .i1⟩
  | 124 => ⟨S_, .i32⟩
  | 125 => ⟨S4096, .i32⟩
  | 126 => ⟨S4096, .i32⟩
  | 127 => ⟨S4096, .i32⟩
  | _ => ⟨S4096x5, .f32⟩

abbrev hbmTy0_1 (i : Nat) : BufTy := match i % 128 with
  | 0 => ⟨S4096x1, .i32⟩
  | 1 => ⟨S4096x1, .i32⟩
  | 2 => ⟨S4096x2, .i32⟩
  | 3 => ⟨S_, .f32⟩
  | 4 => ⟨S4096, .f32⟩
  | 5 => ⟨S4096x4096, .f32⟩
  | _ => ⟨S4096x5, .f32⟩

abbrev hbmTy (i : Nat) : BufTy := match i / 128 with
  | 0 => hbmTy0_0 i
  | 1 => hbmTy0_1 i
  | _ => ⟨S4096x5, .f32⟩

abbrev bufTy : (tb : Table) → Fin (tcTables nBuf tb) → BufTy
  | .hbm, ⟨i, _⟩ => hbmTy i
  | _, _ => ⟨S4096x5, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst_0 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_v29 : Ref sig .tc := ⟨.hbm, 32, rfl⟩
abbrev main_v30 : Ref sig .tc := ⟨.hbm, 33, rfl⟩
abbrev main_v31 : Ref sig .tc := ⟨.hbm, 34, rfl⟩
abbrev main_v32 : Ref sig .tc := ⟨.hbm, 35, rfl⟩
abbrev main_v33 : Ref sig .tc := ⟨.hbm, 36, rfl⟩
abbrev main_v34 : Ref sig .tc := ⟨.hbm, 37, rfl⟩
abbrev main_v35 : Ref sig .tc := ⟨.hbm, 38, rfl⟩
abbrev main_v36 : Ref sig .tc := ⟨.hbm, 39, rfl⟩
abbrev main_v37 : Ref sig .tc := ⟨.hbm, 40, rfl⟩
abbrev main_v38 : Ref sig .tc := ⟨.hbm, 41, rfl⟩
abbrev main_v39 : Ref sig .tc := ⟨.hbm, 42, rfl⟩
abbrev main_v40 : Ref sig .tc := ⟨.hbm, 43, rfl⟩
abbrev main_cst_1 : Ref sig .tc := ⟨.hbm, 44, rfl⟩
abbrev main_v41 : Ref sig .tc := ⟨.hbm, 45, rfl⟩
abbrev main_cst_2 : Ref sig .tc := ⟨.hbm, 46, rfl⟩
abbrev main_v42 : Ref sig .tc := ⟨.hbm, 47, rfl⟩
abbrev main_v43 : Ref sig .tc := ⟨.hbm, 48, rfl⟩
abbrev main_v44 : Ref sig .tc := ⟨.hbm, 49, rfl⟩
abbrev main_cst_3 : Ref sig .tc := ⟨.hbm, 50, rfl⟩
abbrev main_v45 : Ref sig .tc := ⟨.hbm, 51, rfl⟩
abbrev main_cst_4 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩
abbrev main_v54 : Ref sig .tc := ⟨.hbm, 61, rfl⟩
abbrev main_v55 : Ref sig .tc := ⟨.hbm, 62, rfl⟩
abbrev main_cst_5 : Ref sig .tc := ⟨.hbm, 63, rfl⟩
abbrev main_call0_v0 : Ref sig .tc := ⟨.hbm, 64, rfl⟩
abbrev main_call0_v1 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_v76 : Ref sig .tc := ⟨.hbm, 86, rfl⟩
abbrev main_v77 : Ref sig .tc := ⟨.hbm, 87, rfl⟩
abbrev main_cst_6 : Ref sig .tc := ⟨.hbm, 88, rfl⟩
abbrev main_call1_v0 : Ref sig .tc := ⟨.hbm, 89, rfl⟩
abbrev main_call1_v1 : Ref sig .tc := ⟨.hbm, 90, rfl⟩
abbrev main_v78 : Ref sig .tc := ⟨.hbm, 91, rfl⟩
abbrev main_v79 : Ref sig .tc := ⟨.hbm, 92, rfl⟩
abbrev main_v80 : Ref sig .tc := ⟨.hbm, 93, rfl⟩
abbrev main_v81 : Ref sig .tc := ⟨.hbm, 94, rfl⟩
abbrev main_v82 : Ref sig .tc := ⟨.hbm, 95, rfl⟩
abbrev main_v83 : Ref sig .tc := ⟨.hbm, 96, rfl⟩
abbrev main_v84 : Ref sig .tc := ⟨.hbm, 97, rfl⟩
abbrev main_v85 : Ref sig .tc := ⟨.hbm, 98, rfl⟩
abbrev main_v86 : Ref sig .tc := ⟨.hbm, 99, rfl⟩
abbrev main_v87 : Ref sig .tc := ⟨.hbm, 100, rfl⟩
abbrev main_v88 : Ref sig .tc := ⟨.hbm, 101, rfl⟩
abbrev main_v89 : Ref sig .tc := ⟨.hbm, 102, rfl⟩
abbrev main_v90 : Ref sig .tc := ⟨.hbm, 103, rfl⟩
abbrev main_v91 : Ref sig .tc := ⟨.hbm, 104, rfl⟩
abbrev main_v92 : Ref sig .tc := ⟨.hbm, 105, rfl⟩
abbrev main_v93 : Ref sig .tc := ⟨.hbm, 106, rfl⟩
abbrev main_cst_7 : Ref sig .tc := ⟨.hbm, 107, rfl⟩
abbrev main_v94 : Ref sig .tc := ⟨.hbm, 108, rfl⟩
abbrev main_cst_8 : Ref sig .tc := ⟨.hbm, 109, rfl⟩
abbrev main_call2_v0 : Ref sig .tc := ⟨.hbm, 110, rfl⟩
abbrev main_call2_v1 : Ref sig .tc := ⟨.hbm, 111, rfl⟩
abbrev main_v95 : Ref sig .tc := ⟨.hbm, 112, rfl⟩
abbrev main_v96 : Ref sig .tc := ⟨.hbm, 113, rfl⟩
abbrev main_c : Ref sig .tc := ⟨.hbm, 114, rfl⟩
abbrev main_v97 : Ref sig .tc := ⟨.hbm, 115, rfl⟩
abbrev main_v98 : Ref sig .tc := ⟨.hbm, 116, rfl⟩
abbrev main_c_9 : Ref sig .tc := ⟨.hbm, 117, rfl⟩
abbrev main_v99 : Ref sig .tc := ⟨.hbm, 118, rfl⟩
abbrev main_v100 : Ref sig .tc := ⟨.hbm, 119, rfl⟩
abbrev main_v101 : Ref sig .tc := ⟨.hbm, 120, rfl⟩
abbrev main_c_10 : Ref sig .tc := ⟨.hbm, 121, rfl⟩
abbrev main_v102 : Ref sig .tc := ⟨.hbm, 122, rfl⟩
abbrev main_v103 : Ref sig .tc := ⟨.hbm, 123, rfl⟩
abbrev main_c_11 : Ref sig .tc := ⟨.hbm, 124, rfl⟩
abbrev main_v104 : Ref sig .tc := ⟨.hbm, 125, rfl⟩
abbrev main_v105 : Ref sig .tc := ⟨.hbm, 126, rfl⟩
abbrev main_v106 : Ref sig .tc := ⟨.hbm, 127, rfl⟩
abbrev main_v107 : Ref sig .tc := ⟨.hbm, 128, rfl⟩
abbrev main_v108 : Ref sig .tc := ⟨.hbm, 129, rfl⟩
abbrev main_v109 : Ref sig .tc := ⟨.hbm, 130, rfl⟩
abbrev main_cst_12 : Ref sig .tc := ⟨.hbm, 131, rfl⟩
abbrev main_v110 : Ref sig .tc := ⟨.hbm, 132, rfl⟩
abbrev main_v111 : Ref sig .tc := ⟨.hbm, 133, rfl⟩

abbrev nD : Nat := 1
abbrev τ : Topo := Topo.v7x

variable {F : FTy → Type} [FloatOps F]

class Facts₀ : Prop where
  slices_S4096x5_S4096x2_0_0 : S4096x5.Slices ![0, 0] S4096x2
  slices_S4096x5_S4096x2_0_2 : S4096x5.Slices ![0, 2] S4096x2
  slices_S4096x5_S4096x1_0_4 : S4096x5.Slices ![0, 4] S4096x1
  shapeCasts_S4096x1_S4096 : S4096x1.ShapeCasts S4096
  bcast_S4x2_S1x4x2_1_2 : S4x2.BroadcastsInDim S1x4x2 (![1, 2] : Fin 2 → Fin S1x4x2.rank)
  bcast_S_S4096x2 : S_.BroadcastsInDim S4096x2 (![] : Fin 0 → Fin S4096x2.rank)
  bcast_S4096x2_S4096x1x2_0_2 : S4096x2.BroadcastsInDim S4096x1x2 (![0, 2] : Fin 2 → Fin S4096x1x2.rank)
  bcast_S1x4x2_S4096x4x2_0_1_2 : S1x4x2.BroadcastsInDim S4096x4x2 (![0, 1, 2] : Fin 3 → Fin S4096x4x2.rank)
  bcast_S4096x1x2_S4096x4x2_0_1_2 : S4096x1x2.BroadcastsInDim S4096x4x2 (![0, 1, 2] : Fin 3 → Fin S4096x4x2.rank)
  bcast_S4096_S4096x1_0 : S4096.BroadcastsInDim S4096x1 (![0] : Fin 1 → Fin S4096x1.rank)
  concatenates_S4096x1_S4096x1_S4096x2_d1 : Shape.Concatenates [S4096x1, S4096x1] S4096x2 1
  concatenates_S4096x1x2_S4096x1x2_S4096x2x2_d1 : Shape.Concatenates [S4096x1x2, S4096x1x2] S4096x2x2 1
  slices_S4096x4x2_S4096x1x2_0_1_0 : S4096x4x2.Slices ![0, 1, 0] S4096x1x2
  shapeCasts_S4096x1x2_S4096x2 : S4096x1x2.ShapeCasts S4096x2
  slices_S4096x4x2_S4096x1x2_0_0_0 : S4096x4x2.Slices ![0, 0, 0] S4096x1x2
  slices_S4096x4x2_S4096x1x2_0_3_0 : S4096x4x2.Slices ![0, 3, 0] S4096x1x2
  reducesTo_S4096x2x4_S4096x2_d2 : S4096x2x4.ReducesTo [2] S4096x2
  h_S_ : 0 < S_.numel
  transposes_S4096x2x4096x4_S4096x4096x2x4_2_0_1_3 : S4096x2x4096x4.Transposes [2, 0, 1, 3] S4096x4096x2x4
  reducesTo_S4096x4096x2x4_S4096x4096x2_d3 : S4096x4096x2x4.ReducesTo [3] S4096x4096x2
  transposes_S4096x4096x2_S4096x4096x2_1_0_2 : S4096x4096x2.Transposes [1, 0, 2] S4096x4096x2
  bcast_S4096x1x2_S4096x4096x2_0_1_2 : S4096x1x2.BroadcastsInDim S4096x4096x2 (![0, 1, 2] : Fin 3 → Fin S4096x4096x2.rank)
  bcast_S_S4096x4096x2 : S_.BroadcastsInDim S4096x4096x2 (![] : Fin 0 → Fin S4096x4096x2.rank)
  bcast_S4096x2_S1x4096x2_1_2 : S4096x2.BroadcastsInDim S1x4096x2 (![1, 2] : Fin 2 → Fin S1x4096x2.rank)
  bcast_S1x4096x2_S4096x4096x2_0_1_2 : S1x4096x2.BroadcastsInDim S4096x4096x2 (![0, 1, 2] : Fin 3 → Fin S4096x4096x2.rank)
  concatenates_S4096x4096x2_S4096x4096x2_S4096x4096x4_d2 : Shape.Concatenates [S4096x4096x2, S4096x4096x2] S4096x4096x4 2
  reducesTo_S4096x4096x4_S4096x4096_d2 : S4096x4096x4.ReducesTo [2] S4096x4096
  bcast_S_S4096x4096 : S_.BroadcastsInDim S4096x4096 (![] : Fin 0 → Fin S4096x4096.rank)
  bcast_S_S4096 : S_.BroadcastsInDim S4096 (![] : Fin 0 → Fin S4096.rank)
  dot_S4096x4x2_S4096x2x2_S4096x4x2_2_1_1_2_0_0_wf : DotDims.WF S4096x4x2 S4096x2x2 S4096x4x2 [2] [1] [1] [2] [0] [0]
  dot_S4096x2x2_S4096x4x2_S4096x2x4_2_2_1_1_0_0_wf : DotDims.WF S4096x2x2 S4096x4x2 S4096x2x4 [2] [2] [1] [1] [0] [0]
  dot_S4096x2x2_S4096x4x2_S4096x2x4096x4_2_2_01_01_n_n_wf : DotDims.WF S4096x2x2 S4096x4x2 S4096x2x4096x4 [2] [2] [0, 1] [0, 1] [] []
  scatter_S4096x4096_S4096x2_S4096_n_01_01_1_wf : ScatterDims.WF S4096x4096 S4096x2 S4096 [] [0, 1] [0, 1] 1

variable [Facts₀]

def dot_S4096x4x2_S4096x2x2_S4096x4x2_2_1_1_2_0_0 : DotDims S4096x4x2 S4096x2x2 S4096x4x2 where
  lhsContracting := [2]
  rhsContracting := [1]
  lhsNonContracting := [1]
  rhsNonContracting := [2]
  lhsBatch := [0]
  rhsBatch := [0]
  wf := dot_S4096x4x2_S4096x2x2_S4096x4x2_2_1_1_2_0_0_wf
def dot_S4096x2x2_S4096x4x2_S4096x2x4_2_2_1_1_0_0 : DotDims S4096x2x2 S4096x4x2 S4096x2x4 where
  lhsContracting := [2]
  rhsContracting := [2]
  lhsNonContracting := [1]
  rhsNonContracting := [1]
  lhsBatch := [0]
  rhsBatch := [0]
  wf := dot_S4096x2x2_S4096x4x2_S4096x2x4_2_2_1_1_0_0_wf
def dot_S4096x2x2_S4096x4x2_S4096x2x4096x4_2_2_01_01_n_n : DotDims S4096x2x2 S4096x4x2 S4096x2x4096x4 where
  lhsContracting := [2]
  rhsContracting := [2]
  lhsNonContracting := [0, 1]
  rhsNonContracting := [0, 1]
  lhsBatch := []
  rhsBatch := []
  wf := dot_S4096x2x2_S4096x4x2_S4096x2x4096x4_2_2_01_01_n_n_wf
def scatter_S4096x4096_S4096x2_S4096_n_01_01_1 : ScatterDims S4096x4096 S4096x2 S4096 where
  updateWindowDims := []
  insertedWindowDims := [0, 1]
  scatterDimsToOperandDims := [0, 1]
  indexVectorDim := 1
  wf := scatter_S4096x4096_S4096x2_S4096_n_01_01_1_wf

class Facts : Prop extends Facts₀ where

variable [Facts]
-- ==== Proof.RStages.lean ====
/- SCRIPT-MADE by: bun scratch/mkstages.js ReferenceIdeal main_v111   (run in the unit directory; scratch/mkstages.js is filed with the unit). The host operations of
   proof/ReferenceIdeal.lean's @main up to the one that writes main_v111, re-spelt one definition an operation: t_<buffer> x is what the buffer holds when the
   argument array holds x, as the operation's own function of the buffers it reads. Definitions only; every lemma about them is written by hand. -/
import proofs.«172119_j59760174957246_1_alg».proof.Proof.Gen.ReferenceIdeal

noncomputable section

namespace Cert.ReferenceIdeal.Stages

open Cert.ReferenceIdeal Cert.ReferenceIdeal.Gen Idealize.ShloMosaic

variable {F : FTy → Type} [FloatOps F]

/-- The argument array. -/
def t_main_arg0 (x : FVec F S4096x5 .f32) : FVec F S4096x5 .f32 := x
/-- %cst = stablehlo.constant dense<[[-1.000000e+00, -1.000000e+00], [1.000000e+00, -1.000000e+00], [1.000000e+00, 1.000000e+00], [-1.000000e+00, 1.000000e+00]]> : tensor<4x2xf32> -/
def t_main_cst (x : FVec F S4096x5 .f32) : FVec F S4x2 .f32 := fun i => FloatOps.ofBits .f32 (lit0 (S4x2.rowMajor i))
/-- %0 = stablehlo.slice %arg0 [0:4096, 0:2] : (tensor<4096x5xf32>) -> tensor<4096x2xf32>  @ reference:21 -/
def t_main_v0 (x : FVec F S4096x5 .f32) : FVec F S4096x2 .f32 := ((extractStridedSlice S4096x2 ![0, 0] · slices_S4096x5_S4096x2_0_0)) (t_main_arg0 x)
/-- %1 = stablehlo.slice %arg0 [0:4096, 2:4] : (tensor<4096x5xf32>) -> tensor<4096x2xf32>  @ reference:21 -/
def t_main_v1 (x : FVec F S4096x5 .f32) : FVec F S4096x2 .f32 := ((extractStridedSlice S4096x2 ![0, 2] · slices_S4096x5_S4096x2_0_2)) (t_main_arg0 x)
/-- %2 = stablehlo.slice %arg0 [0:4096, 4:5] : (tensor<4096x5xf32>) -> tensor<4096x1xf32>  @ reference:21 -/
def t_main_v2 (x : FVec F S4096x5 .f32) : FVec F S4096x1 .f32 := ((extractStridedSlice S4096x1 ![0, 4] · slices_S4096x5_S4096x1_0_4)) (t_main_arg0 x)
/-- %3 = stablehlo.reshape %2 : (tensor<4096x1xf32>) -> tensor<4096xf32>  @ reference:21 -/
def t_main_v3 (x : FVec F S4096x5 .f32) : FVec F S4096 .f32 := shapeCast S4096 (t_main_v2 x) shapeCasts_S4096x1_S4096
/-- %4 = stablehlo.broadcast_in_dim %cst, dims = [1, 2] : (tensor<4x2xf32>) -> tensor<1x4x2xf32>  @ reference:22 -/
def t_main_v4 (x : FVec F S4096x5 .f32) : FVec F S1x4x2 .f32 := (broadcastInDim S1x4x2 ![1, 2] bcast_S4x2_S1x4x2_1_2) (t_main_cst x)
/-- %cst_0 = stablehlo.constant dense<5.000000e-01> : tensor<f32> -/
def t_main_cst_0 (x : FVec F S4096x5 .f32) : FVec F S_ .f32 := constant S_ .f32 0x3F000000#32
/-- %5 = stablehlo.broadcast_in_dim %cst_0, dims = [] : (tensor<f32>) -> tensor<4096x2xf32>  @ reference:22 -/
def t_main_v5 (x : FVec F S4096x5 .f32) : FVec F S4096x2 .f32 := (broadcastInDim S4096x2 ![] bcast_S_S4096x2) (t_main_cst_0 x)
/-- %6 = stablehlo.multiply %1, %5 : tensor<4096x2xf32>  @ reference:22 -/
def t_main_v6 (x : FVec F S4096x5 .f32) : FVec F S4096x2 .f32 := (mulf) (t_main_v1 x) (t_main_v5 x)
/-- %7 = stablehlo.broadcast_in_dim %6, dims = [0, 2] : (tensor<4096x2xf32>) -> tensor<4096x1x2xf32>  @ reference:22 -/
def t_main_v7 (x : FVec F S4096x5 .f32) : FVec F S4096x1x2 .f32 := (broadcastInDim S4096x1x2 ![0, 2] bcast_S4096x2_S4096x1x2_0_2) (t_main_v6 x)
/-- %8 = stablehlo.broadcast_in_dim %4, dims = [0, 1, 2] : (tensor<1x4x2xf32>) -> tensor<4096x4x2xf32>  @ reference:22 -/
def t_main_v8 (x : FVec F S4096x5 .f32) : FVec F S4096x4x2 .f32 := (broadcastInDim S4096x4x2 ![0, 1, 2] bcast_S1x4x2_S4096x4x2_0_1_2) (t_main_v4 x)
/-- %9 = stablehlo.broadcast_in_dim %7, dims = [0, 1, 2] : (tensor<4096x1x2xf32>) -> tensor<4096x4x2xf32>  @ reference:22 -/
def t_main_v9 (x : FVec F S4096x5 .f32) : FVec F S4096x4x2 .f32 := (broadcastInDim S4096x4x2 ![0, 1, 2] bcast_S4096x1x2_S4096x4x2_0_1_2) (t_main_v7 x)
/-- %10 = stablehlo.multiply %8, %9 : tensor<4096x4x2xf32>  @ reference:22 -/
def t_main_v10 (x : FVec F S4096x5 .f32) : FVec F S4096x4x2 .f32 := (mulf) (t_main_v8 x) (t_main_v9 x)
/-- %11 = stablehlo.cosine %3 : tensor<4096xf32>  @ reference:23 -/
def t_main_v11 (x : FVec F S4096x5 .f32) : FVec F S4096 .f32 := (Host.cos) (t_main_v3 x)
/-- %12 = stablehlo.sine %3 : tensor<4096xf32>  @ reference:23 -/
def t_main_v12 (x : FVec F S4096x5 .f32) : FVec F S4096 .f32 := (Host.sin) (t_main_v3 x)
/-- %13 = stablehlo.negate %12 : tensor<4096xf32>  @ reference:24 -/
def t_main_v13 (x : FVec F S4096x5 .f32) : FVec F S4096 .f32 := (Host.negf) (t_main_v12 x)
/-- %14 = stablehlo.broadcast_in_dim %11, dims = [0] : (tensor<4096xf32>) -> tensor<4096x1xf32>  @ reference:24 -/
def t_main_v14 (x : FVec F S4096x5 .f32) : FVec F S4096x1 .f32 := (broadcastInDim S4096x1 ![0] bcast_S4096_S4096x1_0) (t_main_v11 x)
/-- %15 = stablehlo.broadcast_in_dim %13, dims = [0] : (tensor<4096xf32>) -> tensor<4096x1xf32>  @ reference:24 -/
def t_main_v15 (x : FVec F S4096x5 .f32) : FVec F S4096x1 .f32 := (broadcastInDim S4096x1 ![0] bcast_S4096_S4096x1_0) (t_main_v13 x)
/-- %16 = stablehlo.concatenate %14, %15, dim = 1 : (tensor<4096x1xf32>, tensor<4096x1xf32>) -> tensor<4096x2xf32>  @ reference:24 -/
def t_main_v16 (x : FVec F S4096x5 .f32) : FVec F S4096x2 .f32 := ((fun a b => concatenate S4096x2 1 [⟨S4096x1, a⟩, ⟨S4096x1, b⟩] concatenates_S4096x1_S4096x1_S4096x2_d1)) (t_main_v14 x) (t_main_v15 x)
/-- %17 = stablehlo.broadcast_in_dim %12, dims = [0] : (tensor<4096xf32>) -> tensor<4096x1xf32>  @ reference:25 -/
def t_main_v17 (x : FVec F S4096x5 .f32) : FVec F S4096x1 .f32 := (broadcastInDim S4096x1 ![0] bcast_S4096_S4096x1_0) (t_main_v12 x)
/-- %18 = stablehlo.broadcast_in_dim %11, dims = [0] : (tensor<4096xf32>) -> tensor<4096x1xf32>  @ reference:25 -/
def t_main_v18 (x : FVec F S4096x5 .f32) : FVec F S4096x1 .f32 := (broadcastInDim S4096x1 ![0] bcast_S4096_S4096x1_0) (t_main_v11 x)
/-- %19 = stablehlo.concatenate %17, %18, dim = 1 : (tensor<4096x1xf32>, tensor<4096x1xf32>) -> tensor<4096x2xf32>  @ reference:25 -/
def t_main_v19 (x : FVec F S4096x5 .f32) : FVec F S4096x2 .f32 := ((fun a b => concatenate S4096x2 1 [⟨S4096x1, a⟩, ⟨S4096x1, b⟩] concatenates_S4096x1_S4096x1_S4096x2_d1)) (t_main_v17 x) (t_main_v18 x)
/-- %20 = stablehlo.broadcast_in_dim %16, dims = [0, 2] : (tensor<4096x2xf32>) -> tensor<4096x1x2xf32>  @ reference:24 -/
def t_main_v20 (x : FVec F S4096x5 .f32) : FVec F S4096x1x2 .f32 := (broadcastInDim S4096x1x2 ![0, 2] bcast_S4096x2_S4096x1x2_0_2) (t_main_v16 x)
/-- %21 = stablehlo.broadcast_in_dim %19, dims = [0, 2] : (tensor<4096x2xf32>) -> tensor<4096x1x2xf32>  @ reference:24 -/
def t_main_v21 (x : FVec F S4096x5 .f32) : FVec F S4096x1x2 .f32 := (broadcastInDim S4096x1x2 ![0, 2] bcast_S4096x2_S4096x1x2_0_2) (t_main_v19 x)
/-- %22 = stablehlo.concatenate %20, %21, dim = 1 : (tensor<4096x1x2xf32>, tensor<4096x1x2xf32>) -> tensor<4096x2x2xf32>  @ reference:24 -/
def t_main_v22 (x : FVec F S4096x5 .f32) : FVec F S4096x2x2 .f32 := ((fun a b => concatenate S4096x2x2 1 [⟨S4096x1x2, a⟩, ⟨S4096x1x2, b⟩] concatenates_S4096x1x2_S4096x1x2_S4096x2x2_d1)) (t_main_v20 x) (t_main_v21 x)
/-- %23 = stablehlo.dot_general %10, %22, batching_dims = [0] x [0], contracting_dims = [2] x [1], precision = [DEFAULT, DEFAULT] : (tensor<4096x4x2xf32>, tensor<4096x2x2xf32>) -> tensor<4096x4x2xf32>  @ reference:26 -/
def t_main_v23 (x : FVec F S4096x5 .f32) : FVec F S4096x4x2 .f32 := ((fun l r => Host.dotGeneral dot_S4096x4x2_S4096x2x2_S4096x4x2_2_1_1_2_0_0 none l r)) (t_main_v10 x) (t_main_v22 x)
/-- %24 = stablehlo.broadcast_in_dim %0, dims = [0, 2] : (tensor<4096x2xf32>) -> tensor<4096x1x2xf32>  @ reference:26 -/
def t_main_v24 (x : FVec F S4096x5 .f32) : FVec F S4096x1x2 .f32 := (broadcastInDim S4096x1x2 ![0, 2] bcast_S4096x2_S4096x1x2_0_2) (t_main_v0 x)
/-- %25 = stablehlo.broadcast_in_dim %24, dims = [0, 1, 2] : (tensor<4096x1x2xf32>) -> tensor<4096x4x2xf32>  @ reference:26 -/
def t_main_v25 (x : FVec F S4096x5 .f32) : FVec F S4096x4x2 .f32 := (broadcastInDim S4096x4x2 ![0, 1, 2] bcast_S4096x1x2_S4096x4x2_0_1_2) (t_main_v24 x)
/-- %26 = stablehlo.add %23, %25 : tensor<4096x4x2xf32>  @ reference:26 -/
def t_main_v26 (x : FVec F S4096x5 .f32) : FVec F S4096x4x2 .f32 := (addf) (t_main_v23 x) (t_main_v25 x)
/-- %27 = stablehlo.slice %26 [0:4096, 1:2, 0:2] : (tensor<4096x4x2xf32>) -> tensor<4096x1x2xf32>  @ reference:41 -/
def t_main_v27 (x : FVec F S4096x5 .f32) : FVec F S4096x1x2 .f32 := ((extractStridedSlice S4096x1x2 ![0, 1, 0] · slices_S4096x4x2_S4096x1x2_0_1_0)) (t_main_v26 x)
/-- %28 = stablehlo.reshape %27 : (tensor<4096x1x2xf32>) -> tensor<4096x2xf32>  @ reference:41 -/
def t_main_v28 (x : FVec F S4096x5 .f32) : FVec F S4096x2 .f32 := shapeCast S4096x2 (t_main_v27 x) shapeCasts_S4096x1x2_S4096x2
/-- %29 = stablehlo.slice %26 [0:4096, 0:1, 0:2] : (tensor<4096x4x2xf32>) -> tensor<4096x1x2xf32>  @ reference:41 -/
def t_main_v29 (x : FVec F S4096x5 .f32) : FVec F S4096x1x2 .f32 := ((extractStridedSlice S4096x1x2 ![0, 0, 0] · slices_S4096x4x2_S4096x1x2_0_0_0)) (t_main_v26 x)
/-- %30 = stablehlo.reshape %29 : (tensor<4096x1x2xf32>) -> tensor<4096x2xf32>  @ reference:41 -/
def t_main_v30 (x : FVec F S4096x5 .f32) : FVec F S4096x2 .f32 := shapeCast S4096x2 (t_main_v29 x) shapeCasts_S4096x1x2_S4096x2
/-- %31 = stablehlo.subtract %28, %30 : tensor<4096x2xf32>  @ reference:41 -/
def t_main_v31 (x : FVec F S4096x5 .f32) : FVec F S4096x2 .f32 := (subf) (t_main_v28 x) (t_main_v30 x)
/-- %32 = stablehlo.slice %26 [0:4096, 3:4, 0:2] : (tensor<4096x4x2xf32>) -> tensor<4096x1x2xf32>  @ reference:42 -/
def t_main_v32 (x : FVec F S4096x5 .f32) : FVec F S4096x1x2 .f32 := ((extractStridedSlice S4096x1x2 ![0, 3, 0] · slices_S4096x4x2_S4096x1x2_0_3_0)) (t_main_v26 x)
/-- %33 = stablehlo.reshape %32 : (tensor<4096x1x2xf32>) -> tensor<4096x2xf32>  @ reference:42 -/
def t_main_v33 (x : FVec F S4096x5 .f32) : FVec F S4096x2 .f32 := shapeCast S4096x2 (t_main_v32 x) shapeCasts_S4096x1x2_S4096x2
/-- %34 = stablehlo.slice %26 [0:4096, 0:1, 0:2] : (tensor<4096x4x2xf32>) -> tensor<4096x1x2xf32>  @ reference:42 -/
def t_main_v34 (x : FVec F S4096x5 .f32) : FVec F S4096x1x2 .f32 := ((extractStridedSlice S4096x1x2 ![0, 0, 0] · slices_S4096x4x2_S4096x1x2_0_0_0)) (t_main_v26 x)
/-- %35 = stablehlo.reshape %34 : (tensor<4096x1x2xf32>) -> tensor<4096x2xf32>  @ reference:42 -/
def t_main_v35 (x : FVec F S4096x5 .f32) : FVec F S4096x2 .f32 := shapeCast S4096x2 (t_main_v34 x) shapeCasts_S4096x1x2_S4096x2
/-- %36 = stablehlo.subtract %33, %35 : tensor<4096x2xf32>  @ reference:42 -/
def t_main_v36 (x : FVec F S4096x5 .f32) : FVec F S4096x2 .f32 := (subf) (t_main_v33 x) (t_main_v35 x)
/-- %37 = stablehlo.broadcast_in_dim %31, dims = [0, 2] : (tensor<4096x2xf32>) -> tensor<4096x1x2xf32>  @ reference:41 -/
def t_main_v37 (x : FVec F S4096x5 .f32) : FVec F S4096x1x2 .f32 := (broadcastInDim S4096x1x2 ![0, 2] bcast_S4096x2_S4096x1x2_0_2) (t_main_v31 x)
/-- %38 = stablehlo.broadcast_in_dim %36, dims = [0, 2] : (tensor<4096x2xf32>) -> tensor<4096x1x2xf32>  @ reference:41 -/
def t_main_v38 (x : FVec F S4096x5 .f32) : FVec F S4096x1x2 .f32 := (broadcastInDim S4096x1x2 ![0, 2] bcast_S4096x2_S4096x1x2_0_2) (t_main_v36 x)
/-- %39 = stablehlo.concatenate %37, %38, dim = 1 : (tensor<4096x1x2xf32>, tensor<4096x1x2xf32>) -> tensor<4096x2x2xf32>  @ reference:41 -/
def t_main_v39 (x : FVec F S4096x5 .f32) : FVec F S4096x2x2 .f32 := ((fun a b => concatenate S4096x2x2 1 [⟨S4096x1x2, a⟩, ⟨S4096x1x2, b⟩] concatenates_S4096x1x2_S4096x1x2_S4096x2x2_d1)) (t_main_v37 x) (t_main_v38 x)
/-- %40 = stablehlo.dot_general %39, %26, batching_dims = [0] x [0], contracting_dims = [2] x [2], precision = [DEFAULT, DEFAULT] : (tensor<4096x2x2xf32>, tensor<4096x4x2xf32>) -> tensor<4096x2x4xf32>  @ reference:44 -/
def t_main_v40 (x : FVec F S4096x5 .f32) : FVec F S4096x2x4 .f32 := ((fun l r => Host.dotGeneral dot_S4096x2x2_S4096x4x2_S4096x2x4_2_2_1_1_0_0 none l r)) (t_main_v39 x) (t_main_v26 x)
/-- %cst_1 = stablehlo.constant dense<0x7F800000> : tensor<f32> -/
def t_main_cst_1 (x : FVec F S4096x5 .f32) : FVec F S_ .f32 := constant S_ .f32 0x7F800000#32
/-- %41 = stablehlo.reduce(%40 init: %cst_1) applies stablehlo.minimum across dimensions = [2] : (tensor<4096x2x4xf32>, tensor<f32>) -> tensor<4096x2xf32> {  @ reference:45 -/
def t_main_v41 (x : FVec F S4096x5 .f32) : FVec F S4096x2 .f32 := ((fun x v => Host.reduce FloatOps.minimumf x v reducesTo_S4096x2x4_S4096x2_d2 h_S_)) (t_main_v40 x) (t_main_cst_1 x)
/-- %cst_2 = stablehlo.constant dense<0xFF800000> : tensor<f32> -/
def t_main_cst_2 (x : FVec F S4096x5 .f32) : FVec F S_ .f32 := constant S_ .f32 0xFF800000#32
/-- %42 = stablehlo.reduce(%40 init: %cst_2) applies stablehlo.maximum across dimensions = [2] : (tensor<4096x2x4xf32>, tensor<f32>) -> tensor<4096x2xf32> {  @ reference:45 -/
def t_main_v42 (x : FVec F S4096x5 .f32) : FVec F S4096x2 .f32 := ((fun x v => Host.reduce FloatOps.maximumf x v reducesTo_S4096x2x4_S4096x2_d2 h_S_)) (t_main_v40 x) (t_main_cst_2 x)
/-- %43 = stablehlo.dot_general %39, %26, contracting_dims = [2] x [2], precision = [DEFAULT, DEFAULT] : (tensor<4096x2x2xf32>, tensor<4096x4x2xf32>) -> tensor<4096x2x4096x4xf32>  @ reference:47 -/
def t_main_v43 (x : FVec F S4096x5 .f32) : FVec F S4096x2x4096x4 .f32 := ((fun l r => Host.dotGeneral dot_S4096x2x2_S4096x4x2_S4096x2x4096x4_2_2_01_01_n_n none l r)) (t_main_v39 x) (t_main_v26 x)
/-- %44 = stablehlo.transpose %43, dims = [2, 0, 1, 3] : (tensor<4096x2x4096x4xf32>) -> tensor<4096x4096x2x4xf32>  @ reference:47 -/
def t_main_v44 (x : FVec F S4096x5 .f32) : FVec F S4096x4096x2x4 .f32 := ((transpose S4096x4096x2x4 [2, 0, 1, 3] · transposes_S4096x2x4096x4_S4096x4096x2x4_2_0_1_3)) (t_main_v43 x)
/-- %cst_3 = stablehlo.constant dense<0x7F800000> : tensor<f32> -/
def t_main_cst_3 (x : FVec F S4096x5 .f32) : FVec F S_ .f32 := constant S_ .f32 0x7F800000#32
/-- %45 = stablehlo.reduce(%44 init: %cst_3) applies stablehlo.minimum across dimensions = [3] : (tensor<4096x4096x2x4xf32>, tensor<f32>) -> tensor<4096x4096x2xf32> {  @ reference:48 -/
def t_main_v45 (x : FVec F S4096x5 .f32) : FVec F S4096x4096x2 .f32 := ((fun x v => Host.reduce FloatOps.minimumf x v reducesTo_S4096x4096x2x4_S4096x4096x2_d3 h_S_)) (t_main_v44 x) (t_main_cst_3 x)
/-- %cst_4 = stablehlo.constant dense<0xFF800000> : tensor<f32> -/
def t_main_cst_4 (x : FVec F S4096x5 .f32) : FVec F S_ .f32 := constant S_ .f32 0xFF800000#32
/-- %46 = stablehlo.reduce(%44 init: %cst_4) applies stablehlo.maximum across dimensions = [3] : (tensor<4096x4096x2x4xf32>, tensor<f32>) -> tensor<4096x4096x2xf32> {  @ reference:48 -/
def t_main_v46 (x : FVec F S4096x5 .f32) : FVec F S4096x4096x2 .f32 := ((fun x v => Host.reduce FloatOps.maximumf x v reducesTo_S4096x4096x2x4_S4096x4096x2_d3 h_S_)) (t_main_v44 x) (t_main_cst_4 x)
/-- %47 = stablehlo.transpose %45, dims = [1, 0, 2] : (tensor<4096x4096x2xf32>) -> tensor<4096x4096x2xf32>  @ reference:50 -/
def t_main_v47 (x : FVec F S4096x5 .f32) : FVec F S4096x4096x2 .f32 := ((transpose S4096x4096x2 [1, 0, 2] · transposes_S4096x4096x2_S4096x4096x2_1_0_2)) (t_main_v45 x)
/-- %48 = stablehlo.transpose %46, dims = [1, 0, 2] : (tensor<4096x4096x2xf32>) -> tensor<4096x4096x2xf32>  @ reference:50 -/
def t_main_v48 (x : FVec F S4096x5 .f32) : FVec F S4096x4096x2 .f32 := ((transpose S4096x4096x2 [1, 0, 2] · transposes_S4096x4096x2_S4096x4096x2_1_0_2)) (t_main_v46 x)
/-- %49 = stablehlo.broadcast_in_dim %41, dims = [0, 2] : (tensor<4096x2xf32>) -> tensor<4096x1x2xf32>  @ reference:52 -/
def t_main_v49 (x : FVec F S4096x5 .f32) : FVec F S4096x1x2 .f32 := (broadcastInDim S4096x1x2 ![0, 2] bcast_S4096x2_S4096x1x2_0_2) (t_main_v41 x)
/-- %50 = stablehlo.broadcast_in_dim %42, dims = [0, 2] : (tensor<4096x2xf32>) -> tensor<4096x1x2xf32>  @ reference:52 -/
def t_main_v50 (x : FVec F S4096x5 .f32) : FVec F S4096x1x2 .f32 := (broadcastInDim S4096x1x2 ![0, 2] bcast_S4096x2_S4096x1x2_0_2) (t_main_v42 x)
/-- %51 = stablehlo.broadcast_in_dim %50, dims = [0, 1, 2] : (tensor<4096x1x2xf32>) -> tensor<4096x4096x2xf32>  @ reference:31 -/
def t_main_v51 (x : FVec F S4096x5 .f32) : FVec F S4096x4096x2 .f32 := (broadcastInDim S4096x4096x2 ![0, 1, 2] bcast_S4096x1x2_S4096x4096x2_0_1_2) (t_main_v50 x)
/-- %52 = stablehlo.minimum %51, %48 : tensor<4096x4096x2xf32>  @ reference:31 -/
def t_main_v52 (x : FVec F S4096x5 .f32) : FVec F S4096x4096x2 .f32 := (minimumf) (t_main_v51 x) (t_main_v48 x)
/-- %53 = stablehlo.broadcast_in_dim %49, dims = [0, 1, 2] : (tensor<4096x1x2xf32>) -> tensor<4096x4096x2xf32>  @ reference:31 -/
def t_main_v53 (x : FVec F S4096x5 .f32) : FVec F S4096x4096x2 .f32 := (broadcastInDim S4096x4096x2 ![0, 1, 2] bcast_S4096x1x2_S4096x4096x2_0_1_2) (t_main_v49 x)
/-- %54 = stablehlo.maximum %53, %47 : tensor<4096x4096x2xf32>  @ reference:31 -/
def t_main_v54 (x : FVec F S4096x5 .f32) : FVec F S4096x4096x2 .f32 := (maximumf) (t_main_v53 x) (t_main_v47 x)
/-- %55 = stablehlo.subtract %52, %54 : tensor<4096x4096x2xf32>  @ reference:31 -/
def t_main_v55 (x : FVec F S4096x5 .f32) : FVec F S4096x4096x2 .f32 := (subf) (t_main_v52 x) (t_main_v54 x)
/-- %cst_5 = stablehlo.constant dense<0.000000e+00> : tensor<f32> -/
def t_main_cst_5 (x : FVec F S4096x5 .f32) : FVec F S_ .f32 := constant S_ .f32 0x00000000#32
/-- @clip's %0 = stablehlo.convert %arg1 : tensor<f32>  (in main_call0) -/
def t_main_call0_v0 (x : FVec F S4096x5 .f32) : FVec F S_ .f32 := (id) (t_main_cst_5 x)
/-- @clip's %1 = stablehlo.broadcast_in_dim %0, dims = [] : (tensor<f32>) -> tensor<4096x4096x2xf32>  (in main_call0) -/
def t_main_call0_v1 (x : FVec F S4096x5 .f32) : FVec F S4096x4096x2 .f32 := ((broadcastInDim S4096x4096x2 ![] bcast_S_S4096x4096x2)) (t_main_call0_v0 x)
/-- @clip's %2 = stablehlo.maximum %1, %arg0 : tensor<4096x4096x2xf32>  (in main_call0) -/
def t_main_v56 (x : FVec F S4096x5 .f32) : FVec F S4096x4096x2 .f32 := (maximumf) (t_main_call0_v1 x) (t_main_v55 x)
/-- %57 = stablehlo.subtract %50, %49 : tensor<4096x1x2xf32>  @ reference:32 -/
def t_main_v57 (x : FVec F S4096x5 .f32) : FVec F S4096x1x2 .f32 := (subf) (t_main_v50 x) (t_main_v49 x)
/-- %58 = stablehlo.subtract %48, %47 : tensor<4096x4096x2xf32>  @ reference:32 -/
def t_main_v58 (x : FVec F S4096x5 .f32) : FVec F S4096x4096x2 .f32 := (subf) (t_main_v48 x) (t_main_v47 x)
/-- %59 = stablehlo.broadcast_in_dim %57, dims = [0, 1, 2] : (tensor<4096x1x2xf32>) -> tensor<4096x4096x2xf32>  @ reference:32 -/
def t_main_v59 (x : FVec F S4096x5 .f32) : FVec F S4096x4096x2 .f32 := (broadcastInDim S4096x4096x2 ![0, 1, 2] bcast_S4096x1x2_S4096x4096x2_0_1_2) (t_main_v57 x)
/-- %60 = stablehlo.add %59, %58 : tensor<4096x4096x2xf32>  @ reference:32 -/
def t_main_v60 (x : FVec F S4096x5 .f32) : FVec F S4096x4096x2 .f32 := (addf) (t_main_v59 x) (t_main_v58 x)
/-- %61 = stablehlo.subtract %60, %56 : tensor<4096x4096x2xf32>  @ reference:32 -/
def t_main_v61 (x : FVec F S4096x5 .f32) : FVec F S4096x4096x2 .f32 := (subf) (t_main_v60 x) (t_main_v56 x)
/-- %62 = stablehlo.broadcast_in_dim %50, dims = [0, 1, 2] : (tensor<4096x1x2xf32>) -> tensor<4096x4096x2xf32>  @ reference:33 -/
def t_main_v62 (x : FVec F S4096x5 .f32) : FVec F S4096x4096x2 .f32 := (broadcastInDim S4096x4096x2 ![0, 1, 2] bcast_S4096x1x2_S4096x4096x2_0_1_2) (t_main_v50 x)
/-- %63 = stablehlo.maximum %62, %48 : tensor<4096x4096x2xf32>  @ reference:33 -/
def t_main_v63 (x : FVec F S4096x5 .f32) : FVec F S4096x4096x2 .f32 := (maximumf) (t_main_v62 x) (t_main_v48 x)
/-- %64 = stablehlo.broadcast_in_dim %49, dims = [0, 1, 2] : (tensor<4096x1x2xf32>) -> tensor<4096x4096x2xf32>  @ reference:33 -/
def t_main_v64 (x : FVec F S4096x5 .f32) : FVec F S4096x4096x2 .f32 := (broadcastInDim S4096x4096x2 ![0, 1, 2] bcast_S4096x1x2_S4096x4096x2_0_1_2) (t_main_v49 x)
/-- %65 = stablehlo.minimum %64, %47 : tensor<4096x4096x2xf32>  @ reference:33 -/
def t_main_v65 (x : FVec F S4096x5 .f32) : FVec F S4096x4096x2 .f32 := (minimumf) (t_main_v64 x) (t_main_v47 x)
/-- %66 = stablehlo.subtract %63, %65 : tensor<4096x4096x2xf32>  @ reference:33 -/
def t_main_v66 (x : FVec F S4096x5 .f32) : FVec F S4096x4096x2 .f32 := (subf) (t_main_v63 x) (t_main_v65 x)
/-- %67 = stablehlo.divide %56, %61 : tensor<4096x4096x2xf32>  @ reference:34 -/
def t_main_v67 (x : FVec F S4096x5 .f32) : FVec F S4096x4096x2 .f32 := (Host.divf) (t_main_v56 x) (t_main_v61 x)
/-- %68 = stablehlo.subtract %66, %61 : tensor<4096x4096x2xf32>  @ reference:34 -/
def t_main_v68 (x : FVec F S4096x5 .f32) : FVec F S4096x4096x2 .f32 := (subf) (t_main_v66 x) (t_main_v61 x)
/-- %69 = stablehlo.divide %68, %66 : tensor<4096x4096x2xf32>  @ reference:34 -/
def t_main_v69 (x : FVec F S4096x5 .f32) : FVec F S4096x4096x2 .f32 := (Host.divf) (t_main_v68 x) (t_main_v66 x)
/-- %70 = stablehlo.subtract %67, %69 : tensor<4096x4096x2xf32>  @ reference:34 -/
def t_main_v70 (x : FVec F S4096x5 .f32) : FVec F S4096x4096x2 .f32 := (subf) (t_main_v67 x) (t_main_v69 x)
/-- %71 = stablehlo.broadcast_in_dim %41, dims = [1, 2] : (tensor<4096x2xf32>) -> tensor<1x4096x2xf32>  @ reference:54 -/
def t_main_v71 (x : FVec F S4096x5 .f32) : FVec F S1x4096x2 .f32 := (broadcastInDim S1x4096x2 ![1, 2] bcast_S4096x2_S1x4096x2_1_2) (t_main_v41 x)
/-- %72 = stablehlo.broadcast_in_dim %42, dims = [1, 2] : (tensor<4096x2xf32>) -> tensor<1x4096x2xf32>  @ reference:54 -/
def t_main_v72 (x : FVec F S4096x5 .f32) : FVec F S1x4096x2 .f32 := (broadcastInDim S1x4096x2 ![1, 2] bcast_S4096x2_S1x4096x2_1_2) (t_main_v42 x)
/-- %73 = stablehlo.broadcast_in_dim %72, dims = [0, 1, 2] : (tensor<1x4096x2xf32>) -> tensor<4096x4096x2xf32>  @ reference:31 -/
def t_main_v73 (x : FVec F S4096x5 .f32) : FVec F S4096x4096x2 .f32 := (broadcastInDim S4096x4096x2 ![0, 1, 2] bcast_S1x4096x2_S4096x4096x2_0_1_2) (t_main_v72 x)
/-- %74 = stablehlo.minimum %46, %73 : tensor<4096x4096x2xf32>  @ reference:31 -/
def t_main_v74 (x : FVec F S4096x5 .f32) : FVec F S4096x4096x2 .f32 := (minimumf) (t_main_v46 x) (t_main_v73 x)
/-- %75 = stablehlo.broadcast_in_dim %71, dims = [0, 1, 2] : (tensor<1x4096x2xf32>) -> tensor<4096x4096x2xf32>  @ reference:31 -/
def t_main_v75 (x : FVec F S4096x5 .f32) : FVec F S4096x4096x2 .f32 := (broadcastInDim S4096x4096x2 ![0, 1, 2] bcast_S1x4096x2_S4096x4096x2_0_1_2) (t_main_v71 x)
/-- %76 = stablehlo.maximum %45, %75 : tensor<4096x4096x2xf32>  @ reference:31 -/
def t_main_v76 (x : FVec F S4096x5 .f32) : FVec F S4096x4096x2 .f32 := (maximumf) (t_main_v45 x) (t_main_v75 x)
/-- %77 = stablehlo.subtract %74, %76 : tensor<4096x4096x2xf32>  @ reference:31 -/
def t_main_v77 (x : FVec F S4096x5 .f32) : FVec F S4096x4096x2 .f32 := (subf) (t_main_v74 x) (t_main_v76 x)
/-- %cst_6 = stablehlo.constant dense<0.000000e+00> : tensor<f32> -/
def t_main_cst_6 (x : FVec F S4096x5 .f32) : FVec F S_ .f32 := constant S_ .f32 0x00000000#32
/-- @clip's %0 = stablehlo.convert %arg1 : tensor<f32>  (in main_call1) -/
def t_main_call1_v0 (x : FVec F S4096x5 .f32) : FVec F S_ .f32 := (id) (t_main_cst_6 x)
/-- @clip's %1 = stablehlo.broadcast_in_dim %0, dims = [] : (tensor<f32>) -> tensor<4096x4096x2xf32>  (in main_call1) -/
def t_main_call1_v1 (x : FVec F S4096x5 .f32) : FVec F S4096x4096x2 .f32 := ((broadcastInDim S4096x4096x2 ![] bcast_S_S4096x4096x2)) (t_main_call1_v0 x)
/-- @clip's %2 = stablehlo.maximum %1, %arg0 : tensor<4096x4096x2xf32>  (in main_call1) -/
def t_main_v78 (x : FVec F S4096x5 .f32) : FVec F S4096x4096x2 .f32 := (maximumf) (t_main_call1_v1 x) (t_main_v77 x)
/-- %79 = stablehlo.subtract %46, %45 : tensor<4096x4096x2xf32>  @ reference:32 -/
def t_main_v79 (x : FVec F S4096x5 .f32) : FVec F S4096x4096x2 .f32 := (subf) (t_main_v46 x) (t_main_v45 x)
/-- %80 = stablehlo.subtract %72, %71 : tensor<1x4096x2xf32>  @ reference:32 -/
def t_main_v80 (x : FVec F S4096x5 .f32) : FVec F S1x4096x2 .f32 := (subf) (t_main_v72 x) (t_main_v71 x)
/-- %81 = stablehlo.broadcast_in_dim %80, dims = [0, 1, 2] : (tensor<1x4096x2xf32>) -> tensor<4096x4096x2xf32>  @ reference:32 -/
def t_main_v81 (x : FVec F S4096x5 .f32) : FVec F S4096x4096x2 .f32 := (broadcastInDim S4096x4096x2 ![0, 1, 2] bcast_S1x4096x2_S4096x4096x2_0_1_2) (t_main_v80 x)
/-- %82 = stablehlo.add %79, %81 : tensor<4096x4096x2xf32>  @ reference:32 -/
def t_main_v82 (x : FVec F S4096x5 .f32) : FVec F S4096x4096x2 .f32 := (addf) (t_main_v79 x) (t_main_v81 x)
/-- %83 = stablehlo.subtract %82, %78 : tensor<4096x4096x2xf32>  @ reference:32 -/
def t_main_v83 (x : FVec F S4096x5 .f32) : FVec F S4096x4096x2 .f32 := (subf) (t_main_v82 x) (t_main_v78 x)
/-- %84 = stablehlo.broadcast_in_dim %72, dims = [0, 1, 2] : (tensor<1x4096x2xf32>) -> tensor<4096x4096x2xf32>  @ reference:33 -/
def t_main_v84 (x : FVec F S4096x5 .f32) : FVec F S4096x4096x2 .f32 := (broadcastInDim S4096x4096x2 ![0, 1, 2] bcast_S1x4096x2_S4096x4096x2_0_1_2) (t_main_v72 x)
/-- %85 = stablehlo.maximum %46, %84 : tensor<4096x4096x2xf32>  @ reference:33 -/
def t_main_v85 (x : FVec F S4096x5 .f32) : FVec F S4096x4096x2 .f32 := (maximumf) (t_main_v46 x) (t_main_v84 x)
/-- %86 = stablehlo.broadcast_in_dim %71, dims = [0, 1, 2] : (tensor<1x4096x2xf32>) -> tensor<4096x4096x2xf32>  @ reference:33 -/
def t_main_v86 (x : FVec F S4096x5 .f32) : FVec F S4096x4096x2 .f32 := (broadcastInDim S4096x4096x2 ![0, 1, 2] bcast_S1x4096x2_S4096x4096x2_0_1_2) (t_main_v71 x)
/-- %87 = stablehlo.minimum %45, %86 : tensor<4096x4096x2xf32>  @ reference:33 -/
def t_main_v87 (x : FVec F S4096x5 .f32) : FVec F S4096x4096x2 .f32 := (minimumf) (t_main_v45 x) (t_main_v86 x)
/-- %88 = stablehlo.subtract %85, %87 : tensor<4096x4096x2xf32>  @ reference:33 -/
def t_main_v88 (x : FVec F S4096x5 .f32) : FVec F S4096x4096x2 .f32 := (subf) (t_main_v85 x) (t_main_v87 x)
/-- %89 = stablehlo.divide %78, %83 : tensor<4096x4096x2xf32>  @ reference:34 -/
def t_main_v89 (x : FVec F S4096x5 .f32) : FVec F S4096x4096x2 .f32 := (Host.divf) (t_main_v78 x) (t_main_v83 x)
/-- %90 = stablehlo.subtract %88, %83 : tensor<4096x4096x2xf32>  @ reference:34 -/
def t_main_v90 (x : FVec F S4096x5 .f32) : FVec F S4096x4096x2 .f32 := (subf) (t_main_v88 x) (t_main_v83 x)
/-- %91 = stablehlo.divide %90, %88 : tensor<4096x4096x2xf32>  @ reference:34 -/
def t_main_v91 (x : FVec F S4096x5 .f32) : FVec F S4096x4096x2 .f32 := (Host.divf) (t_main_v90 x) (t_main_v88 x)
/-- %92 = stablehlo.subtract %89, %91 : tensor<4096x4096x2xf32>  @ reference:34 -/
def t_main_v92 (x : FVec F S4096x5 .f32) : FVec F S4096x4096x2 .f32 := (subf) (t_main_v89 x) (t_main_v91 x)
/-- %93 = stablehlo.concatenate %70, %92, dim = 2 : (tensor<4096x4096x2xf32>, tensor<4096x4096x2xf32>) -> tensor<4096x4096x4xf32>  @ reference:55 -/
def t_main_v93 (x : FVec F S4096x5 .f32) : FVec F S4096x4096x4 .f32 := ((fun a b => concatenate S4096x4096x4 2 [⟨S4096x4096x2, a⟩, ⟨S4096x4096x2, b⟩] concatenates_S4096x4096x2_S4096x4096x2_S4096x4096x4_d2)) (t_main_v70 x) (t_main_v92 x)
/-- %cst_7 = stablehlo.constant dense<0x7F800000> : tensor<f32> -/
def t_main_cst_7 (x : FVec F S4096x5 .f32) : FVec F S_ .f32 := constant S_ .f32 0x7F800000#32
/-- %94 = stablehlo.reduce(%93 init: %cst_7) applies stablehlo.minimum across dimensions = [2] : (tensor<4096x4096x4xf32>, tensor<f32>) -> tensor<4096x4096xf32> {  @ reference:55 -/
def t_main_v94 (x : FVec F S4096x5 .f32) : FVec F S4096x4096 .f32 := ((fun x v => Host.reduce FloatOps.minimumf x v reducesTo_S4096x4096x4_S4096x4096_d2 h_S_)) (t_main_v93 x) (t_main_cst_7 x)
/-- %cst_8 = stablehlo.constant dense<0.000000e+00> : tensor<f32> -/
def t_main_cst_8 (x : FVec F S4096x5 .f32) : FVec F S_ .f32 := constant S_ .f32 0x00000000#32
/-- @clip_0's %0 = stablehlo.convert %arg1 : tensor<f32>  (in main_call2) -/
def t_main_call2_v0 (x : FVec F S4096x5 .f32) : FVec F S_ .f32 := (id) (t_main_cst_8 x)
/-- @clip_0's %1 = stablehlo.broadcast_in_dim %0, dims = [] : (tensor<f32>) -> tensor<4096x4096xf32>  (in main_call2) -/
def t_main_call2_v1 (x : FVec F S4096x5 .f32) : FVec F S4096x4096 .f32 := ((broadcastInDim S4096x4096 ![] bcast_S_S4096x4096)) (t_main_call2_v0 x)
/-- @clip_0's %2 = stablehlo.maximum %1, %arg0 : tensor<4096x4096xf32>  (in main_call2) -/
def t_main_v95 (x : FVec F S4096x5 .f32) : FVec F S4096x4096 .f32 := (maximumf) (t_main_call2_v1 x) (t_main_v94 x)
/-- %96 = stablehlo.iota dim = 0 : tensor<4096xi32>  @ reference:57 -/
def t_main_v96 (x : FVec F S4096x5 .f32) : IVec S4096 32 := iotaInDim S4096 32 0
/-- %c = stablehlo.constant dense<0> : tensor<i32> -/
def t_main_c (x : FVec F S4096x5 .f32) : IVec S_ 32 := constantI S_ 32 0#32
/-- %97 = stablehlo.broadcast_in_dim %c, dims = [] : (tensor<i32>) -> tensor<4096xi32>  @ reference:58 -/
def t_main_v97 (x : FVec F S4096x5 .f32) : IVec S4096 32 := (broadcastInDim S4096 ![] bcast_S_S4096) (t_main_c x)
/-- %98 = stablehlo.compare LT, %96, %97, SIGNED : (tensor<4096xi32>, tensor<4096xi32>) -> tensor<4096xi1>  @ reference:58 -/
def t_main_v98 (x : FVec F S4096x5 .f32) : IVec S4096 1 := (cmpi .slt) (t_main_v96 x) (t_main_v97 x)
/-- %c_9 = stablehlo.constant dense<4096> : tensor<i32> -/
def t_main_c_9 (x : FVec F S4096x5 .f32) : IVec S_ 32 := constantI S_ 32 4096#32
/-- %99 = stablehlo.broadcast_in_dim %c_9, dims = [] : (tensor<i32>) -> tensor<4096xi32>  @ reference:58 -/
def t_main_v99 (x : FVec F S4096x5 .f32) : IVec S4096 32 := (broadcastInDim S4096 ![] bcast_S_S4096) (t_main_c_9 x)
/-- %100 = stablehlo.add %96, %99 : tensor<4096xi32>  @ reference:58 -/
def t_main_v100 (x : FVec F S4096x5 .f32) : IVec S4096 32 := (addi) (t_main_v96 x) (t_main_v99 x)
/-- %101 = stablehlo.select %98, %100, %96 : tensor<4096xi1>, tensor<4096xi32>  @ reference:58 -/
def t_main_v101 (x : FVec F S4096x5 .f32) : IVec S4096 32 := (select) (t_main_v98 x) (t_main_v100 x) (t_main_v96 x)
/-- %c_10 = stablehlo.constant dense<0> : tensor<i32> -/
def t_main_c_10 (x : FVec F S4096x5 .f32) : IVec S_ 32 := constantI S_ 32 0#32
/-- %102 = stablehlo.broadcast_in_dim %c_10, dims = [] : (tensor<i32>) -> tensor<4096xi32>  @ reference:58 -/
def t_main_v102 (x : FVec F S4096x5 .f32) : IVec S4096 32 := (broadcastInDim S4096 ![] bcast_S_S4096) (t_main_c_10 x)
/-- %103 = stablehlo.compare LT, %96, %102, SIGNED : (tensor<4096xi32>, tensor<4096xi32>) -> tensor<4096xi1>  @ reference:58 -/
def t_main_v103 (x : FVec F S4096x5 .f32) : IVec S4096 1 := (cmpi .slt) (t_main_v96 x) (t_main_v102 x)
/-- %c_11 = stablehlo.constant dense<4096> : tensor<i32> -/
def t_main_c_11 (x : FVec F S4096x5 .f32) : IVec S_ 32 := constantI S_ 32 4096#32
/-- %104 = stablehlo.broadcast_in_dim %c_11, dims = [] : (tensor<i32>) -> tensor<4096xi32>  @ reference:58 -/
def t_main_v104 (x : FVec F S4096x5 .f32) : IVec S4096 32 := (broadcastInDim S4096 ![] bcast_S_S4096) (t_main_c_11 x)
/-- %105 = stablehlo.add %96, %104 : tensor<4096xi32>  @ reference:58 -/
def t_main_v105 (x : FVec F S4096x5 .f32) : IVec S4096 32 := (addi) (t_main_v96 x) (t_main_v104 x)
/-- %106 = stablehlo.select %103, %105, %96 : tensor<4096xi1>, tensor<4096xi32>  @ reference:58 -/
def t_main_v106 (x : FVec F S4096x5 .f32) : IVec S4096 32 := (select) (t_main_v103 x) (t_main_v105 x) (t_main_v96 x)
/-- %107 = stablehlo.broadcast_in_dim %101, dims = [0] : (tensor<4096xi32>) -> tensor<4096x1xi32>  @ reference:58 -/
def t_main_v107 (x : FVec F S4096x5 .f32) : IVec S4096x1 32 := (broadcastInDim S4096x1 ![0] bcast_S4096_S4096x1_0) (t_main_v101 x)
/-- %108 = stablehlo.broadcast_in_dim %106, dims = [0] : (tensor<4096xi32>) -> tensor<4096x1xi32>  @ reference:58 -/
def t_main_v108 (x : FVec F S4096x5 .f32) : IVec S4096x1 32 := (broadcastInDim S4096x1 ![0] bcast_S4096_S4096x1_0) (t_main_v106 x)
/-- %109 = stablehlo.concatenate %107, %108, dim = 1 : (tensor<4096x1xi32>, tensor<4096x1xi32>) -> tensor<4096x2xi32>  @ reference:58 -/
def t_main_v109 (x : FVec F S4096x5 .f32) : IVec S4096x2 32 := ((fun a b => concatenate S4096x2 1 [⟨S4096x1, a⟩, ⟨S4096x1, b⟩] concatenates_S4096x1_S4096x1_S4096x2_d1)) (t_main_v107 x) (t_main_v108 x)
/-- %cst_12 = stablehlo.constant dense<0.000000e+00> : tensor<f32> -/
def t_main_cst_12 (x : FVec F S4096x5 .f32) : FVec F S_ .f32 := constant S_ .f32 0x00000000#32
/-- %110 = stablehlo.broadcast_in_dim %cst_12, dims = [] : (tensor<f32>) -> tensor<4096xf32>  @ reference:58 -/
def t_main_v110 (x : FVec F S4096x5 .f32) : FVec F S4096 .f32 := (broadcastInDim S4096 ![] bcast_S_S4096) (t_main_cst_12 x)
/-- %111 = "stablehlo.scatter"(%95, %109, %110) <{indices_are_sorted = false, scatter_dimension_numbers = #stablehlo.scatter<inserted_window_dims = [0, 1], scatter_dims_to_operand_dims = [0, 1], index_vector_dim = 1>, unique_indices = false}> ( {  @ reference:58 -/
def t_main_v111 (x : FVec F S4096x5 .f32) : FVec F S4096x4096 .f32 := ((fun x i u => Host.scatter scatter_S4096x4096_S4096x2_S4096_n_01_01_1 (fun _ b => b) x i u)) (t_main_v95 x) (t_main_v109 x) (t_main_v110 x)

end Cert.ReferenceIdeal.Stages

end
-- ==== Proof.RRun.lean ====
/-
  The reference program's run: @main is a straight line of host operations (each of the three clamps its three operations,
  in place of the call), so every weakly fair execution ends with each buffer at the operations' value; the result buffer
  holds the last stage and the argument array is untouched.

  The line is taken in three consecutive parts of sixty, sixty-six and seven operations. After the first part ten buffers
  carry everything the second reads, after the second five carry everything the third reads; each of these is shown to hold
  its stage of the argument array (the stages are the same operations, one definition a buffer), and the parts are joined.
-/
import proofs.«172119_j59760174957246_1_alg».proof.Proof.RStages
import Idealize.ShloMosaic.Lib.StableHlo.Run
import Idealize.ShloMosaic.Lib.Pipeline.Frame
import Mathlib.Data.List.Basic

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-! ## The operations, in order -/

/-- The first sixty operations: each box's four corners, its two edge axes, the least and greatest projection of its
    corners on its own axes and of every box's corners on every box's axes, and the first terms of the overlap on the
    first box's axes. -/
private abbrev ops0 : List (HloOp τ sig (Elt F)) :=
  [ nullary main_cst (fun i => FloatOps.ofBits .f32 (lit0 (S4x2.rowMajor i))),
    unary main_arg0 main_v0 ((extractStridedSlice S4096x2 ![0, 0] · slices_S4096x5_S4096x2_0_0) : (⟨S4096x5, .f32⟩ : BufTy).Contents (Elt F) → (⟨S4096x2, .f32⟩ : BufTy).Contents (Elt F)),
    unary main_arg0 main_v1 ((extractStridedSlice S4096x2 ![0, 2] · slices_S4096x5_S4096x2_0_2) : (⟨S4096x5, .f32⟩ : BufTy).Contents (Elt F) → (⟨S4096x2, .f32⟩ : BufTy).Contents (Elt F)),
    unary main_arg0 main_v2 ((extractStridedSlice S4096x1 ![0, 4] · slices_S4096x5_S4096x1_0_4) : (⟨S4096x5, .f32⟩ : BufTy).Contents (Elt F) → (⟨S4096x1, .f32⟩ : BufTy).Contents (Elt F)),
    reshape main_v2 main_v3 rfl shapeCasts_S4096x1_S4096,
    unary main_cst main_v4 (broadcastInDim S1x4x2 ![1, 2] bcast_S4x2_S1x4x2_1_2 : (⟨S4x2, .f32⟩ : BufTy).Contents (Elt F) → (⟨S1x4x2, .f32⟩ : BufTy).Contents (Elt F)),
    nullary main_cst_0 (constant S_ .f32 0x3F000000#32),
    unary main_cst_0 main_v5 (broadcastInDim S4096x2 ![] bcast_S_S4096x2 : (⟨S_, .f32⟩ : BufTy).Contents (Elt F) → (⟨S4096x2, .f32⟩ : BufTy).Contents (Elt F)),
    binary main_v1 main_v5 main_v6 (mulf : (⟨S4096x2, .f32⟩ : BufTy).Contents (Elt F) → (⟨S4096x2, .f32⟩ : BufTy).Contents (Elt F) → (⟨S4096x2, .f32⟩ : BufTy).Contents (Elt F)),
    unary main_v6 main_v7 (broadcastInDim S4096x1x2 ![0, 2] bcast_S4096x2_S4096x1x2_0_2 : (⟨S4096x2, .f32⟩ : BufTy).Contents (Elt F) → (⟨S4096x1x2, .f32⟩ : BufTy).Contents (Elt F)),
    unary main_v4 main_v8 (broadcastInDim S4096x4x2 ![0, 1, 2] bcast_S1x4x2_S4096x4x2_0_1_2 : (⟨S1x4x2, .f32⟩ : BufTy).Contents (Elt F) → (⟨S4096x4x2, .f32⟩ : BufTy).Contents (Elt F)),
    unary main_v7 main_v9 (broadcastInDim S4096x4x2 ![0, 1, 2] bcast_S4096x1x2_S4096x4x2_0_1_2 : (⟨S4096x1x2, .f32⟩ : BufTy).Contents (Elt F) → (⟨S4096x4x2, .f32⟩ : BufTy).Contents (Elt F)),
    binary main_v8 main_v9 main_v10 (mulf : (⟨S4096x4x2, .f32⟩ : BufTy).Contents (Elt F) → (⟨S4096x4x2, .f32⟩ : BufTy).Contents (Elt F) → (⟨S4096x4x2, .f32⟩ : BufTy).Contents (Elt F)),
    unary main_v3 main_v11 (Host.cos : (⟨S4096, .f32⟩ : BufTy).Contents (Elt F) → (⟨S4096, .f32⟩ : BufTy).Contents (Elt F)),
    unary main_v3 main_v12 (Host.sin : (⟨S4096, .f32⟩ : BufTy).Contents (Elt F) → (⟨S4096, .f32⟩ : BufTy).Contents (Elt F)),
    unary main_v12 main_v13 (Host.negf : (⟨S4096, .f32⟩ : BufTy).Contents (Elt F) → (⟨S4096, .f32⟩ : BufTy).Contents (Elt F)),
    unary main_v11 main_v14 (broadcastInDim S4096x1 ![0] bcast_S4096_S4096x1_0 : (⟨S4096, .f32⟩ : BufTy).Contents (Elt F) → (⟨S4096x1, .f32⟩ : BufTy).Contents (Elt F)),
    unary main_v13 main_v15 (broadcastInDim S4096x1 ![0] bcast_S4096_S4096x1_0 : (⟨S4096, .f32⟩ : BufTy).Contents (Elt F) → (⟨S4096x1, .f32⟩ : BufTy).Contents (Elt F)),
    binary main_v14 main_v15 main_v16 ((fun a b => concatenate S4096x2 1 [⟨S4096x1, a⟩, ⟨S4096x1, b⟩] concatenates_S4096x1_S4096x1_S4096x2_d1) : (⟨S4096x1, .f32⟩ : BufTy).Contents (Elt F) → (⟨S4096x1, .f32⟩ : BufTy).Contents (Elt F) → (⟨S4096x2, .f32⟩ : BufTy).Contents (Elt F)),
    unary main_v12 main_v17 (broadcastInDim S4096x1 ![0] bcast_S4096_S4096x1_0 : (⟨S4096, .f32⟩ : BufTy).Contents (Elt F) → (⟨S4096x1, .f32⟩ : BufTy).Contents (Elt F)),
    unary main_v11 main_v18 (broadcastInDim S4096x1 ![0] bcast_S4096_S4096x1_0 : (⟨S4096, .f32⟩ : BufTy).Contents (Elt F) → (⟨S4096x1, .f32⟩ : BufTy).Contents (Elt F)),
    binary main_v17 main_v18 main_v19 ((fun a b => concatenate S4096x2 1 [⟨S4096x1, a⟩, ⟨S4096x1, b⟩] concatenates_S4096x1_S4096x1_S4096x2_d1) : (⟨S4096x1, .f32⟩ : BufTy).Contents (Elt F) → (⟨S4096x1, .f32⟩ : BufTy).Contents (Elt F) → (⟨S4096x2, .f32⟩ : BufTy).Contents (Elt F)),
    unary main_v16 main_v20 (broadcastInDim S4096x1x2 ![0, 2] bcast_S4096x2_S4096x1x2_0_2 : (⟨S4096x2, .f32⟩ : BufTy).Contents (Elt F) → (⟨S4096x1x2, .f32⟩ : BufTy).Contents (Elt F)),
    unary main_v19 main_v21 (broadcastInDim S4096x1x2 ![0, 2] bcast_S4096x2_S4096x1x2_0_2 : (⟨S4096x2, .f32⟩ : BufTy).Contents (Elt F) → (⟨S4096x1x2, .f32⟩ : BufTy).Contents (Elt F)),
    binary main_v20 main_v21 main_v22 ((fun a b => concatenate S4096x2x2 1 [⟨S4096x1x2, a⟩, ⟨S4096x1x2, b⟩] concatenates_S4096x1x2_S4096x1x2_S4096x2x2_d1) : (⟨S4096x1x2, .f32⟩ : BufTy).Contents (Elt F) → (⟨S4096x1x2, .f32⟩ : BufTy).Contents (Elt F) → (⟨S4096x2x2, .f32⟩ : BufTy).Contents (Elt F)),
    binary main_v10 main_v22 main_v23 ((fun l r => Host.dotGeneral dot_S4096x4x2_S4096x2x2_S4096x4x2_2_1_1_2_0_0 none l r) : (⟨S4096x4x2, .f32⟩ : BufTy).Contents (Elt F) → (⟨S4096x2x2, .f32⟩ : BufTy).Contents (Elt F) → (⟨S4096x4x2, .f32⟩ : BufTy).Contents (Elt F)),
    unary main_v0 main_v24 (broadcastInDim S4096x1x2 ![0, 2] bcast_S4096x2_S4096x1x2_0_2 : (⟨S4096x2, .f32⟩ : BufTy).Contents (Elt F) → (⟨S4096x1x2, .f32⟩ : BufTy).Contents (Elt F)),
    unary main_v24 main_v25 (broadcastInDim S4096x4x2 ![0, 1, 2] bcast_S4096x1x2_S4096x4x2_0_1_2 : (⟨S4096x1x2, .f32⟩ : BufTy).Contents (Elt F) → (⟨S4096x4x2, .f32⟩ : BufTy).Contents (Elt F)),
    binary main_v23 main_v25 main_v26 (addf : (⟨S4096x4x2, .f32⟩ : BufTy).Contents (Elt F) → (⟨S4096x4x2, .f32⟩ : BufTy).Contents (Elt F) → (⟨S4096x4x2, .f32⟩ : BufTy).Contents (Elt F)),
    unary main_v26 main_v27 ((extractStridedSlice S4096x1x2 ![0, 1, 0] · slices_S4096x4x2_S4096x1x2_0_1_0) : (⟨S4096x4x2, .f32⟩ : BufTy).Contents (Elt F) → (⟨S4096x1x2, .f32⟩ : BufTy).Contents (Elt F)),
    reshape main_v27 main_v28 rfl shapeCasts_S4096x1x2_S4096x2,
    unary main_v26 main_v29 ((extractStridedSlice S4096x1x2 ![0, 0, 0] · slices_S4096x4x2_S4096x1x2_0_0_0) : (⟨S4096x4x2, .f32⟩ : BufTy).Contents (Elt F) → (⟨S4096x1x2, .f32⟩ : BufTy).Contents (Elt F)),
    reshape main_v29 main_v30 rfl shapeCasts_S4096x1x2_S4096x2,
    binary main_v28 main_v30 main_v31 (subf : (⟨S4096x2, .f32⟩ : BufTy).Contents (Elt F) → (⟨S4096x2, .f32⟩ : BufTy).Contents (Elt F) → (⟨S4096x2, .f32⟩ : BufTy).Contents (Elt F)),
    unary main_v26 main_v32 ((extractStridedSlice S4096x1x2 ![0, 3, 0] · slices_S4096x4x2_S4096x1x2_0_3_0) : (⟨S4096x4x2, .f32⟩ : BufTy).Contents (Elt F) → (⟨S4096x1x2, .f32⟩ : BufTy).Contents (Elt F)),
    reshape main_v32 main_v33 rfl shapeCasts_S4096x1x2_S4096x2,
    unary main_v26 main_v34 ((extractStridedSlice S4096x1x2 ![0, 0, 0] · slices_S4096x4x2_S4096x1x2_0_0_0) : (⟨S4096x4x2, .f32⟩ : BufTy).Contents (Elt F) → (⟨S4096x1x2, .f32⟩ : BufTy).Contents (Elt F)),
    reshape main_v34 main_v35 rfl shapeCasts_S4096x1x2_S4096x2,
    binary main_v33 main_v35 main_v36 (subf : (⟨S4096x2, .f32⟩ : BufTy).Contents (Elt F) → (⟨S4096x2, .f32⟩ : BufTy).Contents (Elt F) → (⟨S4096x2, .f32⟩ : BufTy).Contents (Elt F)),
    unary main_v31 main_v37 (broadcastInDim S4096x1x2 ![0, 2] bcast_S4096x2_S4096x1x2_0_2 : (⟨S4096x2, .f32⟩ : BufTy).Contents (Elt F) → (⟨S4096x1x2, .f32⟩ : BufTy).Contents (Elt F)),
    unary main_v36 main_v38 (broadcastInDim S4096x1x2 ![0, 2] bcast_S4096x2_S4096x1x2_0_2 : (⟨S4096x2, .f32⟩ : BufTy).Contents (Elt F) → (⟨S4096x1x2, .f32⟩ : BufTy).Contents (Elt F)),
    binary main_v37 main_v38 main_v39 ((fun a b => concatenate S4096x2x2 1 [⟨S4096x1x2, a⟩, ⟨S4096x1x2, b⟩] concatenates_S4096x1x2_S4096x1x2_S4096x2x2_d1) : (⟨S4096x1x2, .f32⟩ : BufTy).Contents (Elt F) → (⟨S4096x1x2, .f32⟩ : BufTy).Contents (Elt F) → (⟨S4096x2x2, .f32⟩ : BufTy).Contents (Elt F)),
    binary main_v39 main_v26 main_v40 ((fun l r => Host.dotGeneral dot_S4096x2x2_S4096x4x2_S4096x2x4_2_2_1_1_0_0 none l r) : (⟨S4096x2x2, .f32⟩ : BufTy).Contents (Elt F) → (⟨S4096x4x2, .f32⟩ : BufTy).Contents (Elt F) → (⟨S4096x2x4, .f32⟩ : BufTy).Contents (Elt F)),
    nullary main_cst_1 (constant S_ .f32 0x7F800000#32),
    binary main_v40 main_cst_1 main_v41 ((fun x v => Host.reduce FloatOps.minimumf x v reducesTo_S4096x2x4_S4096x2_d2 h_S_) : (⟨S4096x2x4, .f32⟩ : BufTy).Contents (Elt F) → (⟨S_, .f32⟩ : BufTy).Contents (Elt F) → (⟨S4096x2, .f32⟩ : BufTy).Contents (Elt F)),
    nullary main_cst_2 (constant S_ .f32 0xFF800000#32),
    binary main_v40 main_cst_2 main_v42 ((fun x v => Host.reduce FloatOps.maximumf x v reducesTo_S4096x2x4_S4096x2_d2 h_S_) : (⟨S4096x2x4, .f32⟩ : BufTy).Contents (Elt F) → (⟨S_, .f32⟩ : BufTy).Contents (Elt F) → (⟨S4096x2, .f32⟩ : BufTy).Contents (Elt F)),
    binary main_v39 main_v26 main_v43 ((fun l r => Host.dotGeneral dot_S4096x2x2_S4096x4x2_S4096x2x4096x4_2_2_01_01_n_n none l r) : (⟨S4096x2x2, .f32⟩ : BufTy).Contents (Elt F) → (⟨S4096x4x2, .f32⟩ : BufTy).Contents (Elt F) → (⟨S4096x2x4096x4, .f32⟩ : BufTy).Contents (Elt F)),
    unary main_v43 main_v44 ((transpose S4096x4096x2x4 [2, 0, 1, 3] · transposes_S4096x2x4096x4_S4096x4096x2x4_2_0_1_3) : (⟨S4096x2x4096x4, .f32⟩ : BufTy).Contents (Elt F) → (⟨S4096x4096x2x4, .f32⟩ : BufTy).Contents (Elt F)),
    nullary main_cst_3 (constant S_ .f32 0x7F800000#32),
    binary main_v44 main_cst_3 main_v45 ((fun x v => Host.reduce FloatOps.minimumf x v reducesTo_S4096x4096x2x4_S4096x4096x2_d3 h_S_) : (⟨S4096x4096x2x4, .f32⟩ : BufTy).Contents (Elt F) → (⟨S_, .f32⟩ : BufTy).Contents (Elt F) → (⟨S4096x4096x2, .f32⟩ : BufTy).Contents (Elt F)),
    nullary main_cst_4 (constant S_ .f32 0xFF800000#32),
    binary main_v44 main_cst_4 main_v46 ((fun x v => Host.reduce FloatOps.maximumf x v reducesTo_S4096x4096x2x4_S4096x4096x2_d3 h_S_) : (⟨S4096x4096x2x4, .f32⟩ : BufTy).Contents (Elt F) → (⟨S_, .f32⟩ : BufTy).Contents (Elt F) → (⟨S4096x4096x2, .f32⟩ : BufTy).Contents (Elt F)),
    unary main_v45 main_v47 ((transpose S4096x4096x2 [1, 0, 2] · transposes_S4096x4096x2_S4096x4096x2_1_0_2) : (⟨S4096x4096x2, .f32⟩ : BufTy).Contents (Elt F) → (⟨S4096x4096x2, .f32⟩ : BufTy).Contents (Elt F)),
    unary main_v46 main_v48 ((transpose S4096x4096x2 [1, 0, 2] · transposes_S4096x4096x2_S4096x4096x2_1_0_2) : (⟨S4096x4096x2, .f32⟩ : BufTy).Contents (Elt F) → (⟨S4096x4096x2, .f32⟩ : BufTy).Contents (Elt F)),
    unary main_v41 main_v49 (broadcastInDim S4096x1x2 ![0, 2] bcast_S4096x2_S4096x1x2_0_2 : (⟨S4096x2, .f32⟩ : BufTy).Contents (Elt F) → (⟨S4096x1x2, .f32⟩ : BufTy).Contents (Elt F)),
    unary main_v42 main_v50 (broadcastInDim S4096x1x2 ![0, 2] bcast_S4096x2_S4096x1x2_0_2 : (⟨S4096x2, .f32⟩ : BufTy).Contents (Elt F) → (⟨S4096x1x2, .f32⟩ : BufTy).Contents (Elt F)),
    unary main_v50 main_v51 (broadcastInDim S4096x4096x2 ![0, 1, 2] bcast_S4096x1x2_S4096x4096x2_0_1_2 : (⟨S4096x1x2, .f32⟩ : BufTy).Contents (Elt F) → (⟨S4096x4096x2, .f32⟩ : BufTy).Contents (Elt F)),
    binary main_v51 main_v48 main_v52 (minimumf : (⟨S4096x4096x2, .f32⟩ : BufTy).Contents (Elt F) → (⟨S4096x4096x2, .f32⟩ : BufTy).Contents (Elt F) → (⟨S4096x4096x2, .f32⟩ : BufTy).Contents (Elt F)),
    unary main_v49 main_v53 (broadcastInDim S4096x4096x2 ![0, 1, 2] bcast_S4096x1x2_S4096x4096x2_0_1_2 : (⟨S4096x1x2, .f32⟩ : BufTy).Contents (Elt F) → (⟨S4096x4096x2, .f32⟩ : BufTy).Contents (Elt F)) ]

/-- The next sixty-six: on the first box's axes and on the second's, the overlap of the two projections' intervals clamped
    at zero, their union, their hull and the two ratios; the minimum of the four values, clamped at zero; and the first
    integer operations of the diagonal's index table. A clamp at zero is three operations: the bound at its own type (the
    identity), its broadcast, and the maximum with it. -/
private abbrev ops1 : List (HloOp τ sig (Elt F)) :=
  [ binary main_v53 main_v47 main_v54 (maximumf : (⟨S4096x4096x2, .f32⟩ : BufTy).Contents (Elt F) → (⟨S4096x4096x2, .f32⟩ : BufTy).Contents (Elt F) → (⟨S4096x4096x2, .f32⟩ : BufTy).Contents (Elt F)),
    binary main_v52 main_v54 main_v55 (subf : (⟨S4096x4096x2, .f32⟩ : BufTy).Contents (Elt F) → (⟨S4096x4096x2, .f32⟩ : BufTy).Contents (Elt F) → (⟨S4096x4096x2, .f32⟩ : BufTy).Contents (Elt F)),
    nullary main_cst_5 (constant S_ .f32 0x00000000#32),
    unary main_cst_5 main_call0_v0 (id : (⟨S_, .f32⟩ : BufTy).Contents (Elt F) → (⟨S_, .f32⟩ : BufTy).Contents (Elt F)),
    unary main_call0_v0 main_call0_v1 (broadcastInDim S4096x4096x2 ![] bcast_S_S4096x4096x2 : (⟨S_, .f32⟩ : BufTy).Contents (Elt F) → (⟨S4096x4096x2, .f32⟩ : BufTy).Contents (Elt F)),
    binary main_call0_v1 main_v55 main_v56 (maximumf : (⟨S4096x4096x2, .f32⟩ : BufTy).Contents (Elt F) → (⟨S4096x4096x2, .f32⟩ : BufTy).Contents (Elt F) → (⟨S4096x4096x2, .f32⟩ : BufTy).Contents (Elt F)),
    binary main_v50 main_v49 main_v57 (subf : (⟨S4096x1x2, .f32⟩ : BufTy).Contents (Elt F) → (⟨S4096x1x2, .f32⟩ : BufTy).Contents (Elt F) → (⟨S4096x1x2, .f32⟩ : BufTy).Contents (Elt F)),
    binary main_v48 main_v47 main_v58 (subf : (⟨S4096x4096x2, .f32⟩ : BufTy).Contents (Elt F) → (⟨S4096x4096x2, .f32⟩ : BufTy).Contents (Elt F) → (⟨S4096x4096x2, .f32⟩ : BufTy).Contents (Elt F)),
    unary main_v57 main_v59 (broadcastInDim S4096x4096x2 ![0, 1, 2] bcast_S4096x1x2_S4096x4096x2_0_1_2 : (⟨S4096x1x2, .f32⟩ : BufTy).Contents (Elt F) → (⟨S4096x4096x2, .f32⟩ : BufTy).Contents (Elt F)),
    binary main_v59 main_v58 main_v60 (addf : (⟨S4096x4096x2, .f32⟩ : BufTy).Contents (Elt F) → (⟨S4096x4096x2, .f32⟩ : BufTy).Contents (Elt F) → (⟨S4096x4096x2, .f32⟩ : BufTy).Contents (Elt F)),
    binary main_v60 main_v56 main_v61 (subf : (⟨S4096x4096x2, .f32⟩ : BufTy).Contents (Elt F) → (⟨S4096x4096x2, .f32⟩ : BufTy).Contents (Elt F) → (⟨S4096x4096x2, .f32⟩ : BufTy).Contents (Elt F)),
    unary main_v50 main_v62 (broadcastInDim S4096x4096x2 ![0, 1, 2] bcast_S4096x1x2_S4096x4096x2_0_1_2 : (⟨S4096x1x2, .f32⟩ : BufTy).Contents (Elt F) → (⟨S4096x4096x2, .f32⟩ : BufTy).Contents (Elt F)),
    binary main_v62 main_v48 main_v63 (maximumf : (⟨S4096x4096x2, .f32⟩ : BufTy).Contents (Elt F) → (⟨S4096x4096x2, .f32⟩ : BufTy).Contents (Elt F) → (⟨S4096x4096x2, .f32⟩ : BufTy).Contents (Elt F)),
    unary main_v49 main_v64 (broadcastInDim S4096x4096x2 ![0, 1, 2] bcast_S4096x1x2_S4096x4096x2_0_1_2 : (⟨S4096x1x2, .f32⟩ : BufTy).Contents (Elt F) → (⟨S4096x4096x2, .f32⟩ : BufTy).Contents (Elt F)),
    binary main_v64 main_v47 main_v65 (minimumf : (⟨S4096x4096x2, .f32⟩ : BufTy).Contents (Elt F) → (⟨S4096x4096x2, .f32⟩ : BufTy).Contents (Elt F) → (⟨S4096x4096x2, .f32⟩ : BufTy).Contents (Elt F)),
    binary main_v63 main_v65 main_v66 (subf : (⟨S4096x4096x2, .f32⟩ : BufTy).Contents (Elt F) → (⟨S4096x4096x2, .f32⟩ : BufTy).Contents (Elt F) → (⟨S4096x4096x2, .f32⟩ : BufTy).Contents (Elt F)),
    binary main_v56 main_v61 main_v67 (Host.divf : (⟨S4096x4096x2, .f32⟩ : BufTy).Contents (Elt F) → (⟨S4096x4096x2, .f32⟩ : BufTy).Contents (Elt F) → (⟨S4096x4096x2, .f32⟩ : BufTy).Contents (Elt F)),
    binary main_v66 main_v61 main_v68 (subf : (⟨S4096x4096x2, .f32⟩ : BufTy).Contents (Elt F) → (⟨S4096x4096x2, .f32⟩ : BufTy).Contents (Elt F) → (⟨S4096x4096x2, .f32⟩ : BufTy).Contents (Elt F)),
    binary main_v68 main_v66 main_v69 (Host.divf : (⟨S4096x4096x2, .f32⟩ : BufTy).Contents (Elt F) → (⟨S4096x4096x2, .f32⟩ : BufTy).Contents (Elt F) → (⟨S4096x4096x2, .f32⟩ : BufTy).Contents (Elt F)),
    binary main_v67 main_v69 main_v70 (subf : (⟨S4096x4096x2, .f32⟩ : BufTy).Contents (Elt F) → (⟨S4096x4096x2, .f32⟩ : BufTy).Contents (Elt F) → (⟨S4096x4096x2, .f32⟩ : BufTy).Contents (Elt F)),
    unary main_v41 main_v71 (broadcastInDim S1x4096x2 ![1, 2] bcast_S4096x2_S1x4096x2_1_2 : (⟨S4096x2, .f32⟩ : BufTy).Contents (Elt F) → (⟨S1x4096x2, .f32⟩ : BufTy).Contents (Elt F)),
    unary main_v42 main_v72 (broadcastInDim S1x4096x2 ![1, 2] bcast_S4096x2_S1x4096x2_1_2 : (⟨S4096x2, .f32⟩ : BufTy).Contents (Elt F) → (⟨S1x4096x2, .f32⟩ : BufTy).Contents (Elt F)),
    unary main_v72 main_v73 (broadcastInDim S4096x4096x2 ![0, 1, 2] bcast_S1x4096x2_S4096x4096x2_0_1_2 : (⟨S1x4096x2, .f32⟩ : BufTy).Contents (Elt F) → (⟨S4096x4096x2, .f32⟩ : BufTy).Contents (Elt F)),
    binary main_v46 main_v73 main_v74 (minimumf : (⟨S4096x4096x2, .f32⟩ : BufTy).Contents (Elt F) → (⟨S4096x4096x2, .f32⟩ : BufTy).Contents (Elt F) → (⟨S4096x4096x2, .f32⟩ : BufTy).Contents (Elt F)),
    unary main_v71 main_v75 (broadcastInDim S4096x4096x2 ![0, 1, 2] bcast_S1x4096x2_S4096x4096x2_0_1_2 : (⟨S1x4096x2, .f32⟩ : BufTy).Contents (Elt F) → (⟨S4096x4096x2, .f32⟩ : BufTy).Contents (Elt F)),
    binary main_v45 main_v75 main_v76 (maximumf : (⟨S4096x4096x2, .f32⟩ : BufTy).Contents (Elt F) → (⟨S4096x4096x2, .f32⟩ : BufTy).Contents (Elt F) → (⟨S4096x4096x2, .f32⟩ : BufTy).Contents (Elt F)),
    binary main_v74 main_v76 main_v77 (subf : (⟨S4096x4096x2, .f32⟩ : BufTy).Contents (Elt F) → (⟨S4096x4096x2, .f32⟩ : BufTy).Contents (Elt F) → (⟨S4096x4096x2, .f32⟩ : BufTy).Contents (Elt F)),
    nullary main_cst_6 (constant S_ .f32 0x00000000#32),
    unary main_cst_6 main_call1_v0 (id : (⟨S_, .f32⟩ : BufTy).Contents (Elt F) → (⟨S_, .f32⟩ : BufTy).Contents (Elt F)),
    unary main_call1_v0 main_call1_v1 (broadcastInDim S4096x4096x2 ![] bcast_S_S4096x4096x2 : (⟨S_, .f32⟩ : BufTy).Contents (Elt F) → (⟨S4096x4096x2, .f32⟩ : BufTy).Contents (Elt F)),
    binary main_call1_v1 main_v77 main_v78 (maximumf : (⟨S4096x4096x2, .f32⟩ : BufTy).Contents (Elt F) → (⟨S4096x4096x2, .f32⟩ : BufTy).Contents (Elt F) → (⟨S4096x4096x2, .f32⟩ : BufTy).Contents (Elt F)),
    binary main_v46 main_v45 main_v79 (subf : (⟨S4096x4096x2, .f32⟩ : BufTy).Contents (Elt F) → (⟨S4096x4096x2, .f32⟩ : BufTy).Contents (Elt F) → (⟨S4096x4096x2, .f32⟩ : BufTy).Contents (Elt F)),
    binary main_v72 main_v71 main_v80 (subf : (⟨S1x4096x2, .f32⟩ : BufTy).Contents (Elt F) → (⟨S1x4096x2, .f32⟩ : BufTy).Contents (Elt F) → (⟨S1x4096x2, .f32⟩ : BufTy).Contents (Elt F)),
    unary main_v80 main_v81 (broadcastInDim S4096x4096x2 ![0, 1, 2] bcast_S1x4096x2_S4096x4096x2_0_1_2 : (⟨S1x4096x2, .f32⟩ : BufTy).Contents (Elt F) → (⟨S4096x4096x2, .f32⟩ : BufTy).Contents (Elt F)),
    binary main_v79 main_v81 main_v82 (addf : (⟨S4096x4096x2, .f32⟩ : BufTy).Contents (Elt F) → (⟨S4096x4096x2, .f32⟩ : BufTy).Contents (Elt F) → (⟨S4096x4096x2, .f32⟩ : BufTy).Contents (Elt F)),
    binary main_v82 main_v78 main_v83 (subf : (⟨S4096x4096x2, .f32⟩ : BufTy).Contents (Elt F) → (⟨S4096x4096x2, .f32⟩ : BufTy).Contents (Elt F) → (⟨S4096x4096x2, .f32⟩ : BufTy).Contents (Elt F)),
    unary main_v72 main_v84 (broadcastInDim S4096x4096x2 ![0, 1, 2] bcast_S1x4096x2_S4096x4096x2_0_1_2 : (⟨S1x4096x2, .f32⟩ : BufTy).Contents (Elt F) → (⟨S4096x4096x2, .f32⟩ : BufTy).Contents (Elt F)),
    binary main_v46 main_v84 main_v85 (maximumf : (⟨S4096x4096x2, .f32⟩ : BufTy).Contents (Elt F) → (⟨S4096x4096x2, .f32⟩ : BufTy).Contents (Elt F) → (⟨S4096x4096x2, .f32⟩ : BufTy).Contents (Elt F)),
    unary main_v71 main_v86 (broadcastInDim S4096x4096x2 ![0, 1, 2] bcast_S1x4096x2_S4096x4096x2_0_1_2 : (⟨S1x4096x2, .f32⟩ : BufTy).Contents (Elt F) → (⟨S4096x4096x2, .f32⟩ : BufTy).Contents (Elt F)),
    binary main_v45 main_v86 main_v87 (minimumf : (⟨S4096x4096x2, .f32⟩ : BufTy).Contents (Elt F) → (⟨S4096x4096x2, .f32⟩ : BufTy).Contents (Elt F) → (⟨S4096x4096x2, .f32⟩ : BufTy).Contents (Elt F)),
    binary main_v85 main_v87 main_v88 (subf : (⟨S4096x4096x2, .f32⟩ : BufTy).Contents (Elt F) → (⟨S4096x4096x2, .f32⟩ : BufTy).Contents (Elt F) → (⟨S4096x4096x2, .f32⟩ : BufTy).Contents (Elt F)),
    binary main_v78 main_v83 main_v89 (Host.divf : (⟨S4096x4096x2, .f32⟩ : BufTy).Contents (Elt F) → (⟨S4096x4096x2, .f32⟩ : BufTy).Contents (Elt F) → (⟨S4096x4096x2, .f32⟩ : BufTy).Contents (Elt F)),
    binary main_v88 main_v83 main_v90 (subf : (⟨S4096x4096x2, .f32⟩ : BufTy).Contents (Elt F) → (⟨S4096x4096x2, .f32⟩ : BufTy).Contents (Elt F) → (⟨S4096x4096x2, .f32⟩ : BufTy).Contents (Elt F)),
    binary main_v90 main_v88 main_v91 (Host.divf : (⟨S4096x4096x2, .f32⟩ : BufTy).Contents (Elt F) → (⟨S4096x4096x2, .f32⟩ : BufTy).Contents (Elt F) → (⟨S4096x4096x2, .f32⟩ : BufTy).Contents (Elt F)),
    binary main_v89 main_v91 main_v92 (subf : (⟨S4096x4096x2, .f32⟩ : BufTy).Contents (Elt F) → (⟨S4096x4096x2, .f32⟩ : BufTy).Contents (Elt F) → (⟨S4096x4096x2, .f32⟩ : BufTy).Contents (Elt F)),
    binary main_v70 main_v92 main_v93 ((fun a b => concatenate S4096x4096x4 2 [⟨S4096x4096x2, a⟩, ⟨S4096x4096x2, b⟩] concatenates_S4096x4096x2_S4096x4096x2_S4096x4096x4_d2) : (⟨S4096x4096x2, .f32⟩ : BufTy).Contents (Elt F) → (⟨S4096x4096x2, .f32⟩ : BufTy).Contents (Elt F) → (⟨S4096x4096x4, .f32⟩ : BufTy).Contents (Elt F)),
    nullary main_cst_7 (constant S_ .f32 0x7F800000#32),
    binary main_v93 main_cst_7 main_v94 ((fun x v => Host.reduce FloatOps.minimumf x v reducesTo_S4096x4096x4_S4096x4096_d2 h_S_) : (⟨S4096x4096x4, .f32⟩ : BufTy).Contents (Elt F) → (⟨S_, .f32⟩ : BufTy).Contents (Elt F) → (⟨S4096x4096, .f32⟩ : BufTy).Contents (Elt F)),
    nullary main_cst_8 (constant S_ .f32 0x00000000#32),
    unary main_cst_8 main_call2_v0 (id : (⟨S_, .f32⟩ : BufTy).Contents (Elt F) → (⟨S_, .f32⟩ : BufTy).Contents (Elt F)),
    unary main_call2_v0 main_call2_v1 (broadcastInDim S4096x4096 ![] bcast_S_S4096x4096 : (⟨S_, .f32⟩ : BufTy).Contents (Elt F) → (⟨S4096x4096, .f32⟩ : BufTy).Contents (Elt F)),
    binary main_call2_v1 main_v94 main_v95 (maximumf : (⟨S4096x4096, .f32⟩ : BufTy).Contents (Elt F) → (⟨S4096x4096, .f32⟩ : BufTy).Contents (Elt F) → (⟨S4096x4096, .f32⟩ : BufTy).Contents (Elt F)),
    nullary main_v96 (iotaInDim S4096 32 0),
    nullary main_c (constantI S_ 32 0#32),
    unary main_c main_v97 (broadcastInDim S4096 ![] bcast_S_S4096 : (⟨S_, .i32⟩ : BufTy).Contents (Elt F) → (⟨S4096, .i32⟩ : BufTy).Contents (Elt F)),
    binary main_v96 main_v97 main_v98 (cmpi .slt : (⟨S4096, .i32⟩ : BufTy).Contents (Elt F) → (⟨S4096, .i32⟩ : BufTy).Contents (Elt F) → (⟨S4096, .i1⟩ : BufTy).Contents (Elt F)),
    nullary main_c_9 (constantI S_ 32 4096#32),
    unary main_c_9 main_v99 (broadcastInDim S4096 ![] bcast_S_S4096 : (⟨S_, .i32⟩ : BufTy).Contents (Elt F) → (⟨S4096, .i32⟩ : BufTy).Contents (Elt F)),
    binary main_v96 main_v99 main_v100 (addi : (⟨S4096, .i32⟩ : BufTy).Contents (Elt F) → (⟨S4096, .i32⟩ : BufTy).Contents (Elt F) → (⟨S4096, .i32⟩ : BufTy).Contents (Elt F)),
    ternary main_v98 main_v100 main_v96 main_v101 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    nullary main_c_10 (constantI S_ 32 0#32),
    unary main_c_10 main_v102 (broadcastInDim S4096 ![] bcast_S_S4096 : (⟨S_, .i32⟩ : BufTy).Contents (Elt F) → (⟨S4096, .i32⟩ : BufTy).Contents (Elt F)),
    binary main_v96 main_v102 main_v103 (cmpi .slt : (⟨S4096, .i32⟩ : BufTy).Contents (Elt F) → (⟨S4096, .i32⟩ : BufTy).Contents (Elt F) → (⟨S4096, .i1⟩ : BufTy).Contents (Elt F)),
    nullary main_c_11 (constantI S_ 32 4096#32),
    unary main_c_11 main_v104 (broadcastInDim S4096 ![] bcast_S_S4096 : (⟨S_, .i32⟩ : BufTy).Contents (Elt F) → (⟨S4096, .i32⟩ : BufTy).Contents (Elt F)),
    binary main_v96 main_v104 main_v105 (addi : (⟨S4096, .i32⟩ : BufTy).Contents (Elt F) → (⟨S4096, .i32⟩ : BufTy).Contents (Elt F) → (⟨S4096, .i32⟩ : BufTy).Contents (Elt F)) ]

/-- The last seven: the rest of the diagonal's index table, and zeros scattered over it. -/
private abbrev ops2 : List (HloOp τ sig (Elt F)) :=
  [ ternary main_v103 main_v105 main_v96 main_v106 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    unary main_v101 main_v107 (broadcastInDim S4096x1 ![0] bcast_S4096_S4096x1_0 : (⟨S4096, .i32⟩ : BufTy).Contents (Elt F) → (⟨S4096x1, .i32⟩ : BufTy).Contents (Elt F)),
    unary main_v106 main_v108 (broadcastInDim S4096x1 ![0] bcast_S4096_S4096x1_0 : (⟨S4096, .i32⟩ : BufTy).Contents (Elt F) → (⟨S4096x1, .i32⟩ : BufTy).Contents (Elt F)),
    binary main_v107 main_v108 main_v109 ((fun a b => concatenate S4096x2 1 [⟨S4096x1, a⟩, ⟨S4096x1, b⟩] concatenates_S4096x1_S4096x1_S4096x2_d1) : (⟨S4096x1, .i32⟩ : BufTy).Contents (Elt F) → (⟨S4096x1, .i32⟩ : BufTy).Contents (Elt F) → (⟨S4096x2, .i32⟩ : BufTy).Contents (Elt F)),
    nullary main_cst_12 (constant S_ .f32 0x00000000#32),
    unary main_cst_12 main_v110 (broadcastInDim S4096 ![] bcast_S_S4096 : (⟨S_, .f32⟩ : BufTy).Contents (Elt F) → (⟨S4096, .f32⟩ : BufTy).Contents (Elt F)),
    ternary main_v95 main_v109 main_v110 main_v111 ((fun x i u => Host.scatter scatter_S4096x4096_S4096x2_S4096_n_01_01_1 (fun _ b => b) x i u) : (⟨S4096x4096, .f32⟩ : BufTy).Contents (Elt F) → (⟨S4096x2, .i32⟩ : BufTy).Contents (Elt F) → (⟨S4096, .f32⟩ : BufTy).Contents (Elt F) → (⟨S4096x4096, .f32⟩ : BufTy).Contents (Elt F)) ]

/-! ## @main is that line -/

set_option maxRecDepth 8192 in
private theorem main_part0_eq (c : Dev nD) : main_part0 (F := F) c = seq ops0 := rfl
-- the clamps' definitions unfold at their calls, their typed references are literal (both transports the identity), and
-- the sequencing re-associates: all by computation
set_option maxRecDepth 8192 in
private theorem main_part1_eq (c : Dev nD) : main_part1 (F := F) c = seq ops1 := rfl
private theorem main_part2_eq (c : Dev nD) : main_part2 (F := F) c = seq ops2 := rfl

/-- @main is the three parts one after the other, so it is the line of all the operations. -/
private theorem main_eq (c : Dev nD) : main (F := F) c = seq (ops0 ++ (ops1 ++ ops2)) := by
  rw [seq_append, seq_append, ← main_part0_eq c, ← main_part1_eq c, ← main_part2_eq c]; rfl

/-! ## Every operation touches TensorCore buffers only, and determines its result -/

private theorem ops0_sub : (ops0 : List (HloOp τ sig (Elt F))).Forall fun op => op.bufs ⊆ tcRefs τ sig :=
  ⟨nullary_bufs_sub .., unary_bufs_sub .., unary_bufs_sub .., unary_bufs_sub .., reshape_bufs_sub .., unary_bufs_sub .., nullary_bufs_sub ..,
    unary_bufs_sub .., binary_bufs_sub .., unary_bufs_sub .., unary_bufs_sub .., unary_bufs_sub .., binary_bufs_sub .., unary_bufs_sub .., unary_bufs_sub ..,
    unary_bufs_sub .., unary_bufs_sub .., unary_bufs_sub .., binary_bufs_sub .., unary_bufs_sub .., unary_bufs_sub .., binary_bufs_sub .., unary_bufs_sub ..,
    unary_bufs_sub .., binary_bufs_sub .., binary_bufs_sub .., unary_bufs_sub .., unary_bufs_sub .., binary_bufs_sub .., unary_bufs_sub ..,
    reshape_bufs_sub .., unary_bufs_sub .., reshape_bufs_sub .., binary_bufs_sub .., unary_bufs_sub .., reshape_bufs_sub .., unary_bufs_sub ..,
    reshape_bufs_sub .., binary_bufs_sub .., unary_bufs_sub .., unary_bufs_sub .., binary_bufs_sub .., binary_bufs_sub .., nullary_bufs_sub ..,
    binary_bufs_sub .., nullary_bufs_sub .., binary_bufs_sub .., binary_bufs_sub .., unary_bufs_sub .., nullary_bufs_sub .., binary_bufs_sub ..,
    nullary_bufs_sub .., binary_bufs_sub .., unary_bufs_sub .., unary_bufs_sub .., unary_bufs_sub .., unary_bufs_sub .., unary_bufs_sub ..,
    binary_bufs_sub .., unary_bufs_sub ..⟩
private theorem ops1_sub : (ops1 : List (HloOp τ sig (Elt F))).Forall fun op => op.bufs ⊆ tcRefs τ sig :=
  ⟨binary_bufs_sub .., binary_bufs_sub .., nullary_bufs_sub .., unary_bufs_sub .., unary_bufs_sub .., binary_bufs_sub .., binary_bufs_sub ..,
    binary_bufs_sub .., unary_bufs_sub .., binary_bufs_sub .., binary_bufs_sub .., unary_bufs_sub .., binary_bufs_sub .., unary_bufs_sub ..,
    binary_bufs_sub .., binary_bufs_sub .., binary_bufs_sub .., binary_bufs_sub .., binary_bufs_sub .., binary_bufs_sub .., unary_bufs_sub ..,
    unary_bufs_sub .., unary_bufs_sub .., binary_bufs_sub .., unary_bufs_sub .., binary_bufs_sub .., binary_bufs_sub .., nullary_bufs_sub ..,
    unary_bufs_sub .., unary_bufs_sub .., binary_bufs_sub .., binary_bufs_sub .., binary_bufs_sub .., unary_bufs_sub .., binary_bufs_sub ..,
    binary_bufs_sub .., unary_bufs_sub .., binary_bufs_sub .., unary_bufs_sub .., binary_bufs_sub .., binary_bufs_sub .., binary_bufs_sub ..,
    binary_bufs_sub .., binary_bufs_sub .., binary_bufs_sub .., binary_bufs_sub .., nullary_bufs_sub .., binary_bufs_sub .., nullary_bufs_sub ..,
    unary_bufs_sub .., unary_bufs_sub .., binary_bufs_sub .., nullary_bufs_sub .., nullary_bufs_sub .., unary_bufs_sub .., binary_bufs_sub ..,
    nullary_bufs_sub .., unary_bufs_sub .., binary_bufs_sub .., ternary_bufs_sub .., nullary_bufs_sub .., unary_bufs_sub .., binary_bufs_sub ..,
    nullary_bufs_sub .., unary_bufs_sub .., binary_bufs_sub ..⟩
private theorem ops2_sub : (ops2 : List (HloOp τ sig (Elt F))).Forall fun op => op.bufs ⊆ tcRefs τ sig :=
  ⟨ternary_bufs_sub .., unary_bufs_sub .., unary_bufs_sub .., binary_bufs_sub .., nullary_bufs_sub .., unary_bufs_sub .., ternary_bufs_sub ..⟩
private theorem ops0_fresh : (ops0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl, rfl, rfl⟩
private theorem ops1_fresh : (ops1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl⟩
private theorem ops2_fresh : (ops2 : List (HloOp τ sig (Elt F))).Forall fun op => op.fresh = ∅ :=
  ⟨rfl, rfl, rfl, rfl, rfl, rfl, rfl⟩

private theorem ops_sub :
    (ops0 ++ (ops1 ++ ops2) : List (HloOp τ sig (Elt F))).Forall fun op => op.bufs ⊆ tcRefs τ sig :=
  List.forall_append.mpr ⟨ops0_sub, List.forall_append.mpr ⟨ops1_sub, ops2_sub⟩⟩
private theorem ops_fresh : ∀ op ∈ (ops0 ++ (ops1 ++ ops2) : List (HloOp τ sig (Elt F))), op.fresh = ∅ :=
  List.forall_iff_forall_mem.mp (List.forall_append.mpr ⟨ops0_fresh, List.forall_append.mpr ⟨ops1_fresh, ops2_fresh⟩⟩)

private theorem scopedRefs_eq : (Finset.univ.filter fun b : Ref sig .tc => b.isScoped) = ∅ := by decide
private theorem scopedSems_eq : (Finset.univ.filter fun sm : SemLoc sig => sm.isScoped .tc) = ∅ := by decide

/-! ## What the buffers hold after each part -/

/-- Two arrays of one shape joined along an axis, as a function of the two arrays. -/
private def cat2 {α : Type} (t : Shape) (a : Fin t.rank) (s : Shape) (h : Shape.Concatenates [s, s] t a) (u v : s.Idx → α) :
    t.Idx → α :=
  concatenate t a [⟨s, u⟩, ⟨s, v⟩] h

private theorem cat2_eq {α : Type} (t : Shape) (a : Fin t.rank) (s : Shape) (h : Shape.Concatenates [s, s] t a)
    (u v : s.Idx → α) : concatenate t a [⟨s, u⟩, ⟨s, v⟩] h = cat2 t a s h u v := rfl

/-- What a buffer holds after a line of operations, as the operations' functions of what the line found: one pass that
    reads each operation's result at its own buffer and passes over every other (two buffers told apart as references),
    a joined pair written as a function of its two arrays so that the pass reaches them. -/
macro "stage_simp" : tactic =>
  `(tactic| (simp (disch := decide) only [after_cons, after_nil, cat2_eq,
      nullary_result', unary_result', binary_result', ternary_result', reshape_result',
      nullary_result_ne', unary_result_ne', binary_result_ne', ternary_result_ne', reshape_result_ne']))

-- the equations below never look inside a reduction or the scatter: kept folded, the comparison does not open them
attribute [local irreducible] Host.reduce Host.scatter

/-! ### After the first part: each buffer the later operations read holds its stage of the argument array -/

set_option maxRecDepth 8192 in
private theorem w0_v53 (V : Valuation τ sig (Elt F)) :
    after ops0 V (main_v53 : DevRef τ sig) = Stages.t_main_v53 (V (main_arg0 : DevRef τ sig)) := by
  stage_simp
  rfl

set_option maxRecDepth 8192 in
private theorem w0_v47 (V : Valuation τ sig (Elt F)) :
    after ops0 V (main_v47 : DevRef τ sig) = Stages.t_main_v47 (V (main_arg0 : DevRef τ sig)) := by
  stage_simp
  rfl

set_option maxRecDepth 8192 in
private theorem w0_v52 (V : Valuation τ sig (Elt F)) :
    after ops0 V (main_v52 : DevRef τ sig) = Stages.t_main_v52 (V (main_arg0 : DevRef τ sig)) := by
  stage_simp
  rfl

set_option maxRecDepth 8192 in
private theorem w0_v50 (V : Valuation τ sig (Elt F)) :
    after ops0 V (main_v50 : DevRef τ sig) = Stages.t_main_v50 (V (main_arg0 : DevRef τ sig)) := by
  stage_simp
  rfl

set_option maxRecDepth 8192 in
private theorem w0_v49 (V : Valuation τ sig (Elt F)) :
    after ops0 V (main_v49 : DevRef τ sig) = Stages.t_main_v49 (V (main_arg0 : DevRef τ sig)) := by
  stage_simp
  rfl

set_option maxRecDepth 8192 in
private theorem w0_v48 (V : Valuation τ sig (Elt F)) :
    after ops0 V (main_v48 : DevRef τ sig) = Stages.t_main_v48 (V (main_arg0 : DevRef τ sig)) := by
  stage_simp
  rfl

set_option maxRecDepth 8192 in
private theorem w0_v41 (V : Valuation τ sig (Elt F)) :
    after ops0 V (main_v41 : DevRef τ sig) = Stages.t_main_v41 (V (main_arg0 : DevRef τ sig)) := by
  stage_simp
  rfl

set_option maxRecDepth 8192 in
private theorem w0_v42 (V : Valuation τ sig (Elt F)) :
    after ops0 V (main_v42 : DevRef τ sig) = Stages.t_main_v42 (V (main_arg0 : DevRef τ sig)) := by
  stage_simp
  rfl

set_option maxRecDepth 8192 in
private theorem w0_v46 (V : Valuation τ sig (Elt F)) :
    after ops0 V (main_v46 : DevRef τ sig) = Stages.t_main_v46 (V (main_arg0 : DevRef τ sig)) := by
  stage_simp
  rfl

set_option maxRecDepth 8192 in
private theorem w0_v45 (V : Valuation τ sig (Elt F)) :
    after ops0 V (main_v45 : DevRef τ sig) = Stages.t_main_v45 (V (main_arg0 : DevRef τ sig)) := by
  stage_simp
  rfl

/-! ### After the second part, from a memory whose ten buffers hold their stages of `x` -/

-- the longest chain of the line: fifty-two operations stand behind this buffer, several of them read two or three times
set_option maxHeartbeats 4000000 in
set_option maxRecDepth 8192 in
/-- The minimum of the four values, clamped at zero. -/
private theorem w1_v95 (W : Valuation τ sig (Elt F)) (x : FVec F S4096x5 .f32)
    (h_v53 : W (main_v53 : DevRef τ sig) = Stages.t_main_v53 x)
    (h_v47 : W (main_v47 : DevRef τ sig) = Stages.t_main_v47 x)
    (h_v52 : W (main_v52 : DevRef τ sig) = Stages.t_main_v52 x)
    (h_v50 : W (main_v50 : DevRef τ sig) = Stages.t_main_v50 x)
    (h_v49 : W (main_v49 : DevRef τ sig) = Stages.t_main_v49 x)
    (h_v48 : W (main_v48 : DevRef τ sig) = Stages.t_main_v48 x)
    (h_v41 : W (main_v41 : DevRef τ sig) = Stages.t_main_v41 x)
    (h_v42 : W (main_v42 : DevRef τ sig) = Stages.t_main_v42 x)
    (h_v46 : W (main_v46 : DevRef τ sig) = Stages.t_main_v46 x)
    (h_v45 : W (main_v45 : DevRef τ sig) = Stages.t_main_v45 x) :
    after ops1 W (main_v95 : DevRef τ sig) = Stages.t_main_v95 x := by
  stage_simp
  simp only [h_v53, h_v47, h_v52, h_v50, h_v49, h_v48, h_v41, h_v42, h_v46, h_v45]
  rfl

/-- An integer table that reads no earlier buffer. -/
private theorem w1_v96 (W : Valuation τ sig (Elt F)) (x : FVec F S4096x5 .f32) :
    after ops1 W (main_v96 : DevRef τ sig) = Stages.t_main_v96 x := by
  stage_simp
  rfl

/-- An integer table that reads no earlier buffer. -/
private theorem w1_v101 (W : Valuation τ sig (Elt F)) (x : FVec F S4096x5 .f32) :
    after ops1 W (main_v101 : DevRef τ sig) = Stages.t_main_v101 x := by
  stage_simp
  rfl

/-- An integer table that reads no earlier buffer. -/
private theorem w1_v103 (W : Valuation τ sig (Elt F)) (x : FVec F S4096x5 .f32) :
    after ops1 W (main_v103 : DevRef τ sig) = Stages.t_main_v103 x := by
  stage_simp
  rfl

/-- An integer table that reads no earlier buffer. -/
private theorem w1_v105 (W : Valuation τ sig (Elt F)) (x : FVec F S4096x5 .f32) :
    after ops1 W (main_v105 : DevRef τ sig) = Stages.t_main_v105 x := by
  stage_simp
  rfl

/-! ### After the third part -/

/-- The result: the clamped minimum with zeros scattered over the diagonal's index table. -/
private theorem w2_v111 (W : Valuation τ sig (Elt F)) (x : FVec F S4096x5 .f32)
    (h_v103 : W (main_v103 : DevRef τ sig) = Stages.t_main_v103 x)
    (h_v105 : W (main_v105 : DevRef τ sig) = Stages.t_main_v105 x)
    (h_v96 : W (main_v96 : DevRef τ sig) = Stages.t_main_v96 x)
    (h_v101 : W (main_v101 : DevRef τ sig) = Stages.t_main_v101 x)
    (h_v95 : W (main_v95 : DevRef τ sig) = Stages.t_main_v95 x) :
    after ops2 W (main_v111 : DevRef τ sig) = Stages.t_main_v111 x := by
  stage_simp
  simp only [h_v103, h_v105, h_v96, h_v101, h_v95]
  rfl

/-! ## The whole line -/

/-- The result buffer after all the operations holds the last stage of the argument array. -/
private theorem out_eq (V : Valuation τ sig (Elt F)) :
    after (ops0 ++ (ops1 ++ ops2)) V (main_v111 : DevRef τ sig) = Stages.t_main_v111 (V (main_arg0 : DevRef τ sig)) := by
  rw [after_append, after_append]
  exact w2_v111 _ _ (w1_v103 _ _) (w1_v105 _ _) (w1_v96 _ _) (w1_v101 _ _)
    (w1_v95 _ _ (w0_v53 V) (w0_v47 V) (w0_v52 V) (w0_v50 V) (w0_v49 V) (w0_v48 V) (w0_v41 V) (w0_v42 V) (w0_v46 V) (w0_v45 V))

/-- No operation writes the argument array. -/
private theorem arg0_eq (V : Valuation τ sig (Elt F)) :
    after (ops0 ++ (ops1 ++ ops2)) V (main_arg0 : DevRef τ sig) = V (main_arg0 : DevRef τ sig) := by
  have e0 : ∀ W : Valuation τ sig (Elt F), after ops0 W (main_arg0 : DevRef τ sig) = W (main_arg0 : DevRef τ sig) :=
    fun W => by stage_simp
  have e1 : ∀ W : Valuation τ sig (Elt F), after ops1 W (main_arg0 : DevRef τ sig) = W (main_arg0 : DevRef τ sig) :=
    fun W => by stage_simp
  have e2 : ∀ W : Valuation τ sig (Elt F), after ops2 W (main_arg0 : DevRef τ sig) = W (main_arg0 : DevRef τ sig) :=
    fun W => by stage_simp
  rw [after_append, after_append, e2, e1, e0]

theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v111) = Stages.t_main_v111 (m ((c.tc : Thread nD τ).loc main_arg0))
      ∧ r.2.mem ((c.tc : Thread nD τ).loc main_arg0) = m ((c.tc : Thread nD τ).loc main_arg0) :=
  (θ_run defs _ _).mono (fun _ h c => ⟨(h c main_v111).trans (out_eq _), (h c main_arg0).trans (arg0_eq _)⟩)
    (run_seq scopedRefs_eq scopedSems_eq defs main (fun _ => ops0 ++ (ops1 ++ ops2)) main_eq (fun _ => ops_sub) m ρ
      (fun _ => ops_fresh))

end Cert.ReferenceIdeal.Hand

end
-- ==== Proof.KStages.lean ====
/- SCRIPT-MADE by: bun scratch/mkstages.js KernelIdeal main_v41   (run in the unit directory; scratch/mkstages.js is filed with the unit). The host operations of
   proof/KernelIdeal.lean's @main up to the one that writes main_v41, re-spelt one definition an operation: t_<buffer> x is what the buffer holds when the
   argument array holds x, as the operation's own function of the buffers it reads. Definitions only; every lemma about them is written by hand. -/
import proofs.«172119_j59760174957246_1_alg».proof.Proof.Gen.KernelIdeal

noncomputable section

namespace Cert.KernelIdeal.Stages

open Cert.KernelIdeal Cert.KernelIdeal.Gen Idealize.ShloMosaic

variable {F : FTy → Type} [FloatOps F]

/-- The argument array. -/
def t_main_arg0 (x : FVec F S4096x5 .f32) : FVec F S4096x5 .f32 := x
/-- %cst = stablehlo.constant dense<[[-1.000000e+00, -1.000000e+00], [1.000000e+00, -1.000000e+00], [1.000000e+00, 1.000000e+00], [-1.000000e+00, 1.000000e+00]]> : tensor<4x2xf32> -/
def t_main_cst (x : FVec F S4096x5 .f32) : FVec F S4x2 .f32 := fun i => FloatOps.ofBits .f32 (lit0 (S4x2.rowMajor i))
/-- %0 = stablehlo.slice %arg0 [0:4096, 0:2] : (tensor<4096x5xf32>) -> tensor<4096x2xf32>  @ kernel:53 -/
def t_main_v0 (x : FVec F S4096x5 .f32) : FVec F S4096x2 .f32 := ((extractStridedSlice S4096x2 ![0, 0] · slices_S4096x5_S4096x2_0_0)) (t_main_arg0 x)
/-- %1 = stablehlo.slice %arg0 [0:4096, 2:4] : (tensor<4096x5xf32>) -> tensor<4096x2xf32>  @ kernel:53 -/
def t_main_v1 (x : FVec F S4096x5 .f32) : FVec F S4096x2 .f32 := ((extractStridedSlice S4096x2 ![0, 2] · slices_S4096x5_S4096x2_0_2)) (t_main_arg0 x)
/-- %2 = stablehlo.slice %arg0 [0:4096, 4:5] : (tensor<4096x5xf32>) -> tensor<4096x1xf32>  @ kernel:53 -/
def t_main_v2 (x : FVec F S4096x5 .f32) : FVec F S4096x1 .f32 := ((extractStridedSlice S4096x1 ![0, 4] · slices_S4096x5_S4096x1_0_4)) (t_main_arg0 x)
/-- %3 = stablehlo.reshape %2 : (tensor<4096x1xf32>) -> tensor<4096xf32>  @ kernel:53 -/
def t_main_v3 (x : FVec F S4096x5 .f32) : FVec F S4096 .f32 := shapeCast S4096 (t_main_v2 x) shapeCasts_S4096x1_S4096
/-- %4 = stablehlo.broadcast_in_dim %cst, dims = [1, 2] : (tensor<4x2xf32>) -> tensor<1x4x2xf32>  @ kernel:54 -/
def t_main_v4 (x : FVec F S4096x5 .f32) : FVec F S1x4x2 .f32 := (broadcastInDim S1x4x2 ![1, 2] bcast_S4x2_S1x4x2_1_2) (t_main_cst x)
/-- %cst_0 = stablehlo.constant dense<5.000000e-01> : tensor<f32> -/
def t_main_cst_0 (x : FVec F S4096x5 .f32) : FVec F S_ .f32 := constant S_ .f32 0x3F000000#32
/-- %5 = stablehlo.broadcast_in_dim %cst_0, dims = [] : (tensor<f32>) -> tensor<4096x2xf32>  @ kernel:54 -/
def t_main_v5 (x : FVec F S4096x5 .f32) : FVec F S4096x2 .f32 := (broadcastInDim S4096x2 ![] bcast_S_S4096x2) (t_main_cst_0 x)
/-- %6 = stablehlo.multiply %1, %5 : tensor<4096x2xf32>  @ kernel:54 -/
def t_main_v6 (x : FVec F S4096x5 .f32) : FVec F S4096x2 .f32 := (mulf) (t_main_v1 x) (t_main_v5 x)
/-- %7 = stablehlo.broadcast_in_dim %6, dims = [0, 2] : (tensor<4096x2xf32>) -> tensor<4096x1x2xf32>  @ kernel:54 -/
def t_main_v7 (x : FVec F S4096x5 .f32) : FVec F S4096x1x2 .f32 := (broadcastInDim S4096x1x2 ![0, 2] bcast_S4096x2_S4096x1x2_0_2) (t_main_v6 x)
/-- %8 = stablehlo.broadcast_in_dim %4, dims = [0, 1, 2] : (tensor<1x4x2xf32>) -> tensor<4096x4x2xf32>  @ kernel:54 -/
def t_main_v8 (x : FVec F S4096x5 .f32) : FVec F S4096x4x2 .f32 := (broadcastInDim S4096x4x2 ![0, 1, 2] bcast_S1x4x2_S4096x4x2_0_1_2) (t_main_v4 x)
/-- %9 = stablehlo.broadcast_in_dim %7, dims = [0, 1, 2] : (tensor<4096x1x2xf32>) -> tensor<4096x4x2xf32>  @ kernel:54 -/
def t_main_v9 (x : FVec F S4096x5 .f32) : FVec F S4096x4x2 .f32 := (broadcastInDim S4096x4x2 ![0, 1, 2] bcast_S4096x1x2_S4096x4x2_0_1_2) (t_main_v7 x)
/-- %10 = stablehlo.multiply %8, %9 : tensor<4096x4x2xf32>  @ kernel:54 -/
def t_main_v10 (x : FVec F S4096x5 .f32) : FVec F S4096x4x2 .f32 := (mulf) (t_main_v8 x) (t_main_v9 x)
/-- %11 = stablehlo.cosine %3 : tensor<4096xf32>  @ kernel:55 -/
def t_main_v11 (x : FVec F S4096x5 .f32) : FVec F S4096 .f32 := (Host.cos) (t_main_v3 x)
/-- %12 = stablehlo.sine %3 : tensor<4096xf32>  @ kernel:55 -/
def t_main_v12 (x : FVec F S4096x5 .f32) : FVec F S4096 .f32 := (Host.sin) (t_main_v3 x)
/-- %13 = stablehlo.negate %12 : tensor<4096xf32>  @ kernel:56 -/
def t_main_v13 (x : FVec F S4096x5 .f32) : FVec F S4096 .f32 := (Host.negf) (t_main_v12 x)
/-- %14 = stablehlo.broadcast_in_dim %11, dims = [0] : (tensor<4096xf32>) -> tensor<4096x1xf32>  @ kernel:56 -/
def t_main_v14 (x : FVec F S4096x5 .f32) : FVec F S4096x1 .f32 := (broadcastInDim S4096x1 ![0] bcast_S4096_S4096x1_0) (t_main_v11 x)
/-- %15 = stablehlo.broadcast_in_dim %13, dims = [0] : (tensor<4096xf32>) -> tensor<4096x1xf32>  @ kernel:56 -/
def t_main_v15 (x : FVec F S4096x5 .f32) : FVec F S4096x1 .f32 := (broadcastInDim S4096x1 ![0] bcast_S4096_S4096x1_0) (t_main_v13 x)
/-- %16 = stablehlo.concatenate %14, %15, dim = 1 : (tensor<4096x1xf32>, tensor<4096x1xf32>) -> tensor<4096x2xf32>  @ kernel:56 -/
def t_main_v16 (x : FVec F S4096x5 .f32) : FVec F S4096x2 .f32 := ((fun a b => concatenate S4096x2 1 [⟨S4096x1, a⟩, ⟨S4096x1, b⟩] concatenates_S4096x1_S4096x1_S4096x2_d1)) (t_main_v14 x) (t_main_v15 x)
/-- %17 = stablehlo.broadcast_in_dim %12, dims = [0] : (tensor<4096xf32>) -> tensor<4096x1xf32>  @ kernel:57 -/
def t_main_v17 (x : FVec F S4096x5 .f32) : FVec F S4096x1 .f32 := (broadcastInDim S4096x1 ![0] bcast_S4096_S4096x1_0) (t_main_v12 x)
/-- %18 = stablehlo.broadcast_in_dim %11, dims = [0] : (tensor<4096xf32>) -> tensor<4096x1xf32>  @ kernel:57 -/
def t_main_v18 (x : FVec F S4096x5 .f32) : FVec F S4096x1 .f32 := (broadcastInDim S4096x1 ![0] bcast_S4096_S4096x1_0) (t_main_v11 x)
/-- %19 = stablehlo.concatenate %17, %18, dim = 1 : (tensor<4096x1xf32>, tensor<4096x1xf32>) -> tensor<4096x2xf32>  @ kernel:57 -/
def t_main_v19 (x : FVec F S4096x5 .f32) : FVec F S4096x2 .f32 := ((fun a b => concatenate S4096x2 1 [⟨S4096x1, a⟩, ⟨S4096x1, b⟩] concatenates_S4096x1_S4096x1_S4096x2_d1)) (t_main_v17 x) (t_main_v18 x)
/-- %20 = stablehlo.broadcast_in_dim %16, dims = [0, 2] : (tensor<4096x2xf32>) -> tensor<4096x1x2xf32>  @ kernel:56 -/
def t_main_v20 (x : FVec F S4096x5 .f32) : FVec F S4096x1x2 .f32 := (broadcastInDim S4096x1x2 ![0, 2] bcast_S4096x2_S4096x1x2_0_2) (t_main_v16 x)
/-- %21 = stablehlo.broadcast_in_dim %19, dims = [0, 2] : (tensor<4096x2xf32>) -> tensor<4096x1x2xf32>  @ kernel:56 -/
def t_main_v21 (x : FVec F S4096x5 .f32) : FVec F S4096x1x2 .f32 := (broadcastInDim S4096x1x2 ![0, 2] bcast_S4096x2_S4096x1x2_0_2) (t_main_v19 x)
/-- %22 = stablehlo.concatenate %20, %21, dim = 1 : (tensor<4096x1x2xf32>, tensor<4096x1x2xf32>) -> tensor<4096x2x2xf32>  @ kernel:56 -/
def t_main_v22 (x : FVec F S4096x5 .f32) : FVec F S4096x2x2 .f32 := ((fun a b => concatenate S4096x2x2 1 [⟨S4096x1x2, a⟩, ⟨S4096x1x2, b⟩] concatenates_S4096x1x2_S4096x1x2_S4096x2x2_d1)) (t_main_v20 x) (t_main_v21 x)
/-- %23 = stablehlo.dot_general %10, %22, batching_dims = [0] x [0], contracting_dims = [2] x [1], precision = [DEFAULT, DEFAULT] : (tensor<4096x4x2xf32>, tensor<4096x2x2xf32>) -> tensor<4096x4x2xf32>  @ kernel:58 -/
def t_main_v23 (x : FVec F S4096x5 .f32) : FVec F S4096x4x2 .f32 := ((fun l r => Host.dotGeneral dot_S4096x4x2_S4096x2x2_S4096x4x2_2_1_1_2_0_0 none l r)) (t_main_v10 x) (t_main_v22 x)
/-- %24 = stablehlo.broadcast_in_dim %0, dims = [0, 2] : (tensor<4096x2xf32>) -> tensor<4096x1x2xf32>  @ kernel:58 -/
def t_main_v24 (x : FVec F S4096x5 .f32) : FVec F S4096x1x2 .f32 := (broadcastInDim S4096x1x2 ![0, 2] bcast_S4096x2_S4096x1x2_0_2) (t_main_v0 x)
/-- %25 = stablehlo.broadcast_in_dim %24, dims = [0, 1, 2] : (tensor<4096x1x2xf32>) -> tensor<4096x4x2xf32>  @ kernel:58 -/
def t_main_v25 (x : FVec F S4096x5 .f32) : FVec F S4096x4x2 .f32 := (broadcastInDim S4096x4x2 ![0, 1, 2] bcast_S4096x1x2_S4096x4x2_0_1_2) (t_main_v24 x)
/-- %26 = stablehlo.add %23, %25 : tensor<4096x4x2xf32>  @ kernel:58 -/
def t_main_v26 (x : FVec F S4096x5 .f32) : FVec F S4096x4x2 .f32 := (addf) (t_main_v23 x) (t_main_v25 x)
/-- %27 = stablehlo.slice %26 [0:4096, 1:2, 0:2] : (tensor<4096x4x2xf32>) -> tensor<4096x1x2xf32>  @ kernel:155 -/
def t_main_v27 (x : FVec F S4096x5 .f32) : FVec F S4096x1x2 .f32 := ((extractStridedSlice S4096x1x2 ![0, 1, 0] · slices_S4096x4x2_S4096x1x2_0_1_0)) (t_main_v26 x)
/-- %28 = stablehlo.reshape %27 : (tensor<4096x1x2xf32>) -> tensor<4096x2xf32>  @ kernel:155 -/
def t_main_v28 (x : FVec F S4096x5 .f32) : FVec F S4096x2 .f32 := shapeCast S4096x2 (t_main_v27 x) shapeCasts_S4096x1x2_S4096x2
/-- %29 = stablehlo.slice %26 [0:4096, 0:1, 0:2] : (tensor<4096x4x2xf32>) -> tensor<4096x1x2xf32>  @ kernel:155 -/
def t_main_v29 (x : FVec F S4096x5 .f32) : FVec F S4096x1x2 .f32 := ((extractStridedSlice S4096x1x2 ![0, 0, 0] · slices_S4096x4x2_S4096x1x2_0_0_0)) (t_main_v26 x)
/-- %30 = stablehlo.reshape %29 : (tensor<4096x1x2xf32>) -> tensor<4096x2xf32>  @ kernel:155 -/
def t_main_v30 (x : FVec F S4096x5 .f32) : FVec F S4096x2 .f32 := shapeCast S4096x2 (t_main_v29 x) shapeCasts_S4096x1x2_S4096x2
/-- %31 = stablehlo.subtract %28, %30 : tensor<4096x2xf32>  @ kernel:155 -/
def t_main_v31 (x : FVec F S4096x5 .f32) : FVec F S4096x2 .f32 := (subf) (t_main_v28 x) (t_main_v30 x)
/-- %32 = stablehlo.slice %26 [0:4096, 3:4, 0:2] : (tensor<4096x4x2xf32>) -> tensor<4096x1x2xf32>  @ kernel:156 -/
def t_main_v32 (x : FVec F S4096x5 .f32) : FVec F S4096x1x2 .f32 := ((extractStridedSlice S4096x1x2 ![0, 3, 0] · slices_S4096x4x2_S4096x1x2_0_3_0)) (t_main_v26 x)
/-- %33 = stablehlo.reshape %32 : (tensor<4096x1x2xf32>) -> tensor<4096x2xf32>  @ kernel:156 -/
def t_main_v33 (x : FVec F S4096x5 .f32) : FVec F S4096x2 .f32 := shapeCast S4096x2 (t_main_v32 x) shapeCasts_S4096x1x2_S4096x2
/-- %34 = stablehlo.slice %26 [0:4096, 0:1, 0:2] : (tensor<4096x4x2xf32>) -> tensor<4096x1x2xf32>  @ kernel:156 -/
def t_main_v34 (x : FVec F S4096x5 .f32) : FVec F S4096x1x2 .f32 := ((extractStridedSlice S4096x1x2 ![0, 0, 0] · slices_S4096x4x2_S4096x1x2_0_0_0)) (t_main_v26 x)
/-- %35 = stablehlo.reshape %34 : (tensor<4096x1x2xf32>) -> tensor<4096x2xf32>  @ kernel:156 -/
def t_main_v35 (x : FVec F S4096x5 .f32) : FVec F S4096x2 .f32 := shapeCast S4096x2 (t_main_v34 x) shapeCasts_S4096x1x2_S4096x2
/-- %36 = stablehlo.subtract %33, %35 : tensor<4096x2xf32>  @ kernel:156 -/
def t_main_v36 (x : FVec F S4096x5 .f32) : FVec F S4096x2 .f32 := (subf) (t_main_v33 x) (t_main_v35 x)
/-- %37 = stablehlo.broadcast_in_dim %31, dims = [0, 2] : (tensor<4096x2xf32>) -> tensor<4096x1x2xf32>  @ kernel:155 -/
def t_main_v37 (x : FVec F S4096x5 .f32) : FVec F S4096x1x2 .f32 := (broadcastInDim S4096x1x2 ![0, 2] bcast_S4096x2_S4096x1x2_0_2) (t_main_v31 x)
/-- %38 = stablehlo.broadcast_in_dim %36, dims = [0, 2] : (tensor<4096x2xf32>) -> tensor<4096x1x2xf32>  @ kernel:155 -/
def t_main_v38 (x : FVec F S4096x5 .f32) : FVec F S4096x1x2 .f32 := (broadcastInDim S4096x1x2 ![0, 2] bcast_S4096x2_S4096x1x2_0_2) (t_main_v36 x)
/-- %39 = stablehlo.concatenate %37, %38, dim = 1 : (tensor<4096x1x2xf32>, tensor<4096x1x2xf32>) -> tensor<4096x2x2xf32>  @ kernel:155 -/
def t_main_v39 (x : FVec F S4096x5 .f32) : FVec F S4096x2x2 .f32 := ((fun a b => concatenate S4096x2x2 1 [⟨S4096x1x2, a⟩, ⟨S4096x1x2, b⟩] concatenates_S4096x1x2_S4096x1x2_S4096x2x2_d1)) (t_main_v37 x) (t_main_v38 x)
/-- %40 = stablehlo.transpose %26, dims = [1, 2, 0] : (tensor<4096x4x2xf32>) -> tensor<4x2x4096xf32>  @ kernel:157 -/
def t_main_v40 (x : FVec F S4096x5 .f32) : FVec F S4x2x4096 .f32 := ((transpose S4x2x4096 [1, 2, 0] · transposes_S4096x4x2_S4x2x4096_1_2_0)) (t_main_v26 x)
/-- %41 = stablehlo.transpose %39, dims = [1, 2, 0] : (tensor<4096x2x2xf32>) -> tensor<2x2x4096xf32>  @ kernel:158 -/
def t_main_v41 (x : FVec F S4096x5 .f32) : FVec F S2x2x4096 .f32 := ((transpose S2x2x4096 [1, 2, 0] · transposes_S4096x2x2_S2x2x4096_1_2_0)) (t_main_v39 x)

end Cert.KernelIdeal.Stages

end
-- ==== Proof.KTile.lean ====
/-
  One grid point's output tile as a function of the four input blocks: the kernel body's stored value, in three nested parts.
  x0 is the row boxes' corner block [512,4,2], x2 their axis block [512,2,2]; x1 is the column boxes' corner block laid out
  [4,2,512] and x3 their axis block [2,2,512] (the box along the last axis). `part0` is the least giou over the first axis of
  each box, `part1` takes in the column boxes' second axis, and `tile` the row boxes' second axis, the clamp at zero and the
  zero diagonal, which depends on the grid point through the global row and column numbers. The terms are the stored payload
  of the body (the whole-block loads written as the blocks themselves).
-/
import proofs.«172119_j59760174957246_1_alg».proof.Proof.Gen.KernelIdeal.Skeleton

noncomputable section

namespace Cert.KernelIdeal.Tile

open Cert.KernelIdeal Cert.KernelIdeal.Gen Idealize.ShloMosaic

variable {F : FTy → Type} [FloatOps F]

/-- The least giou over the first axis of the column box and the first axis of the row box. -/
def part0 (x0 : Vec F S512x4x2 .f32) (x1 : Vec F S4x2x512 .f32) (x2 : Vec F S512x2x2 .f32) (x3 : Vec F S2x2x512 .f32) : FVec F S512x512 .f32 :=
  k0_pay40 (k0_pay10 x1) (k0_pay11 x1) (k0_pay16 x2) (k0_pay17 x2) (k0_pay26 (k0_pay6 x0) (k0_pay7 x0) (k0_pay8 x2) (k0_pay9 x2) (k0_pay20 x0 x2) (k0_pay22 x0) (k0_pay23 x2)) (k0_pay27 (k0_pay6 x0) (k0_pay7 x0) (k0_pay8 x2) (k0_pay9 x2) (k0_pay21 x0 x2) (k0_pay22 x0) (k0_pay23 x2)) (k0_pay36 (k0_pay6 x0) (k0_pay7 x0) (k0_pay14 x3) (k0_pay15 x3) (k0_pay32 (k0_pay10 x1) (k0_pay11 x1) (k0_pay12 x3) (k0_pay13 x3)) (k0_pay33 (k0_pay10 x1) (k0_pay11 x1) (k0_pay12 x3) (k0_pay13 x3)) (k0_pay34 (k0_pay6 x0) (k0_pay7 x0) (k0_pay14 x3) (k0_pay15 x3)) (k0_pay35 (k0_pay6 x0))) (k0_pay37 (k0_pay10 x1) (k0_pay16 x2)) (k0_pay38 (k0_pay11 x1)) (k0_pay39 (k0_pay17 x2))

/-- … and the column box's second axis. -/
def part1 (x0 : Vec F S512x4x2 .f32) (x1 : Vec F S4x2x512 .f32) (x2 : Vec F S512x2x2 .f32) (x3 : Vec F S2x2x512 .f32) : FVec F S512x512 .f32 :=
  k0_pay67 (part0 x0 x1 x2 x3) (k0_pay57 (k0_pay10 x1) (k0_pay11 x1) (k0_pay12 x3) (k0_pay13 x3) (k0_pay53 (k0_pay10 x1) (k0_pay11 x1) (k0_pay12 x3) (k0_pay13 x3)) (k0_pay55 (k0_pay10 x1) (k0_pay11 x1) (k0_pay12 x3) (k0_pay13 x3))) (k0_pay58 (k0_pay10 x1) (k0_pay11 x1) (k0_pay12 x3) (k0_pay13 x3) (k0_pay54 (k0_pay10 x1) (k0_pay11 x1) (k0_pay12 x3) (k0_pay13 x3)) (k0_pay55 (k0_pay10 x1) (k0_pay11 x1) (k0_pay12 x3) (k0_pay13 x3))) (k0_pay63 (k0_pay6 x0) (k0_pay7 x0) (k0_pay41 (k0_pay12 x3)) (k0_pay42 (k0_pay13 x3))) (k0_pay64 (k0_pay6 x0) (k0_pay7 x0) (k0_pay41 (k0_pay12 x3)) (k0_pay42 (k0_pay13 x3))) (k0_pay65 (k0_pay6 x0) (k0_pay7 x0) (k0_pay10 x1) (k0_pay11 x1) (k0_pay12 x3) (k0_pay13 x3) (k0_pay41 (k0_pay12 x3)) (k0_pay42 (k0_pay13 x3)) (k0_pay53 (k0_pay10 x1) (k0_pay11 x1) (k0_pay12 x3) (k0_pay13 x3)) (k0_pay54 (k0_pay10 x1) (k0_pay11 x1) (k0_pay12 x3) (k0_pay13 x3)) (k0_pay55 (k0_pay10 x1) (k0_pay11 x1) (k0_pay12 x3) (k0_pay13 x3))) (k0_pay66 (F := F))

/-- … and the row box's second axis, the clamp and the diagonal: the tile the body stores at grid point `i`. -/
def tile (i : grid0.Coords) (x0 : Vec F S512x4x2 .f32) (x1 : Vec F S4x2x512 .f32) (x2 : Vec F S512x2x2 .f32) (x3 : Vec F S2x2x512 .f32) : FVec F S512x512 .f32 :=
  k0_pay1 (BitVec.ofNat 32 (i 0).val) (BitVec.ofNat 32 (i 1).val) (k0_pay49 (k0_pay6 x0) (k0_pay7 x0) (k0_pay8 x2) (k0_pay9 x2)) (k0_pay50 (k0_pay6 x0) (k0_pay7 x0) (k0_pay8 x2) (k0_pay9 x2)) (part1 x0 x1 x2 x3) (k0_pay72 (k0_pay10 x1) (k0_pay11 x1) (k0_pay43 (k0_pay8 x2)) (k0_pay44 (k0_pay9 x2))) (k0_pay73 (k0_pay10 x1) (k0_pay11 x1) (k0_pay43 (k0_pay8 x2)) (k0_pay44 (k0_pay9 x2))) (k0_pay74 (k0_pay10 x1) (k0_pay11 x1) (k0_pay43 (k0_pay8 x2)) (k0_pay44 (k0_pay9 x2)) (k0_pay50 (k0_pay6 x0) (k0_pay7 x0) (k0_pay8 x2) (k0_pay9 x2)))

end Cert.KernelIdeal.Tile

end
-- ==== Proof.Spec.lean ====
/-
  The pairwise measure both programs compute, as plain functions of extended reals.

  A box has four corners c k (k < 4), points of the plane (two coordinates d < 2), and two edge axes a e (e < 2). For a pair of
  boxes i, j and an axis, every corner of a box is projected on the axis (the plane's dot product), the projections' least and
  greatest values bound an interval, and the two boxes' intervals are compared by the one-dimensional generalized IoU
      giou = inter / union - (hull - union) / hull,
      inter = clamp (min max1 max2 - max min1 min2),  union = (max1 - min1) + (max2 - min2) - inter,
      hull = max max1 max2 - min min1 min2.
  The measure is the least giou over the four axes (two of box i, two of box j), clamped at zero, and zero on the diagonal i = j.

  The kernel and the reference spell this differently: the order of the two factors of a product, a dot product as a two-term sum
  or as a sum over the coordinate from zero, a least value as nested binary minima or as a fold from the top element, the clamp
  as max x 0 or max 0 x, and the order in which the four axes meet the minimum. `gminK` follows the kernel operation for
  operation and `gminR` the reference; `clamp_gmin_eq` says they agree on all extended reals. Only commutativity and
  associativity of +, * , min and max are used, so no finiteness is needed.
-/
import Idealize.ShloMosaic.PureOps.Ideal
import Idealize.ShloMosaic.Lib.ValueIdx

noncomputable section

open scoped BigOperators

namespace Cert.MG

open Idealize.ShloMosaic Idealize.ShloMosaic.ValueIdx

/-- Least of four values, as nested binary minima from the left. -/
def lo4 (f : Fin 4 → EReal) : EReal := min (min (min (f 0) (f 1)) (f 2)) (f 3)
/-- Greatest of four values, as nested binary maxima from the left. -/
def hi4 (f : Fin 4 → EReal) : EReal := max (max (max (f 0) (f 1)) (f 2)) (f 3)
/-- Least of four values, as the fold of min from the top element. -/
def flo (f : Fin 4 → EReal) : EReal := (Finset.univ : Finset (Fin 4)).fold min ⊤ f
/-- Greatest of four values, as the fold of max from the bottom element. -/
def fhi (f : Fin 4 → EReal) : EReal := (Finset.univ : Finset (Fin 4)).fold max ⊥ f

/-- The plane's dot product, first factor first, as a two-term sum. -/
def dot2 (u v : Fin 2 → EReal) : EReal := u 0 * v 0 + u 1 * v 1
/-- The plane's dot product as a sum over the coordinate. -/
def sdot (u v : Fin 2 → EReal) : EReal := ∑ d : Fin 2, u d * v d

/-- The one-dimensional generalized IoU of the intervals [min1, max1] and [min2, max2], the overlap clamped by `cl`. -/
def giouWith (cl : EReal → EReal) (min1 max1 min2 max2 : EReal) : EReal :=
  Ideal.div (cl (min max1 max2 - max min1 min2)) ((max1 - min1) + (max2 - min2) - cl (min max1 max2 - max min1 min2))
    - Ideal.div ((max max1 max2 - min min1 min2) - ((max1 - min1) + (max2 - min2) - cl (min max1 max2 - max min1 min2)))
        (max max1 max2 - min min1 min2)

/-- The kernel's clamp. -/
def giouK : EReal → EReal → EReal → EReal → EReal := giouWith fun x => max x 0
/-- The reference's clamp. -/
def giouR : EReal → EReal → EReal → EReal → EReal := giouWith fun x => max 0 x

section Pair
variable (ci : Fin 4 → Fin 2 → EReal) (ai : Fin 2 → Fin 2 → EReal) (cj : Fin 4 → Fin 2 → EReal) (aj : Fin 2 → Fin 2 → EReal)

/-! ### As the kernel computes it -/

/-- On axis e of box j: box i's corners projected, against box j's own. -/
def gBK (e : Fin 2) : EReal :=
  giouK (lo4 fun k => dot2 (ci k) (aj e)) (hi4 fun k => dot2 (ci k) (aj e)) (lo4 fun k => dot2 (cj k) (aj e)) (hi4 fun k => dot2 (cj k) (aj e))
/-- On axis e of box i: box i's own corners, against box j's projected (the axis is the first factor there). -/
def gAK (e : Fin 2) : EReal :=
  giouK (lo4 fun k => dot2 (ci k) (ai e)) (hi4 fun k => dot2 (ci k) (ai e)) (lo4 fun k => dot2 (ai e) (cj k)) (hi4 fun k => dot2 (ai e) (cj k))
/-- The first axis of each box. -/
def g0K : EReal := min (gBK ci cj aj 0) (gAK ci ai cj 0)
/-- … then box j's second axis … -/
def g1K : EReal := min (g0K ci ai cj aj) (gBK ci cj aj 1)
/-- … then box i's second: the least over the four axes. -/
def gminK : EReal := min (g1K ci ai cj aj) (gAK ci ai cj 1)

/-! ### As the reference computes it -/

/-- On axis e of box i (the axis is the first factor of every product). -/
def gAR (e : Fin 2) : EReal :=
  giouR (flo fun k => sdot (ai e) (ci k)) (fhi fun k => sdot (ai e) (ci k)) (flo fun k => sdot (ai e) (cj k)) (fhi fun k => sdot (ai e) (cj k))
/-- On axis e of box j. -/
def gBR (e : Fin 2) : EReal :=
  giouR (flo fun k => sdot (aj e) (ci k)) (fhi fun k => sdot (aj e) (ci k)) (flo fun k => sdot (aj e) (cj k)) (fhi fun k => sdot (aj e) (cj k))
/-- The four axes joined (box i's two, then box j's two) and their least value folded from the top element. -/
def gminR : EReal := flo ![gAR ci ai cj 0, gAR ci ai cj 1, gBR ci cj aj 0, gBR ci cj aj 1]

end Pair

/-- A box's corners read off the corner array. -/
def rowsC (C : (⟨3, ![4096, 4, 2]⟩ : Shape).Idx → EReal) (i : Fin 4096) : Fin 4 → Fin 2 → EReal := fun k d => C (ix3 i k d)
/-- A box's axes read off the axis array. -/
def rowsA (A : (⟨3, ![4096, 2, 2]⟩ : Shape).Idx → EReal) (i : Fin 4096) : Fin 2 → Fin 2 → EReal := fun e d => A (ix3 i e d)

/-- The result at (i, j), the kernel's way. -/
def outK (C : (⟨3, ![4096, 4, 2]⟩ : Shape).Idx → EReal) (A : (⟨3, ![4096, 2, 2]⟩ : Shape).Idx → EReal) (i j : Fin 4096) : EReal :=
  if i = j then 0 else max (gminK (rowsC C i) (rowsA A i) (rowsC C j) (rowsA A j)) 0
/-- The result at (i, j), the reference's way. -/
def outR (C : (⟨3, ![4096, 4, 2]⟩ : Shape).Idx → EReal) (A : (⟨3, ![4096, 2, 2]⟩ : Shape).Idx → EReal) (i j : Fin 4096) : EReal :=
  if i = j then 0 else max 0 (gminR (rowsC C i) (rowsA A i) (rowsC C j) (rowsA A j))

/-! ### The two agree -/

/-- The fold of min over the four values from the top element is their nested minimum. -/
theorem flo_eq_lo4 (f : Fin 4 → EReal) : flo f = lo4 f := by
  unfold flo lo4
  rw [show (Finset.univ : Finset (Fin 4)) = insert 0 (insert 1 (insert 2 {3})) from by decide]
  rw [Finset.fold_insert (by decide), Finset.fold_insert (by decide), Finset.fold_insert (by decide), Finset.fold_singleton]
  rw [min_top_right]
  simp only [min_assoc]

/-- The fold of max from the bottom element is the nested maximum. -/
theorem fhi_eq_hi4 (f : Fin 4 → EReal) : fhi f = hi4 f := by
  unfold fhi hi4
  rw [show (Finset.univ : Finset (Fin 4)) = insert 0 (insert 1 (insert 2 {3})) from by decide]
  rw [Finset.fold_insert (by decide), Finset.fold_insert (by decide), Finset.fold_insert (by decide), Finset.fold_singleton]
  rw [max_bot_right]
  simp only [max_assoc]

/-- The sum over the coordinate is the two-term sum. -/
theorem sdot_eq_dot2 (u v : Fin 2 → EReal) : sdot u v = dot2 u v := by
  unfold sdot dot2; rw [Fin.sum_univ_two]

/-- The dot product is symmetric: the product of extended reals is commutative. -/
theorem dot2_comm (u v : Fin 2 → EReal) : dot2 u v = dot2 v u := by
  unfold dot2; rw [mul_comm (u 0), mul_comm (u 1)]

/-- The two clamps are one function: max is commutative. -/
theorem giouK_eq_giouR : giouK = giouR := by
  unfold giouK giouR
  congr 1; funext x; exact max_comm x 0

/-- On an axis of box j the two spellings agree: the reference multiplies axis by corner, the kernel corner by axis. -/
theorem gBK_eq_gBR (ci cj : Fin 4 → Fin 2 → EReal) (aj : Fin 2 → Fin 2 → EReal) (e : Fin 2) : gBK ci cj aj e = gBR ci cj aj e := by
  unfold gBK gBR
  rw [giouK_eq_giouR]
  simp only [flo_eq_lo4, fhi_eq_hi4, sdot_eq_dot2, dot2_comm (aj e)]

/-- On an axis of box i likewise (the kernel already has the axis first for box j's corners). -/
theorem gAK_eq_gAR (ci : Fin 4 → Fin 2 → EReal) (ai : Fin 2 → Fin 2 → EReal) (cj : Fin 4 → Fin 2 → EReal) (e : Fin 2) :
    gAK ci ai cj e = gAR ci ai cj e := by
  unfold gAK gAR
  rw [giouK_eq_giouR]
  simp only [flo_eq_lo4, fhi_eq_hi4, sdot_eq_dot2, dot2_comm (ai e) (ci _)]

/-- The clamped least value over the four axes: the same four numbers met in another order. -/
theorem clamp_gmin_eq (ci : Fin 4 → Fin 2 → EReal) (ai : Fin 2 → Fin 2 → EReal) (cj : Fin 4 → Fin 2 → EReal) (aj : Fin 2 → Fin 2 → EReal) :
    max (gminK ci ai cj aj) 0 = max 0 (gminR ci ai cj aj) := by
  unfold gminK g1K g0K gminR
  rw [flo_eq_lo4, gBK_eq_gBR, gBK_eq_gBR, gAK_eq_gAR, gAK_eq_gAR, max_comm]
  unfold lo4
  congr 1
  simp only [Matrix.cons_val_zero, Matrix.cons_val_one, Matrix.head_cons, Matrix.cons_val_two, Matrix.tail_cons, Matrix.cons_val_three]
  ac_rfl

/-- So the two results agree at every pair. -/
theorem outK_eq_outR (C : (⟨3, ![4096, 4, 2]⟩ : Shape).Idx → EReal) (A : (⟨3, ![4096, 2, 2]⟩ : Shape).Idx → EReal) (i j : Fin 4096) :
    outK C A i j = outR C A i j := by
  unfold outK outR; rw [clamp_gmin_eq]

end Cert.MG

end
-- ==== Proof.KTileRead.lean ====
/-
  The boxes a tile entry depends on, read off the four input blocks: entry (r, c) of a tile meets row box r (its corners and
  axes in the blocks x0, x2, the box along the first axis) and column box c (corners and axes in x1, x3, the box along the last axis).
-/
import proofs.«172119_j59760174957246_1_alg».proof.Proof.KTile
import proofs.«172119_j59760174957246_1_alg».proof.Proof.Spec
import Idealize.ShloMosaic.Lib.ValueIdx

noncomputable section

namespace Cert.KernelIdeal.Tile

open Cert.KernelIdeal Idealize.ShloMosaic Idealize.ShloMosaic.ValueIdx

/-- Row box r's corners. -/
def ciOf (x0 : FVec Ideal S512x4x2 .f32) (r : Fin 512) : Fin 4 → Fin 2 → EReal := fun k d => x0 (ix3 r k d)
/-- Row box r's axes. -/
def aiOf (x2 : FVec Ideal S512x2x2 .f32) (r : Fin 512) : Fin 2 → Fin 2 → EReal := fun e d => x2 (ix3 r e d)
/-- Column box c's corners. -/
def cjOf (x1 : FVec Ideal S4x2x512 .f32) (c : Fin 512) : Fin 4 → Fin 2 → EReal := fun k d => x1 (ix3 k d c)
/-- Column box c's axes. -/
def ajOf (x3 : FVec Ideal S2x2x512 .f32) (c : Fin 512) : Fin 2 → Fin 2 → EReal := fun e d => x3 (ix3 e d c)

end Cert.KernelIdeal.Tile

end
-- ==== Proof.KPart0.lean ====
/-
  The first part of a tile read at an entry.
-/
import proofs.«172119_j59760174957246_1_alg».proof.Proof.KTileRead
import Idealize.ShloMosaic.Lib.Pipeline.Value
import Idealize.ShloMosaic.Lib.ValueLayout
import Idealize.ShloMosaic.PureOps.Ideal.Laws

noncomputable section

namespace Cert.KernelIdeal.Tile

open Cert.KernelIdeal Cert.KernelIdeal.Gen Idealize.ShloMosaic Idealize.ShloMosaic.ValueIdx

/-! ## Layout patterns read at an index -/

section Layout
variable {α : Type}

/-- The coordinate plane at `o` of an `[n, m, q]` block (cut along the last axis, the unit axis dropped) reads, at `(p, k)`,
    the block at `(p, k, d)` with `d = o`. -/
private theorem plane_last {n m q : Nat} (o : Nat) (X : (⟨3, ![n, m, q]⟩ : Shape).Idx → α)
    (hs : (⟨3, ![n, m, q]⟩ : Shape).Slices ![0, 0, o] ⟨3, ![n, m, 1]⟩)
    (hc : (⟨3, ![n, m, 1]⟩ : Shape).ShapeCasts ⟨2, ![n, m]⟩)
    (p : Fin n) (k : Fin m) (d : Fin q) (hd : d.val = o) :
    shapeCast ⟨2, ![n, m]⟩ (extractStridedSlice ⟨3, ![n, m, 1]⟩ ![0, 0, o] X hs) hc (ix2 p k) = X (ix3 p k d) := by
  refine (shapeCast_apply _ hc (ix2 p k) (ix3 p k (0 : Fin 1)) ?_).trans ?_
  · rw [Shape.rowMajor_val_three, Shape.rowMajor_val_two]
    show (p.val * m + k.val) * 1 + 0 = p.val * m + k.val
    omega
  · exact extractStridedSlice_apply _ X hs _ _ (fun ax => by
      match ax with
      | ⟨0, _⟩ => exact (Nat.zero_add _).symm
      | ⟨1, _⟩ => exact (Nat.zero_add _).symm
      | ⟨2, _⟩ => show d.val = o + 0; omega)

/-- The plane at `o` of an `[n, q, m]` block cut along the middle axis reads, at `(k, c)`, the block at `(k, d, c)` with `d = o`. -/
private theorem plane_mid {n q m : Nat} (o : Nat) (X : (⟨3, ![n, q, m]⟩ : Shape).Idx → α)
    (hs : (⟨3, ![n, q, m]⟩ : Shape).Slices ![0, o, 0] ⟨3, ![n, 1, m]⟩)
    (hc : (⟨3, ![n, 1, m]⟩ : Shape).ShapeCasts ⟨2, ![n, m]⟩)
    (k : Fin n) (d : Fin q) (c : Fin m) (hd : d.val = o) :
    shapeCast ⟨2, ![n, m]⟩ (extractStridedSlice ⟨3, ![n, 1, m]⟩ ![0, o, 0] X hs) hc (ix2 k c) = X (ix3 k d c) := by
  refine (shapeCast_apply _ hc (ix2 k c) (ix3 k (0 : Fin 1) c) ?_).trans ?_
  · rw [Shape.rowMajor_val_three, Shape.rowMajor_val_two]
    show (k.val * 1 + 0) * m + c.val = k.val * m + c.val
    rw [Nat.mul_one, Nat.add_zero]
  · exact slice3_axis1_apply o X hs k 0 c d (by show d.val = o + 0; omega)

/-- A column `[a, 1]` broadcast to `[a, b]` reads, at `(p, c)`, the column at `p`. -/
private theorem bcast_col {a b : Nat} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Column `k` of an `[n, m]` matrix, as an `[n, 1]` slice, reads at `(p, 0)` the matrix at `(p, k)`. -/
private theorem col_at {n m : Nat} (o : Nat) (X : (⟨2, ![n, m]⟩ : Shape).Idx → α)
    (h : (⟨2, ![n, m]⟩ : Shape).Slices ![0, o] ⟨2, ![n, 1]⟩) (p : Fin n) (k : Fin m) (hk : k.val = o) :
    extractStridedSlice ⟨2, ![n, 1]⟩ ![0, o] X h (ix2 p (0 : Fin 1)) = X (ix2 p k) :=
  slice2_axis1_apply o X h p 0 k (by show k.val = o + 0; omega)

/-- Row `k` of an `[m, n]` matrix, as a `[1, n]` slice, reads at `(0, c)` the matrix at `(k, c)`. -/
private theorem row_at {m n : Nat} (o : Nat) (X : (⟨2, ![m, n]⟩ : Shape).Idx → α)
    (h : (⟨2, ![m, n]⟩ : Shape).Slices ![o, 0] ⟨2, ![1, n]⟩) (k : Fin m) (c : Fin n) (hk : k.val = o) :
    extractStridedSlice ⟨2, ![1, n]⟩ ![o, 0] X h (ix2 (0 : Fin 1) c) = X (ix2 k c) :=
  slice2_axis0_apply o X h 0 c k (by show k.val = o + 0; omega)

end Layout

/-! ## The coordinate planes of the four blocks -/

private theorem pay6_at (x0 : FVec Ideal S512x4x2 .f32) (p : Fin 512) (k : Fin 4) :
    k0_pay6 (F := Ideal) x0 (ix2 p k) = x0 (ix3 p k 0) := by
  unfold k0_pay6 k0_pay2
  rw [shapeCast_self]
  exact plane_last 0 x0 _ _ p k 0 rfl

private theorem pay7_at (x0 : FVec Ideal S512x4x2 .f32) (p : Fin 512) (k : Fin 4) :
    k0_pay7 (F := Ideal) x0 (ix2 p k) = x0 (ix3 p k 1) := by
  unfold k0_pay7 k0_pay2
  rw [shapeCast_self]
  exact plane_last 1 x0 _ _ p k 1 rfl

private theorem pay8_at (x2 : FVec Ideal S512x2x2 .f32) (p : Fin 512) (e : Fin 2) :
    k0_pay8 (F := Ideal) x2 (ix2 p e) = x2 (ix3 p e 0) := by
  unfold k0_pay8 k0_pay3
  rw [shapeCast_self]
  exact plane_last 0 x2 _ _ p e 0 rfl

private theorem pay9_at (x2 : FVec Ideal S512x2x2 .f32) (p : Fin 512) (e : Fin 2) :
    k0_pay9 (F := Ideal) x2 (ix2 p e) = x2 (ix3 p e 1) := by
  unfold k0_pay9 k0_pay3
  rw [shapeCast_self]
  exact plane_last 1 x2 _ _ p e 1 rfl

private theorem pay10_at (x1 : FVec Ideal S4x2x512 .f32) (k : Fin 4) (c : Fin 512) :
    k0_pay10 (F := Ideal) x1 (ix2 k c) = x1 (ix3 k 0 c) := by
  unfold k0_pay10 k0_pay4
  rw [shapeCast_self]
  exact plane_mid 0 x1 _ _ k 0 c rfl

private theorem pay11_at (x1 : FVec Ideal S4x2x512 .f32) (k : Fin 4) (c : Fin 512) :
    k0_pay11 (F := Ideal) x1 (ix2 k c) = x1 (ix3 k 1 c) := by
  unfold k0_pay11 k0_pay4
  rw [shapeCast_self]
  exact plane_mid 1 x1 _ _ k 1 c rfl

private theorem pay12_at (x3 : FVec Ideal S2x2x512 .f32) (e : Fin 2) (c : Fin 512) :
    k0_pay12 (F := Ideal) x3 (ix2 e c) = x3 (ix3 e 0 c) := by
  unfold k0_pay12 k0_pay5
  rw [shapeCast_self]
  exact plane_mid 0 x3 _ _ e 0 c rfl

private theorem pay13_at (x3 : FVec Ideal S2x2x512 .f32) (e : Fin 2) (c : Fin 512) :
    k0_pay13 (F := Ideal) x3 (ix2 e c) = x3 (ix3 e 1 c) := by
  unfold k0_pay13 k0_pay5
  rw [shapeCast_self]
  exact plane_mid 1 x3 _ _ e 1 c rfl

/-! ## The first axis of each box, as a row or a column -/

private theorem pay14_at (x3 : FVec Ideal S2x2x512 .f32) (c : Fin 512) :
    k0_pay14 (F := Ideal) x3 (ix2 (0 : Fin 1) c) = x3 (ix3 0 0 c) := by
  unfold k0_pay14
  exact (row_at 0 _ _ (0 : Fin 2) c rfl).trans (pay12_at x3 0 c)

private theorem pay15_at (x3 : FVec Ideal S2x2x512 .f32) (c : Fin 512) :
    k0_pay15 (F := Ideal) x3 (ix2 (0 : Fin 1) c) = x3 (ix3 0 1 c) := by
  unfold k0_pay15
  exact (row_at 0 _ _ (0 : Fin 2) c rfl).trans (pay13_at x3 0 c)

private theorem pay16_at (x2 : FVec Ideal S512x2x2 .f32) (p : Fin 512) :
    k0_pay16 (F := Ideal) x2 (ix2 p (0 : Fin 1)) = x2 (ix3 p 0 0) := by
  unfold k0_pay16
  exact (col_at 0 _ _ p (0 : Fin 2) rfl).trans (pay8_at x2 p 0)

private theorem pay17_at (x2 : FVec Ideal S512x2x2 .f32) (p : Fin 512) :
    k0_pay17 (F := Ideal) x2 (ix2 p (0 : Fin 1)) = x2 (ix3 p 0 1) := by
  unfold k0_pay17
  exact (col_at 0 _ _ p (0 : Fin 2) rfl).trans (pay9_at x2 p 0)

/-! ## The boxes' own corners projected on their first axis -/

private theorem zero_f32 : (Scalar.ofBits (F := Ideal) .f32 0x00000000#32 : EReal) = 0 := Ideal.ofBits_zero_f32

/-- The least projection of row box `p`'s corners on its first axis. -/
private theorem smin_i_at (x0 : FVec Ideal S512x4x2 .f32) (x2 : FVec Ideal S512x2x2 .f32) (p : Fin 512) :
    k0_pay26 (F := Ideal) (k0_pay6 x0) (k0_pay7 x0) (k0_pay8 x2) (k0_pay9 x2) (k0_pay20 x0 x2) (k0_pay22 x0) (k0_pay23 x2) (ix2 p (0 : Fin 1))
      = MG.lo4 fun k => MG.dot2 (ciOf x0 p k) (aiOf x2 p 0) := by
  unfold k0_pay26 k0_pay24 k0_pay25 k0_pay20 k0_pay22 k0_pay23 k0_pay18 k0_pay19
  simp only [minimumf_apply, addf_apply, mulf_apply,
    col_at 0 _ _ p (0 : Fin 4) rfl, col_at 1 _ _ p (1 : Fin 4) rfl, col_at 2 _ _ p (2 : Fin 4) rfl, col_at 3 _ _ p (3 : Fin 4) rfl,
    col_at 0 _ _ p (0 : Fin 2) rfl, pay6_at, pay7_at, pay8_at, pay9_at]
  rfl

/-- The greatest projection of row box `p`'s corners on its first axis. -/
private theorem smax_i_at (x0 : FVec Ideal S512x4x2 .f32) (x2 : FVec Ideal S512x2x2 .f32) (p : Fin 512) :
    k0_pay27 (F := Ideal) (k0_pay6 x0) (k0_pay7 x0) (k0_pay8 x2) (k0_pay9 x2) (k0_pay21 x0 x2) (k0_pay22 x0) (k0_pay23 x2) (ix2 p (0 : Fin 1))
      = MG.hi4 fun k => MG.dot2 (ciOf x0 p k) (aiOf x2 p 0) := by
  unfold k0_pay27 k0_pay24 k0_pay25 k0_pay21 k0_pay22 k0_pay23 k0_pay18 k0_pay19
  simp only [maximumf_apply, addf_apply, mulf_apply,
    col_at 0 _ _ p (0 : Fin 4) rfl, col_at 1 _ _ p (1 : Fin 4) rfl, col_at 2 _ _ p (2 : Fin 4) rfl, col_at 3 _ _ p (3 : Fin 4) rfl,
    col_at 0 _ _ p (0 : Fin 2) rfl, pay6_at, pay7_at, pay8_at, pay9_at]
  rfl

/-- The least projection of column box `c`'s corners on its first axis. -/
private theorem smin_j_at (x1 : FVec Ideal S4x2x512 .f32) (x3 : FVec Ideal S2x2x512 .f32) (c : Fin 512) :
    k0_pay32 (F := Ideal) (k0_pay10 x1) (k0_pay11 x1) (k0_pay12 x3) (k0_pay13 x3) (ix2 (0 : Fin 1) c)
      = MG.lo4 fun k => MG.dot2 (cjOf x1 c k) (ajOf x3 c 0) := by
  unfold k0_pay32 k0_pay28 k0_pay29 k0_pay30 k0_pay31
  simp only [minimumf_apply, addf_apply, mulf_apply,
    row_at 0 _ _ (0 : Fin 4) c rfl, row_at 1 _ _ (1 : Fin 4) c rfl, row_at 2 _ _ (2 : Fin 4) c rfl, row_at 3 _ _ (3 : Fin 4) c rfl,
    row_at 0 _ _ (0 : Fin 2) c rfl, pay10_at, pay11_at, pay12_at, pay13_at]
  rfl

/-- The greatest projection of column box `c`'s corners on its first axis. -/
private theorem smax_j_at (x1 : FVec Ideal S4x2x512 .f32) (x3 : FVec Ideal S2x2x512 .f32) (c : Fin 512) :
    k0_pay33 (F := Ideal) (k0_pay10 x1) (k0_pay11 x1) (k0_pay12 x3) (k0_pay13 x3) (ix2 (0 : Fin 1) c)
      = MG.hi4 fun k => MG.dot2 (cjOf x1 c k) (ajOf x3 c 0) := by
  unfold k0_pay33 k0_pay28 k0_pay29 k0_pay30 k0_pay31
  simp only [maximumf_apply, addf_apply, mulf_apply,
    row_at 0 _ _ (0 : Fin 4) c rfl, row_at 1 _ _ (1 : Fin 4) c rfl, row_at 2 _ _ (2 : Fin 4) c rfl, row_at 3 _ _ (3 : Fin 4) c rfl,
    row_at 0 _ _ (0 : Fin 2) c rfl, pay10_at, pay11_at, pay12_at, pay13_at]
  rfl

/-- Row box `r`'s first corner projected on the column box's first axis, over any operands. -/
private theorem pay34_at (v9 v11 : FVec Ideal S512x4 .f32) (v24 v25 : FVec Ideal S1x512 .f32) (r c : Fin 512) :
    k0_pay34 (F := Ideal) v9 v11 v24 v25 (ix2 r c)
      = v9 (ix2 r (0 : Fin 4)) * v24 (ix2 (0 : Fin 1) c) + v11 (ix2 r (0 : Fin 4)) * v25 (ix2 (0 : Fin 1) c) := by
  unfold k0_pay34
  simp only [addf_apply, mulf_apply, bcast_col, broadcastTo_1b_ab_apply, col_at 0 _ _ r (0 : Fin 4) rfl]

private theorem pay35_at (v9 : FVec Ideal S512x4 .f32) (r : Fin 512) :
    k0_pay35 (F := Ideal) v9 (ix2 r (0 : Fin 1)) = v9 (ix2 r (1 : Fin 4)) := by
  unfold k0_pay35
  exact col_at 1 _ _ r (1 : Fin 4) rfl

private theorem pay37_at (v17 : FVec Ideal S4x512 .f32) (v26 : FVec Ideal S512x1 .f32) (r c : Fin 512) :
    k0_pay37 (F := Ideal) v17 v26 (ix2 r c) = v26 (ix2 r (0 : Fin 1)) * v17 (ix2 (0 : Fin 4) c) := by
  unfold k0_pay37
  simp only [mulf_apply, bcast_col, broadcastTo_1b_ab_apply, row_at 0 _ _ (0 : Fin 4) c rfl]

private theorem pay38_at (v19 : FVec Ideal S4x512 .f32) (c : Fin 512) :
    k0_pay38 (F := Ideal) v19 (ix2 (0 : Fin 1) c) = v19 (ix2 (0 : Fin 4) c) := by
  unfold k0_pay38
  exact row_at 0 _ _ (0 : Fin 4) c rfl

private theorem pay39_at (v27 : FVec Ideal S512x1 .f32) (r c : Fin 512) :
    k0_pay39 (F := Ideal) v27 (ix2 r c) = v27 (ix2 r (0 : Fin 1)) := by
  unfold k0_pay39
  exact bcast_col _ _ r c

/-! ## The two giou terms of the first axes -/

/-- The giou on the column box's first axis, over any operands: the row box's four corners projected (the first projection
    given, the other three formed here), against the column box's own interval. -/
private theorem pay36_at (v9 v11 : FVec Ideal S512x4 .f32) (v24 v25 v94 v95 : FVec Ideal S1x512 .f32)
    (v104 : FVec Ideal S512x512 .f32) (v105 : FVec Ideal S512x1 .f32) (r c : Fin 512) :
    k0_pay36 (F := Ideal) v9 v11 v24 v25 v94 v95 v104 v105 (ix2 r c)
      = MG.giouK
          (min (min (min (v104 (ix2 r c))
            (v105 (ix2 r (0 : Fin 1)) * v24 (ix2 (0 : Fin 1) c) + v11 (ix2 r (1 : Fin 4)) * v25 (ix2 (0 : Fin 1) c)))
            (v9 (ix2 r (2 : Fin 4)) * v24 (ix2 (0 : Fin 1) c) + v11 (ix2 r (2 : Fin 4)) * v25 (ix2 (0 : Fin 1) c)))
            (v9 (ix2 r (3 : Fin 4)) * v24 (ix2 (0 : Fin 1) c) + v11 (ix2 r (3 : Fin 4)) * v25 (ix2 (0 : Fin 1) c)))
          (max (max (max (v104 (ix2 r c))
            (v105 (ix2 r (0 : Fin 1)) * v24 (ix2 (0 : Fin 1) c) + v11 (ix2 r (1 : Fin 4)) * v25 (ix2 (0 : Fin 1) c)))
            (v9 (ix2 r (2 : Fin 4)) * v24 (ix2 (0 : Fin 1) c) + v11 (ix2 r (2 : Fin 4)) * v25 (ix2 (0 : Fin 1) c)))
            (v9 (ix2 r (3 : Fin 4)) * v24 (ix2 (0 : Fin 1) c) + v11 (ix2 r (3 : Fin 4)) * v25 (ix2 (0 : Fin 1) c)))
          (v94 (ix2 (0 : Fin 1) c)) (v95 (ix2 (0 : Fin 1) c)) := by
  unfold k0_pay36
  simp only [MG.giouK, MG.giouWith, subf_apply, divf_apply, addf_apply, mulf_apply, minimumf_apply, maximumf_apply, broadcast_apply,
    bcast_col, broadcastTo_1b_ab_apply, zero_f32,
    col_at 1 _ _ r (1 : Fin 4) rfl, col_at 2 _ _ r (2 : Fin 4) rfl, col_at 3 _ _ r (3 : Fin 4) rfl]

/-- The giou on the row box's first axis, over any operands, and its minimum with the term before it: the column box's four
    corners projected on the row box's axis (the first projection given in two halves), against the row box's own interval. -/
private theorem pay40_at (v17 v19 : FVec Ideal S4x512 .f32) (v26 v27 v60 v61 : FVec Ideal S512x1 .f32)
    (v158 v162 : FVec Ideal S512x512 .f32) (v163 : FVec Ideal S1x512 .f32) (v164 : FVec Ideal S512x512 .f32) (r c : Fin 512) :
    k0_pay40 (F := Ideal) v17 v19 v26 v27 v60 v61 v158 v162 v163 v164 (ix2 r c)
      = min (v158 (ix2 r c))
          (MG.giouK (v60 (ix2 r (0 : Fin 1))) (v61 (ix2 r (0 : Fin 1)))
            (min (min (min (v162 (ix2 r c) + v164 (ix2 r c) * v163 (ix2 (0 : Fin 1) c))
              (v26 (ix2 r (0 : Fin 1)) * v17 (ix2 (1 : Fin 4) c) + v27 (ix2 r (0 : Fin 1)) * v19 (ix2 (1 : Fin 4) c)))
              (v26 (ix2 r (0 : Fin 1)) * v17 (ix2 (2 : Fin 4) c) + v27 (ix2 r (0 : Fin 1)) * v19 (ix2 (2 : Fin 4) c)))
              (v26 (ix2 r (0 : Fin 1)) * v17 (ix2 (3 : Fin 4) c) + v27 (ix2 r (0 : Fin 1)) * v19 (ix2 (3 : Fin 4) c)))
            (max (max (max (v162 (ix2 r c) + v164 (ix2 r c) * v163 (ix2 (0 : Fin 1) c))
              (v26 (ix2 r (0 : Fin 1)) * v17 (ix2 (1 : Fin 4) c) + v27 (ix2 r (0 : Fin 1)) * v19 (ix2 (1 : Fin 4) c)))
              (v26 (ix2 r (0 : Fin 1)) * v17 (ix2 (2 : Fin 4) c) + v27 (ix2 r (0 : Fin 1)) * v19 (ix2 (2 : Fin 4) c)))
              (v26 (ix2 r (0 : Fin 1)) * v17 (ix2 (3 : Fin 4) c) + v27 (ix2 r (0 : Fin 1)) * v19 (ix2 (3 : Fin 4) c)))) := by
  unfold k0_pay40
  simp only [MG.giouK, MG.giouWith, subf_apply, divf_apply, addf_apply, mulf_apply, minimumf_apply, maximumf_apply, broadcast_apply,
    bcast_col, broadcastTo_1b_ab_apply, zero_f32,
    row_at 1 _ _ (1 : Fin 4) c rfl, row_at 2 _ _ (2 : Fin 4) c rfl, row_at 3 _ _ (3 : Fin 4) c rfl]

/-! ## The first part of the tile at an entry -/

theorem part0_apply (x0 : FVec Ideal S512x4x2 .f32) (x1 : FVec Ideal S4x2x512 .f32) (x2 : FVec Ideal S512x2x2 .f32) (x3 : FVec Ideal S2x2x512 .f32) (r c : Fin 512) :
    part0 (F := Ideal) x0 x1 x2 x3 (ix2 r c) = MG.g0K (ciOf x0 r) (aiOf x2 r) (cjOf x1 c) (ajOf x3 c) := by
  unfold part0
  refine (pay40_at _ _ _ _ _ _ _ _ _ _ r c).trans ?_
  rw [pay36_at, pay34_at, pay35_at, pay37_at, pay38_at, pay39_at, smin_i_at, smax_i_at, smin_j_at, smax_j_at]
  simp only [pay6_at, pay7_at, pay10_at, pay11_at, pay14_at, pay15_at, pay16_at, pay17_at]
  rfl

end Cert.KernelIdeal.Tile

end
-- ==== Proof.KPart1.lean ====
/-
  The second part of a tile read at an entry.
-/
import proofs.«172119_j59760174957246_1_alg».proof.Proof.KTileRead
import Idealize.ShloMosaic.Lib.Pipeline.Value
import Idealize.ShloMosaic.Lib.ValueLayout
import Idealize.ShloMosaic.PureOps.Ideal.Laws

noncomputable section

namespace Cert.KernelIdeal.Tile

open Cert.KernelIdeal Cert.KernelIdeal.Gen Idealize.ShloMosaic Idealize.ShloMosaic.ValueIdx

/-! ### The few layout patterns of the body, read at an entry -/

section Layout
variable {α : Type}

/-- The plane `d` of the last axis of an `[n, m, 2]` block, seen as an `[n, m]` matrix, reads at `(p, k)` the block at
    `(p, k, d)`. -/
private theorem lastPlane_apply {n m : Nat} (d : Nat) (X : (⟨3, ![n, m, 2]⟩ : Shape).Idx → α)
    (hs : (⟨3, ![n, m, 2]⟩ : Shape).Slices ![0, 0, d] ⟨3, ![n, m, 1]⟩)
    (hc : (⟨3, ![n, m, 1]⟩ : Shape).ShapeCasts ⟨2, ![n, m]⟩)
    (p : Fin n) (k : Fin m) (dd : Fin 2) (hd : dd.val = d) :
    shapeCast ⟨2, ![n, m]⟩ (extractStridedSlice ⟨3, ![n, m, 1]⟩ ![0, 0, d] X hs) hc (ix2 p k) = X (ix3 p k dd) := by
  refine (shapeCast_apply _ hc (ix2 p k) (ix3 p k (0 : Fin 1)) ?_).trans ?_
  · rw [Shape.rowMajor_val_three, Shape.rowMajor_val_two]
    show (p.val * m + k.val) * 1 + 0 = p.val * m + k.val
    omega
  · refine extractStridedSlice_apply _ X hs _ (ix3 p k dd) fun a => ?_
    match a with
    | ⟨0, _⟩ => exact (Nat.zero_add _).symm
    | ⟨1, _⟩ => exact (Nat.zero_add _).symm
    | ⟨2, _⟩ => show dd.val = d + 0; omega

/-- The plane `d` of the middle axis of an `[m, 2, n]` block, seen as an `[m, n]` matrix, reads at `(k, q)` the block at
    `(k, d, q)`. -/
private theorem midPlane_apply {m n : Nat} (d : Nat) (X : (⟨3, ![m, 2, n]⟩ : Shape).Idx → α)
    (hs : (⟨3, ![m, 2, n]⟩ : Shape).Slices ![0, d, 0] ⟨3, ![m, 1, n]⟩)
    (hc : (⟨3, ![m, 1, n]⟩ : Shape).ShapeCasts ⟨2, ![m, n]⟩)
    (k : Fin m) (q : Fin n) (dd : Fin 2) (hd : dd.val = d) :
    shapeCast ⟨2, ![m, n]⟩ (extractStridedSlice ⟨3, ![m, 1, n]⟩ ![0, d, 0] X hs) hc (ix2 k q) = X (ix3 k dd q) := by
  refine (shapeCast_apply _ hc (ix2 k q) (ix3 k (0 : Fin 1) q) ?_).trans ?_
  · rw [Shape.rowMajor_val_three, Shape.rowMajor_val_two]
    show (k.val * 1 + 0) * n + q.val = k.val * n + q.val
    rw [Nat.mul_one, Nat.add_zero]
  · exact slice3_axis1_apply d X hs k (0 : Fin 1) q dd (by show dd.val = d + 0; omega)

/-- Row `o` of an `[m, n]` matrix, cut out as a `[1, n]` row, reads at `(0, c)` the matrix at `(o, c)`. -/
private theorem rowCut_apply {m n : Nat} (o : Nat) (X : (⟨2, ![m, n]⟩ : Shape).Idx → α)
    (h : (⟨2, ![m, n]⟩ : Shape).Slices ![o, 0] ⟨2, ![1, n]⟩) (c : Fin n) (k : Fin m) (hk : k.val = o) :
    extractStridedSlice ⟨2, ![1, n]⟩ ![o, 0] X h (ix2 (0 : Fin 1) c) = X (ix2 k c) :=
  slice2_axis0_apply o X h (0 : Fin 1) c k (by show k.val = o + 0; omega)

/-- Column `o` of an `[n, m]` matrix, cut out as an `[n, 1]` column, reads at `(p, 0)` the matrix at `(p, o)`. -/
private theorem colCut_apply {n m : Nat} (o : Nat) (X : (⟨2, ![n, m]⟩ : Shape).Idx → α)
    (h : (⟨2, ![n, m]⟩ : Shape).Slices ![0, o] ⟨2, ![n, 1]⟩) (p : Fin n) (k : Fin m) (hk : k.val = o) :
    extractStridedSlice ⟨2, ![n, 1]⟩ ![0, o] X h (ix2 p (0 : Fin 1)) = X (ix2 p k) :=
  slice2_axis1_apply o X h p (0 : Fin 1) k (by show k.val = o + 0; omega)

/-- A column `[a, 1]` spread over `[a, b]` reads at `(p, c)` the column at `p`. -/
private theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-! ### The coordinate planes of the four blocks -/

private theorem pay6_apply (x0 : FVec Ideal S512x4x2 .f32) (r : Fin 512) (k : Fin 4) :
    k0_pay6 (F := Ideal) x0 (ix2 r k) = x0 (ix3 r k 0) := by
  unfold k0_pay6 k0_pay2
  rw [shapeCast_self]
  exact lastPlane_apply 0 x0 _ _ r k 0 rfl

private theorem pay7_apply (x0 : FVec Ideal S512x4x2 .f32) (r : Fin 512) (k : Fin 4) :
    k0_pay7 (F := Ideal) x0 (ix2 r k) = x0 (ix3 r k 1) := by
  unfold k0_pay7 k0_pay2
  rw [shapeCast_self]
  exact lastPlane_apply 1 x0 _ _ r k 1 rfl

private theorem pay10_apply (x1 : FVec Ideal S4x2x512 .f32) (k : Fin 4) (c : Fin 512) :
    k0_pay10 (F := Ideal) x1 (ix2 k c) = x1 (ix3 k 0 c) := by
  unfold k0_pay10 k0_pay4
  rw [shapeCast_self]
  exact midPlane_apply 0 x1 _ _ k c 0 rfl

private theorem pay11_apply (x1 : FVec Ideal S4x2x512 .f32) (k : Fin 4) (c : Fin 512) :
    k0_pay11 (F := Ideal) x1 (ix2 k c) = x1 (ix3 k 1 c) := by
  unfold k0_pay11 k0_pay4
  rw [shapeCast_self]
  exact midPlane_apply 1 x1 _ _ k c 1 rfl

private theorem pay12_apply (x3 : FVec Ideal S2x2x512 .f32) (e : Fin 2) (c : Fin 512) :
    k0_pay12 (F := Ideal) x3 (ix2 e c) = x3 (ix3 e 0 c) := by
  unfold k0_pay12 k0_pay5
  rw [shapeCast_self]
  exact midPlane_apply 0 x3 _ _ e c 0 rfl

private theorem pay13_apply (x3 : FVec Ideal S2x2x512 .f32) (e : Fin 2) (c : Fin 512) :
    k0_pay13 (F := Ideal) x3 (ix2 e c) = x3 (ix3 e 1 c) := by
  unfold k0_pay13 k0_pay5
  rw [shapeCast_self]
  exact midPlane_apply 1 x3 _ _ e c 1 rfl

/-- The column boxes' second axis, first coordinate. -/
private theorem pay41_apply (v21 : FVec Ideal S2x512 .f32) (c : Fin 512) :
    k0_pay41 (F := Ideal) v21 (ix2 (0 : Fin 1) c) = v21 (ix2 1 c) := by
  unfold k0_pay41
  exact rowCut_apply 1 v21 _ c 1 rfl

/-- The column boxes' second axis, second coordinate. -/
private theorem pay42_apply (v23 : FVec Ideal S2x512 .f32) (c : Fin 512) :
    k0_pay42 (F := Ideal) v23 (ix2 (0 : Fin 1) c) = v23 (ix2 1 c) := by
  unfold k0_pay42
  exact rowCut_apply 1 v23 _ c 1 rfl

/-! ### The column boxes' own corners projected on their second axis -/

/-- Corner `o` of column box `c` on that box's second axis. -/
private theorem colProj (o : Nat) (v17 v19 : FVec Ideal S4x512 .f32) (v21 v23 : FVec Ideal S2x512 .f32)
    (h4 : S4x512.Slices ![o, 0] S1x512) (h2 : S2x512.Slices ![1, 0] S1x512) (c : Fin 512) (k : Fin 4) (hk : k.val = o) :
    addf (mulf (extractStridedSlice S1x512 ![o, 0] v17 h4) (extractStridedSlice S1x512 ![1, 0] v21 h2))
        (mulf (extractStridedSlice S1x512 ![o, 0] v19 h4) (extractStridedSlice S1x512 ![1, 0] v23 h2)) (ix2 (0 : Fin 1) c)
      = v17 (ix2 k c) * v21 (ix2 1 c) + v19 (ix2 k c) * v23 (ix2 1 c) := by
  rw [addf_apply, mulf_apply, mulf_apply, rowCut_apply o v17 h4 c k hk, rowCut_apply 1 v21 h2 c 1 rfl,
    rowCut_apply o v19 h4 c k hk, rowCut_apply 1 v23 h2 c 1 rfl]

private theorem pay51_apply (v17 v19 : FVec Ideal S4x512 .f32) (v21 v23 : FVec Ideal S2x512 .f32) (c : Fin 512) :
    k0_pay51 (F := Ideal) v17 v19 v21 v23 (ix2 (0 : Fin 1) c) = v17 (ix2 0 c) * v21 (ix2 1 c) + v19 (ix2 0 c) * v23 (ix2 1 c) := by
  unfold k0_pay51
  exact colProj 0 v17 v19 v21 v23 _ _ c 0 rfl

private theorem pay52_apply (v17 v19 : FVec Ideal S4x512 .f32) (v21 v23 : FVec Ideal S2x512 .f32) (c : Fin 512) :
    k0_pay52 (F := Ideal) v17 v19 v21 v23 (ix2 (0 : Fin 1) c) = v17 (ix2 1 c) * v21 (ix2 1 c) + v19 (ix2 1 c) * v23 (ix2 1 c) := by
  unfold k0_pay52
  exact colProj 1 v17 v19 v21 v23 _ _ c 1 rfl

private theorem pay55_apply (v17 v19 : FVec Ideal S4x512 .f32) (v21 v23 : FVec Ideal S2x512 .f32) (c : Fin 512) :
    k0_pay55 (F := Ideal) v17 v19 v21 v23 (ix2 (0 : Fin 1) c) = v17 (ix2 2 c) * v21 (ix2 1 c) + v19 (ix2 2 c) * v23 (ix2 1 c) := by
  unfold k0_pay55
  exact colProj 2 v17 v19 v21 v23 _ _ c 2 rfl

private theorem pay56_apply (v17 v19 : FVec Ideal S4x512 .f32) (v21 v23 : FVec Ideal S2x512 .f32) (c : Fin 512) :
    k0_pay56 (F := Ideal) v17 v19 v21 v23 (ix2 (0 : Fin 1) c) = v17 (ix2 3 c) * v21 (ix2 1 c) + v19 (ix2 3 c) * v23 (ix2 1 c) := by
  unfold k0_pay56
  exact colProj 3 v17 v19 v21 v23 _ _ c 3 rfl

/-- Their least value over the four corners. -/
private theorem sminJ_apply (v17 v19 : FVec Ideal S4x512 .f32) (v21 v23 : FVec Ideal S2x512 .f32) (c : Fin 512) :
    k0_pay57 (F := Ideal) v17 v19 v21 v23 (k0_pay53 v17 v19 v21 v23) (k0_pay55 v17 v19 v21 v23) (ix2 (0 : Fin 1) c)
      = MG.lo4 fun k => v17 (ix2 k c) * v21 (ix2 1 c) + v19 (ix2 k c) * v23 (ix2 1 c) := by
  unfold k0_pay57 k0_pay53 MG.lo4
  show min (min (min (k0_pay51 v17 v19 v21 v23 (ix2 (0 : Fin 1) c)) (k0_pay52 v17 v19 v21 v23 (ix2 (0 : Fin 1) c)))
      (k0_pay55 v17 v19 v21 v23 (ix2 (0 : Fin 1) c))) (k0_pay56 v17 v19 v21 v23 (ix2 (0 : Fin 1) c)) = _
  rw [pay51_apply, pay52_apply, pay55_apply, pay56_apply]

/-- Their greatest value over the four corners. -/
private theorem smaxJ_apply (v17 v19 : FVec Ideal S4x512 .f32) (v21 v23 : FVec Ideal S2x512 .f32) (c : Fin 512) :
    k0_pay58 (F := Ideal) v17 v19 v21 v23 (k0_pay54 v17 v19 v21 v23) (k0_pay55 v17 v19 v21 v23) (ix2 (0 : Fin 1) c)
      = MG.hi4 fun k => v17 (ix2 k c) * v21 (ix2 1 c) + v19 (ix2 k c) * v23 (ix2 1 c) := by
  unfold k0_pay58 k0_pay54 MG.hi4
  show max (max (max (k0_pay51 v17 v19 v21 v23 (ix2 (0 : Fin 1) c)) (k0_pay52 v17 v19 v21 v23 (ix2 (0 : Fin 1) c)))
      (k0_pay55 v17 v19 v21 v23 (ix2 (0 : Fin 1) c))) (k0_pay56 v17 v19 v21 v23 (ix2 (0 : Fin 1) c)) = _
  rw [pay51_apply, pay52_apply, pay55_apply, pay56_apply]

/-! ### The row boxes' corners projected on the column boxes' second axis -/

/-- Corner `o` of row box `r` on an axis given by its two coordinate rows. -/
private theorem rowProj (o : Nat) (v9 v11 : FVec Ideal S512x4 .f32) (v223 v224 : FVec Ideal S1x512 .f32)
    (h : S512x4.Slices ![0, o] S512x1) (hc : S512x1.Broadcasts S512x512) (hr : S1x512.Broadcasts S512x512)
    (r c : Fin 512) (k : Fin 4) (hk : k.val = o) :
    addf (mulf (broadcastTo S512x512 (extractStridedSlice S512x1 ![0, o] v9 h) hc) (broadcastTo S512x512 v223 hr))
        (mulf (broadcastTo S512x512 (extractStridedSlice S512x1 ![0, o] v11 h) hc) (broadcastTo S512x512 v224 hr)) (ix2 r c)
      = v9 (ix2 r k) * v223 (ix2 (0 : Fin 1) c) + v11 (ix2 r k) * v224 (ix2 (0 : Fin 1) c) := by
  rw [addf_apply, mulf_apply, mulf_apply, broadcastTo_a1_ab_apply, broadcastTo_a1_ab_apply, broadcastTo_1b_ab_apply,
    broadcastTo_1b_ab_apply, colCut_apply o v9 h r k hk, colCut_apply o v11 h r k hk]

private theorem pay59_apply (v9 v11 : FVec Ideal S512x4 .f32) (v223 v224 : FVec Ideal S1x512 .f32) (r c : Fin 512) :
    k0_pay59 (F := Ideal) v9 v11 v223 v224 (ix2 r c)
      = v9 (ix2 r 0) * v223 (ix2 (0 : Fin 1) c) + v11 (ix2 r 0) * v224 (ix2 (0 : Fin 1) c) := by
  unfold k0_pay59
  exact rowProj 0 v9 v11 v223 v224 _ _ _ r c 0 rfl

private theorem pay60_apply (v9 v11 : FVec Ideal S512x4 .f32) (v223 v224 : FVec Ideal S1x512 .f32) (r c : Fin 512) :
    k0_pay60 (F := Ideal) v9 v11 v223 v224 (ix2 r c)
      = v9 (ix2 r 1) * v223 (ix2 (0 : Fin 1) c) + v11 (ix2 r 1) * v224 (ix2 (0 : Fin 1) c) := by
  unfold k0_pay60
  exact rowProj 1 v9 v11 v223 v224 _ _ _ r c 1 rfl

private theorem pay61_apply (v9 v11 : FVec Ideal S512x4 .f32) (v223 v224 : FVec Ideal S1x512 .f32) (r c : Fin 512) :
    k0_pay61 (F := Ideal) v9 v11 v223 v224 (ix2 r c)
      = v9 (ix2 r 2) * v223 (ix2 (0 : Fin 1) c) + v11 (ix2 r 2) * v224 (ix2 (0 : Fin 1) c) := by
  unfold k0_pay61
  exact rowProj 2 v9 v11 v223 v224 _ _ _ r c 2 rfl

private theorem pay62_apply (v9 v11 : FVec Ideal S512x4 .f32) (v223 v224 : FVec Ideal S1x512 .f32) (r c : Fin 512) :
    k0_pay62 (F := Ideal) v9 v11 v223 v224 (ix2 r c)
      = v9 (ix2 r 3) * v223 (ix2 (0 : Fin 1) c) + v11 (ix2 r 3) * v224 (ix2 (0 : Fin 1) c) := by
  unfold k0_pay62
  exact rowProj 3 v9 v11 v223 v224 _ _ _ r c 3 rfl

/-- Their least value over the four corners. -/
private theorem pay63_apply (v9 v11 : FVec Ideal S512x4 .f32) (v223 v224 : FVec Ideal S1x512 .f32) (r c : Fin 512) :
    k0_pay63 (F := Ideal) v9 v11 v223 v224 (ix2 r c)
      = MG.lo4 fun k => v9 (ix2 r k) * v223 (ix2 (0 : Fin 1) c) + v11 (ix2 r k) * v224 (ix2 (0 : Fin 1) c) := by
  unfold k0_pay63 MG.lo4
  show min (min (min (k0_pay59 v9 v11 v223 v224 (ix2 r c)) (k0_pay60 v9 v11 v223 v224 (ix2 r c)))
      (k0_pay61 v9 v11 v223 v224 (ix2 r c))) (k0_pay62 v9 v11 v223 v224 (ix2 r c)) = _
  rw [pay59_apply, pay60_apply, pay61_apply, pay62_apply]

/-- Their greatest value over the four corners. -/
private theorem pay64_apply (v9 v11 : FVec Ideal S512x4 .f32) (v223 v224 : FVec Ideal S1x512 .f32) (r c : Fin 512) :
    k0_pay64 (F := Ideal) v9 v11 v223 v224 (ix2 r c)
      = MG.hi4 fun k => v9 (ix2 r k) * v223 (ix2 (0 : Fin 1) c) + v11 (ix2 r k) * v224 (ix2 (0 : Fin 1) c) := by
  unfold k0_pay64 MG.hi4
  show max (max (max (k0_pay59 v9 v11 v223 v224 (ix2 r c)) (k0_pay60 v9 v11 v223 v224 (ix2 r c)))
      (k0_pay61 v9 v11 v223 v224 (ix2 r c))) (k0_pay62 v9 v11 v223 v224 (ix2 r c)) = _
  rw [pay59_apply, pay60_apply, pay61_apply, pay62_apply]

/-! ### The overlap, the zero, and the generalized IoU on that axis -/

/-- The overlap of the two intervals before the clamp. -/
private theorem pay65_apply (v9 v11 : FVec Ideal S512x4 .f32) (v17 v19 : FVec Ideal S4x512 .f32) (v21 v23 : FVec Ideal S2x512 .f32)
    (v223 v224 v275 v276 v283 : FVec Ideal S1x512 .f32) (r c : Fin 512) :
    k0_pay65 (F := Ideal) v9 v11 v17 v19 v21 v23 v223 v224 v275 v276 v283 (ix2 r c)
      = min (k0_pay64 v9 v11 v223 v224 (ix2 r c)) (k0_pay58 v17 v19 v21 v23 v276 v283 (ix2 (0 : Fin 1) c))
        - max (k0_pay63 v9 v11 v223 v224 (ix2 r c)) (k0_pay57 v17 v19 v21 v23 v275 v283 (ix2 (0 : Fin 1) c)) := by
  unfold k0_pay65
  show min (k0_pay64 v9 v11 v223 v224 (ix2 r c))
        (broadcastTo S512x512 (k0_pay58 v17 v19 v21 v23 v276 v283) broadcasts_S1x512_S512x512 (ix2 r c))
      - max (k0_pay63 v9 v11 v223 v224 (ix2 r c))
        (broadcastTo S512x512 (k0_pay57 v17 v19 v21 v23 v275 v283) broadcasts_S1x512_S512x512 (ix2 r c)) = _
  rw [broadcastTo_1b_ab_apply, broadcastTo_1b_ab_apply]

private theorem pay66_apply (r c : Fin 512) : k0_pay66 (F := Ideal) (ix2 r c) = 0 := by
  unfold k0_pay66
  exact Ideal.ofBits_zero_f32

/-- The generalized IoU of a row interval `[v335, v336]` and a column interval `[v293, v294]` whose overlap before the clamp is
    `v341`, met with what came before. -/
private theorem pay67_apply (v222 : FVec Ideal S512x512 .f32) (v293 v294 : FVec Ideal S1x512 .f32)
    (v335 v336 v341 v342 : FVec Ideal S512x512 .f32) (r c : Fin 512) :
    k0_pay67 (F := Ideal) v222 v293 v294 v335 v336 v341 v342 (ix2 r c)
      = min (v222 (ix2 r c))
          (Ideal.div (max (v341 (ix2 r c)) (v342 (ix2 r c)))
              ((v336 (ix2 r c) - v335 (ix2 r c)) + (v294 (ix2 (0 : Fin 1) c) - v293 (ix2 (0 : Fin 1) c))
                - max (v341 (ix2 r c)) (v342 (ix2 r c)))
            - Ideal.div
                ((max (v336 (ix2 r c)) (v294 (ix2 (0 : Fin 1) c)) - min (v335 (ix2 r c)) (v293 (ix2 (0 : Fin 1) c)))
                  - ((v336 (ix2 r c) - v335 (ix2 r c)) + (v294 (ix2 (0 : Fin 1) c) - v293 (ix2 (0 : Fin 1) c))
                    - max (v341 (ix2 r c)) (v342 (ix2 r c))))
                (max (v336 (ix2 r c)) (v294 (ix2 (0 : Fin 1) c)) - min (v335 (ix2 r c)) (v293 (ix2 (0 : Fin 1) c)))) := by
  have h1 : broadcastTo S512x512 (subf v294 v293) broadcasts_S1x512_S512x512 (ix2 r c)
      = v294 (ix2 (0 : Fin 1) c) - v293 (ix2 (0 : Fin 1) c) := broadcastTo_1b_ab_apply _ _ r c
  have h2 : broadcastTo S512x512 v294 broadcasts_S1x512_S512x512 (ix2 r c) = v294 (ix2 (0 : Fin 1) c) :=
    broadcastTo_1b_ab_apply _ _ r c
  have h3 : broadcastTo S512x512 v293 broadcasts_S1x512_S512x512 (ix2 r c) = v293 (ix2 (0 : Fin 1) c) :=
    broadcastTo_1b_ab_apply _ _ r c
  unfold k0_pay67
  show min (v222 (ix2 r c))
          (Ideal.div (max (v341 (ix2 r c)) (v342 (ix2 r c)))
              ((v336 (ix2 r c) - v335 (ix2 r c)) + broadcastTo S512x512 (subf v294 v293) broadcasts_S1x512_S512x512 (ix2 r c)
                - max (v341 (ix2 r c)) (v342 (ix2 r c)))
            - Ideal.div
                ((max (v336 (ix2 r c)) (broadcastTo S512x512 v294 broadcasts_S1x512_S512x512 (ix2 r c))
                    - min (v335 (ix2 r c)) (broadcastTo S512x512 v293 broadcasts_S1x512_S512x512 (ix2 r c)))
                  - ((v336 (ix2 r c) - v335 (ix2 r c)) + broadcastTo S512x512 (subf v294 v293) broadcasts_S1x512_S512x512 (ix2 r c)
                    - max (v341 (ix2 r c)) (v342 (ix2 r c))))
                (max (v336 (ix2 r c)) (broadcastTo S512x512 v294 broadcasts_S1x512_S512x512 (ix2 r c))
                  - min (v335 (ix2 r c)) (broadcastTo S512x512 v293 broadcasts_S1x512_S512x512 (ix2 r c)))) = _
  rw [h1, h2, h3]

/-! ### The second part at an entry -/

theorem part1_apply (x0 : FVec Ideal S512x4x2 .f32) (x1 : FVec Ideal S4x2x512 .f32) (x2 : FVec Ideal S512x2x2 .f32) (x3 : FVec Ideal S2x2x512 .f32) (r c : Fin 512) :
    part1 (F := Ideal) x0 x1 x2 x3 (ix2 r c)
      = min (part0 (F := Ideal) x0 x1 x2 x3 (ix2 r c)) (MG.gBK (ciOf x0 r) (cjOf x1 c) (ajOf x3 c) 1) := by
  unfold part1
  generalize part0 (F := Ideal) x0 x1 x2 x3 = P
  rw [pay67_apply, pay65_apply, pay66_apply, pay64_apply, pay63_apply, sminJ_apply, smaxJ_apply]
  simp only [pay6_apply, pay7_apply, pay10_apply, pay11_apply, pay12_apply, pay13_apply, pay41_apply, pay42_apply]
  rfl

end Cert.KernelIdeal.Tile

end
-- ==== Proof.KTileApply.lean ====
/-
  The whole tile read at an entry.
-/
import proofs.«172119_j59760174957246_1_alg».proof.Proof.KTileRead
import Idealize.ShloMosaic.Lib.Pipeline.Value
import Idealize.ShloMosaic.Lib.ValueLayout
import Idealize.ShloMosaic.PureOps.Ideal.Laws

noncomputable section

namespace Cert.KernelIdeal.Tile

open Cert.KernelIdeal Cert.KernelIdeal.Gen Idealize.ShloMosaic Idealize.ShloMosaic.ValueIdx

/-! ## Layout patterns read at an index -/

section Layout
variable {α : Type}

/-- The coordinate plane `d` of the last axis of an [n,m,2] block, viewed as an [n,m] array, reads the block at (p,k,d). -/
private theorem planeLast_apply {n m : Nat} (d : Nat) (hd : d < 2) (x : (⟨3, ![n, m, 2]⟩ : Shape).Idx → α)
    (hs : (⟨3, ![n, m, 2]⟩ : Shape).Slices ![0, 0, d] ⟨3, ![n, m, 1]⟩)
    (hc : (⟨3, ![n, m, 1]⟩ : Shape).ShapeCasts ⟨2, ![n, m]⟩) (p : Fin n) (k : Fin m) :
    shapeCast ⟨2, ![n, m]⟩ (extractStridedSlice ⟨3, ![n, m, 1]⟩ ![0, 0, d] x hs) hc (ix2 p k) = x (ix3 p k ⟨d, hd⟩) := by
  refine (shapeCast_apply _ hc (ix2 p k) (ix3 p k (0 : Fin 1)) ?_).trans ?_
  · rw [Shape.rowMajor_val_three, Shape.rowMajor_val_two]
    show (p.val * m + k.val) * 1 + 0 = p.val * m + k.val
    simp
  · refine extractStridedSlice_apply _ x hs _ _ fun a => ?_
    match a with
    | ⟨0, _⟩ => exact (Nat.zero_add _).symm
    | ⟨1, _⟩ => exact (Nat.zero_add _).symm
    | ⟨2, _⟩ => rfl

/-- The coordinate plane `d` of the middle axis of an [m,2,n] block, viewed as an [m,n] array, reads the block at (k,d,q). -/
private theorem planeMid_apply {m n : Nat} (d : Nat) (hd : d < 2) (x : (⟨3, ![m, 2, n]⟩ : Shape).Idx → α)
    (hs : (⟨3, ![m, 2, n]⟩ : Shape).Slices ![0, d, 0] ⟨3, ![m, 1, n]⟩)
    (hc : (⟨3, ![m, 1, n]⟩ : Shape).ShapeCasts ⟨2, ![m, n]⟩) (k : Fin m) (q : Fin n) :
    shapeCast ⟨2, ![m, n]⟩ (extractStridedSlice ⟨3, ![m, 1, n]⟩ ![0, d, 0] x hs) hc (ix2 k q) = x (ix3 k ⟨d, hd⟩ q) := by
  refine (shapeCast_apply _ hc (ix2 k q) (ix3 k (0 : Fin 1) q) ?_).trans ?_
  · rw [Shape.rowMajor_val_three, Shape.rowMajor_val_two]
    show (k.val * 1 + 0) * n + q.val = k.val * n + q.val
    simp
  · refine extractStridedSlice_apply _ x hs _ _ fun a => ?_
    match a with
    | ⟨0, _⟩ => exact (Nat.zero_add _).symm
    | ⟨1, _⟩ => rfl
    | ⟨2, _⟩ => exact (Nat.zero_add _).symm

/-- A [512,1] column broadcast over 512 columns reads the column at the row. -/
private theorem colBcast_apply (v : S512x1.Idx → α) (h : S512x1.Broadcasts S512x512) (p q : Fin 512) :
    broadcastTo S512x512 v h (ix2 p q) = v (ix2 p (0 : Fin 1)) := by
  refine broadcastTo_apply v h (ix2 p q) (ix2 p (0 : Fin 1)) fun a => ?_
  match a with
  | ⟨0, _⟩ => rfl
  | ⟨1, _⟩ => rfl

end Layout

/-! ## The coordinate planes of the four blocks -/

theorem pay6_apply (x0 : FVec Ideal S512x4x2 .f32) (p : Fin 512) (k : Fin 4) :
    k0_pay6 (F := Ideal) x0 (ix2 p k) = x0 (ix3 p k 0) := by
  unfold k0_pay6 k0_pay2
  exact (planeLast_apply 0 (by omega) _ _ _ p k).trans (congrFun (shapeCast_self x0 _) _)

theorem pay7_apply (x0 : FVec Ideal S512x4x2 .f32) (p : Fin 512) (k : Fin 4) :
    k0_pay7 (F := Ideal) x0 (ix2 p k) = x0 (ix3 p k 1) := by
  unfold k0_pay7 k0_pay2
  exact (planeLast_apply 1 (by omega) _ _ _ p k).trans (congrFun (shapeCast_self x0 _) _)

theorem pay8_apply (x2 : FVec Ideal S512x2x2 .f32) (p : Fin 512) (e : Fin 2) :
    k0_pay8 (F := Ideal) x2 (ix2 p e) = x2 (ix3 p e 0) := by
  unfold k0_pay8 k0_pay3
  exact (planeLast_apply 0 (by omega) _ _ _ p e).trans (congrFun (shapeCast_self x2 _) _)

theorem pay9_apply (x2 : FVec Ideal S512x2x2 .f32) (p : Fin 512) (e : Fin 2) :
    k0_pay9 (F := Ideal) x2 (ix2 p e) = x2 (ix3 p e 1) := by
  unfold k0_pay9 k0_pay3
  exact (planeLast_apply 1 (by omega) _ _ _ p e).trans (congrFun (shapeCast_self x2 _) _)

theorem pay10_apply (x1 : FVec Ideal S4x2x512 .f32) (k : Fin 4) (q : Fin 512) :
    k0_pay10 (F := Ideal) x1 (ix2 k q) = x1 (ix3 k 0 q) := by
  unfold k0_pay10 k0_pay4
  exact (planeMid_apply 0 (by omega) _ _ _ k q).trans (congrFun (shapeCast_self x1 _) _)

theorem pay11_apply (x1 : FVec Ideal S4x2x512 .f32) (k : Fin 4) (q : Fin 512) :
    k0_pay11 (F := Ideal) x1 (ix2 k q) = x1 (ix3 k 1 q) := by
  unfold k0_pay11 k0_pay4
  exact (planeMid_apply 1 (by omega) _ _ _ k q).trans (congrFun (shapeCast_self x1 _) _)

/-! ## The second axis of the row boxes, and the projections on it -/

theorem pay43_apply (v13 : FVec Ideal S512x2 .f32) (p : Fin 512) :
    k0_pay43 (F := Ideal) v13 (ix2 p (0 : Fin 1)) = v13 (ix2 p 1) := by
  unfold k0_pay43
  exact slice2_axis1_apply 1 v13 _ p (0 : Fin 1) (1 : Fin 2) rfl

theorem pay44_apply (v15 : FVec Ideal S512x2 .f32) (p : Fin 512) :
    k0_pay44 (F := Ideal) v15 (ix2 p (0 : Fin 1)) = v15 (ix2 p 1) := by
  unfold k0_pay44
  exact slice2_axis1_apply 1 v15 _ p (0 : Fin 1) (1 : Fin 2) rfl

/-- Corner `k` of the row boxes projected on their second axis, as a [512,1] column. -/
private theorem selfProj_apply (v9 v11 : FVec Ideal S512x4 .f32) (v13 v15 : FVec Ideal S512x2 .f32) (k : Nat) (hk : k < 4)
    (h9 : S512x4.Slices ![0, k] S512x1) (h13 : S512x2.Slices ![0, 1] S512x1) (p : Fin 512) :
    addf (mulf (extractStridedSlice S512x1 ![0, k] v9 h9) (extractStridedSlice S512x1 ![0, 1] v13 h13))
        (mulf (extractStridedSlice S512x1 ![0, k] v11 h9) (extractStridedSlice S512x1 ![0, 1] v15 h13)) (ix2 p (0 : Fin 1))
      = v9 (ix2 p ⟨k, hk⟩) * v13 (ix2 p 1) + v11 (ix2 p ⟨k, hk⟩) * v15 (ix2 p 1) := by
  have e1 := slice2_axis1_apply k v9 h9 p (0 : Fin 1) (⟨k, hk⟩ : Fin 4) rfl
  have e2 := slice2_axis1_apply 1 v13 h13 p (0 : Fin 1) (1 : Fin 2) rfl
  have e3 := slice2_axis1_apply k v11 h9 p (0 : Fin 1) (⟨k, hk⟩ : Fin 4) rfl
  have e4 := slice2_axis1_apply 1 v15 h13 p (0 : Fin 1) (1 : Fin 2) rfl
  show extractStridedSlice S512x1 ![0, k] v9 h9 (ix2 p (0 : Fin 1)) * extractStridedSlice S512x1 ![0, 1] v13 h13 (ix2 p (0 : Fin 1))
      + extractStridedSlice S512x1 ![0, k] v11 h9 (ix2 p (0 : Fin 1)) * extractStridedSlice S512x1 ![0, 1] v15 h13 (ix2 p (0 : Fin 1)) = _
  rw [e1, e2, e3, e4]

theorem pay45_apply (v9 v11 : FVec Ideal S512x4 .f32) (v13 v15 : FVec Ideal S512x2 .f32) (p : Fin 512) :
    k0_pay45 (F := Ideal) v9 v11 v13 v15 (ix2 p (0 : Fin 1)) = v9 (ix2 p 0) * v13 (ix2 p 1) + v11 (ix2 p 0) * v15 (ix2 p 1) := by
  unfold k0_pay45
  exact selfProj_apply v9 v11 v13 v15 0 (by omega) _ _ p

theorem pay46_apply (v9 v11 : FVec Ideal S512x4 .f32) (v13 v15 : FVec Ideal S512x2 .f32) (p : Fin 512) :
    k0_pay46 (F := Ideal) v9 v11 v13 v15 (ix2 p (0 : Fin 1)) = v9 (ix2 p 1) * v13 (ix2 p 1) + v11 (ix2 p 1) * v15 (ix2 p 1) := by
  unfold k0_pay46
  exact selfProj_apply v9 v11 v13 v15 1 (by omega) _ _ p

theorem pay47_apply (v9 v11 : FVec Ideal S512x4 .f32) (v13 v15 : FVec Ideal S512x2 .f32) (p : Fin 512) :
    k0_pay47 (F := Ideal) v9 v11 v13 v15 (ix2 p (0 : Fin 1)) = v9 (ix2 p 2) * v13 (ix2 p 1) + v11 (ix2 p 2) * v15 (ix2 p 1) := by
  unfold k0_pay47
  exact selfProj_apply v9 v11 v13 v15 2 (by omega) _ _ p

theorem pay48_apply (v9 v11 : FVec Ideal S512x4 .f32) (v13 v15 : FVec Ideal S512x2 .f32) (p : Fin 512) :
    k0_pay48 (F := Ideal) v9 v11 v13 v15 (ix2 p (0 : Fin 1)) = v9 (ix2 p 3) * v13 (ix2 p 1) + v11 (ix2 p 3) * v15 (ix2 p 1) := by
  unfold k0_pay48
  exact selfProj_apply v9 v11 v13 v15 3 (by omega) _ _ p

/-- The least of the row box's own corners projected on its second axis. -/
theorem smin_apply (x0 : FVec Ideal S512x4x2 .f32) (x2 : FVec Ideal S512x2x2 .f32) (p : Fin 512) :
    k0_pay49 (F := Ideal) (k0_pay6 x0) (k0_pay7 x0) (k0_pay8 x2) (k0_pay9 x2) (ix2 p (0 : Fin 1))
      = MG.lo4 fun k => MG.dot2 (ciOf x0 p k) (aiOf x2 p 1) := by
  unfold k0_pay49
  show min (min (min (k0_pay45 (F := Ideal) _ _ _ _ (ix2 p (0 : Fin 1))) (k0_pay46 (F := Ideal) _ _ _ _ (ix2 p (0 : Fin 1))))
      (k0_pay47 (F := Ideal) _ _ _ _ (ix2 p (0 : Fin 1)))) (k0_pay48 (F := Ideal) _ _ _ _ (ix2 p (0 : Fin 1))) = _
  rw [pay45_apply, pay46_apply, pay47_apply, pay48_apply]
  simp only [pay6_apply, pay7_apply, pay8_apply, pay9_apply]
  rfl

/-- The greatest of the row box's own corners projected on its second axis. -/
theorem smax_apply (x0 : FVec Ideal S512x4x2 .f32) (x2 : FVec Ideal S512x2x2 .f32) (p : Fin 512) :
    k0_pay50 (F := Ideal) (k0_pay6 x0) (k0_pay7 x0) (k0_pay8 x2) (k0_pay9 x2) (ix2 p (0 : Fin 1))
      = MG.hi4 fun k => MG.dot2 (ciOf x0 p k) (aiOf x2 p 1) := by
  unfold k0_pay50
  show max (max (max (k0_pay45 (F := Ideal) _ _ _ _ (ix2 p (0 : Fin 1))) (k0_pay46 (F := Ideal) _ _ _ _ (ix2 p (0 : Fin 1))))
      (k0_pay47 (F := Ideal) _ _ _ _ (ix2 p (0 : Fin 1)))) (k0_pay48 (F := Ideal) _ _ _ _ (ix2 p (0 : Fin 1))) = _
  rw [pay45_apply, pay46_apply, pay47_apply, pay48_apply]
  simp only [pay6_apply, pay7_apply, pay8_apply, pay9_apply]
  rfl

/-! ## The column boxes' corners projected on the row boxes' second axis -/

/-- Corner `k` of the column boxes projected on the row boxes' second axis (the axis the first factor), as a [512,512] array. -/
private theorem crossProj_apply (v17 v19 : FVec Ideal S4x512 .f32) (v225 v226 : FVec Ideal S512x1 .f32) (k : Nat) (hk : k < 4)
    (h17 : S4x512.Slices ![k, 0] S1x512) (hb : S512x1.Broadcasts S512x512) (hr : S1x512.Broadcasts S512x512) (p q : Fin 512) :
    addf (mulf (broadcastTo S512x512 v225 hb) (broadcastTo S512x512 (extractStridedSlice S1x512 ![k, 0] v17 h17) hr))
        (mulf (broadcastTo S512x512 v226 hb) (broadcastTo S512x512 (extractStridedSlice S1x512 ![k, 0] v19 h17) hr)) (ix2 p q)
      = v225 (ix2 p (0 : Fin 1)) * v17 (ix2 ⟨k, hk⟩ q) + v226 (ix2 p (0 : Fin 1)) * v19 (ix2 ⟨k, hk⟩ q) := by
  have e1 := colBcast_apply v225 hb p q
  have e2 := (broadcastTo_1b_ab_apply (extractStridedSlice S1x512 ![k, 0] v17 h17) hr p q).trans
    (slice2_axis0_apply k v17 h17 (0 : Fin 1) q (⟨k, hk⟩ : Fin 4) rfl)
  have e3 := colBcast_apply v226 hb p q
  have e4 := (broadcastTo_1b_ab_apply (extractStridedSlice S1x512 ![k, 0] v19 h17) hr p q).trans
    (slice2_axis0_apply k v19 h17 (0 : Fin 1) q (⟨k, hk⟩ : Fin 4) rfl)
  show broadcastTo S512x512 v225 hb (ix2 p q) * broadcastTo S512x512 (extractStridedSlice S1x512 ![k, 0] v17 h17) hr (ix2 p q)
      + broadcastTo S512x512 v226 hb (ix2 p q) * broadcastTo S512x512 (extractStridedSlice S1x512 ![k, 0] v19 h17) hr (ix2 p q) = _
  rw [e1, e2, e3, e4]

theorem pay68_apply (v17 v19 : FVec Ideal S4x512 .f32) (v225 v226 : FVec Ideal S512x1 .f32) (p q : Fin 512) :
    k0_pay68 (F := Ideal) v17 v19 v225 v226 (ix2 p q)
      = v225 (ix2 p (0 : Fin 1)) * v17 (ix2 0 q) + v226 (ix2 p (0 : Fin 1)) * v19 (ix2 0 q) := by
  unfold k0_pay68
  exact crossProj_apply v17 v19 v225 v226 0 (by omega) _ _ _ p q

theorem pay69_apply (v17 v19 : FVec Ideal S4x512 .f32) (v225 v226 : FVec Ideal S512x1 .f32) (p q : Fin 512) :
    k0_pay69 (F := Ideal) v17 v19 v225 v226 (ix2 p q)
      = v225 (ix2 p (0 : Fin 1)) * v17 (ix2 1 q) + v226 (ix2 p (0 : Fin 1)) * v19 (ix2 1 q) := by
  unfold k0_pay69
  exact crossProj_apply v17 v19 v225 v226 1 (by omega) _ _ _ p q

theorem pay70_apply (v17 v19 : FVec Ideal S4x512 .f32) (v225 v226 : FVec Ideal S512x1 .f32) (p q : Fin 512) :
    k0_pay70 (F := Ideal) v17 v19 v225 v226 (ix2 p q)
      = v225 (ix2 p (0 : Fin 1)) * v17 (ix2 2 q) + v226 (ix2 p (0 : Fin 1)) * v19 (ix2 2 q) := by
  unfold k0_pay70
  exact crossProj_apply v17 v19 v225 v226 2 (by omega) _ _ _ p q

theorem pay71_apply (v17 v19 : FVec Ideal S4x512 .f32) (v225 v226 : FVec Ideal S512x1 .f32) (p q : Fin 512) :
    k0_pay71 (F := Ideal) v17 v19 v225 v226 (ix2 p q)
      = v225 (ix2 p (0 : Fin 1)) * v17 (ix2 3 q) + v226 (ix2 p (0 : Fin 1)) * v19 (ix2 3 q) := by
  unfold k0_pay71
  exact crossProj_apply v17 v19 v225 v226 3 (by omega) _ _ _ p q

/-- The least of the column box's corners projected on the row box's second axis. -/
theorem cminT_apply (x1 : FVec Ideal S4x2x512 .f32) (x2 : FVec Ideal S512x2x2 .f32) (p q : Fin 512) :
    k0_pay72 (F := Ideal) (k0_pay10 x1) (k0_pay11 x1) (k0_pay43 (k0_pay8 x2)) (k0_pay44 (k0_pay9 x2)) (ix2 p q)
      = MG.lo4 fun k => MG.dot2 (aiOf x2 p 1) (cjOf x1 q k) := by
  unfold k0_pay72
  show min (min (min (k0_pay68 (F := Ideal) _ _ _ _ (ix2 p q)) (k0_pay69 (F := Ideal) _ _ _ _ (ix2 p q)))
      (k0_pay70 (F := Ideal) _ _ _ _ (ix2 p q))) (k0_pay71 (F := Ideal) _ _ _ _ (ix2 p q)) = _
  rw [pay68_apply, pay69_apply, pay70_apply, pay71_apply]
  simp only [pay43_apply, pay44_apply, pay8_apply, pay9_apply, pay10_apply, pay11_apply]
  rfl

/-- The greatest of the column box's corners projected on the row box's second axis. -/
theorem cmaxT_apply (x1 : FVec Ideal S4x2x512 .f32) (x2 : FVec Ideal S512x2x2 .f32) (p q : Fin 512) :
    k0_pay73 (F := Ideal) (k0_pay10 x1) (k0_pay11 x1) (k0_pay43 (k0_pay8 x2)) (k0_pay44 (k0_pay9 x2)) (ix2 p q)
      = MG.hi4 fun k => MG.dot2 (aiOf x2 p 1) (cjOf x1 q k) := by
  unfold k0_pay73
  show max (max (max (k0_pay68 (F := Ideal) _ _ _ _ (ix2 p q)) (k0_pay69 (F := Ideal) _ _ _ _ (ix2 p q)))
      (k0_pay70 (F := Ideal) _ _ _ _ (ix2 p q))) (k0_pay71 (F := Ideal) _ _ _ _ (ix2 p q)) = _
  rw [pay68_apply, pay69_apply, pay70_apply, pay71_apply]
  simp only [pay43_apply, pay44_apply, pay8_apply, pay9_apply, pay10_apply, pay11_apply]
  rfl

/-- The lesser of the two greatest projections. -/
theorem pay74_apply (v17 v19 : FVec Ideal S4x512 .f32) (v225 v226 v260 : FVec Ideal S512x1 .f32) (p q : Fin 512) :
    k0_pay74 (F := Ideal) v17 v19 v225 v226 v260 (ix2 p q)
      = min (v260 (ix2 p (0 : Fin 1))) (k0_pay73 (F := Ideal) v17 v19 v225 v226 (ix2 p q)) := by
  unfold k0_pay74
  show min (broadcastTo S512x512 v260 _ (ix2 p q)) _ = _
  rw [colBcast_apply]

/-! ## The generalized IoU on the row box's second axis, the clamp and the diagonal -/

/-- The one-dimensional generalized IoU as the body spells it, the lesser of the two upper ends given as `m12`. -/
private def giouPt (mn1 mx1 mn2 mx2 m12 : EReal) : EReal :=
  Ideal.div (max (m12 - max mn1 mn2) 0) ((mx1 - mn1) + (mx2 - mn2) - max (m12 - max mn1 mn2) 0)
    - Ideal.div ((max mx1 mx2 - min mn1 mn2) - ((mx1 - mn1) + (mx2 - mn2) - max (m12 - max mn1 mn2) 0)) (max mx1 mx2 - min mn1 mn2)

private theorem giouK_eq_giouPt (mn1 mx1 mn2 mx2 : EReal) : MG.giouK mn1 mx1 mn2 mx2 = giouPt mn1 mx1 mn2 mx2 (min mx1 mx2) := rfl

/-- The zero word is the extended real zero. -/
private theorem zero_word : (Scalar.ofBits .f32 0x00000000#32 : Ideal .f32) = (0 : EReal) := Ideal.ofBits_zero_f32

/-- The global row number `a0 * 512 + r` against the global column number `a1 * 512 + c`, as 32-bit words, selects between two arrays. -/
private theorem diagSelect_apply {α : Type} (a0 a1 : BitVec 32) (z w : S512x512.Idx → α) (h0 : S512x512.Iotas .tc 32 [0])
    (h1 : S512x512.Iotas .tc 32 [1]) (r c : Fin 512) :
    select (cmpi .eq (addi (broadcast S512x512 (Scalar.muli a0 512#32)) (iota .tc S512x512 32 [0] h0))
        (addi (broadcast S512x512 (Scalar.muli a1 512#32)) (iota .tc S512x512 32 [1] h1))) z w (ix2 r c)
      = if a0 * 512#32 + BitVec.ofNat 32 r.val = a1 * 512#32 + BitVec.ofNat 32 c.val then z (ix2 r c) else w (ix2 r c) := by
  show Scalar.select (IntOp.cmpi .eq (IntOp.addi (Scalar.muli a0 512#32) (iota .tc S512x512 32 [0] h0 (ix2 r c)))
      (IntOp.addi (Scalar.muli a1 512#32) (iota .tc S512x512 32 [1] h1 (ix2 r c)))) (z (ix2 r c)) (w (ix2 r c)) = _
  rw [iota_single_apply, iota_single_apply]
  show (if BitVec.ofBool (a0 * 512#32 + BitVec.ofNat 32 r.val == a1 * 512#32 + BitVec.ofNat 32 c.val) = 1#1 then z (ix2 r c) else w (ix2 r c)) = _
  by_cases h : a0 * 512#32 + BitVec.ofNat 32 r.val = a1 * 512#32 + BitVec.ofNat 32 c.val
  · have hb : (a0 * 512#32 + BitVec.ofNat 32 r.val == a1 * 512#32 + BitVec.ofNat 32 c.val) = true := beq_iff_eq.mpr h
    rw [if_pos h, hb, if_pos (show BitVec.ofBool true = 1#1 from rfl)]
  · have hb : (a0 * 512#32 + BitVec.ofNat 32 r.val == a1 * 512#32 + BitVec.ofNat 32 c.val) = false := beq_eq_false_iff_ne.mpr h
    rw [if_neg h, hb, if_neg (show ¬ BitVec.ofBool false = 1#1 by decide)]

/-- Below 8 blocks of 512 the 32-bit global numbers do not wrap: they are equal exactly when the naturals are. -/
private theorem word_eq_iff (m n : Nat) (hm : m < 8) (hn : n < 8) (r c : Fin 512) :
    BitVec.ofNat 32 m * 512#32 + BitVec.ofNat 32 r.val = BitVec.ofNat 32 n * 512#32 + BitVec.ofNat 32 c.val
      ↔ m * 512 + r.val = n * 512 + c.val := by
  have hr := r.isLt
  have hc := c.isLt
  constructor
  · intro h
    have h' := congrArg BitVec.toNat h
    simp only [BitVec.toNat_add, BitVec.toNat_mul, BitVec.toNat_ofNat, Nat.reducePow, Nat.reduceMod] at h'
    omega
  · intro h
    apply BitVec.eq_of_toNat_eq
    simp only [BitVec.toNat_add, BitVec.toNat_mul, BitVec.toNat_ofNat, Nat.reducePow, Nat.reduceMod]
    omega

/-- The stored tile over its parts, at an entry. -/
theorem pay1_apply (a0 a1 : BitVec 32) (v259 v260 : FVec Ideal S512x1 .f32) (v358 v399 v400 v402 : FVec Ideal S512x512 .f32) (r c : Fin 512) :
    k0_pay1 (F := Ideal) a0 a1 v259 v260 v358 v399 v400 v402 (ix2 r c)
      = if a0 * 512#32 + BitVec.ofNat 32 r.val = a1 * 512#32 + BitVec.ofNat 32 c.val then 0
        else max (min (v358 (ix2 r c)) (giouPt (v259 (ix2 r (0 : Fin 1))) (v260 (ix2 r (0 : Fin 1))) (v399 (ix2 r c)) (v400 (ix2 r c)) (v402 (ix2 r c)))) 0 := by
  unfold k0_pay1
  refine (diagSelect_apply a0 a1 _ _ _ _ r c).trans ?_
  by_cases h : a0 * 512#32 + BitVec.ofNat 32 r.val = a1 * 512#32 + BitVec.ofNat 32 c.val
  · rw [if_pos h, if_pos h]
    exact zero_word
  · rw [if_neg h, if_neg h]
    simp only [maximumf_apply, minimumf_apply, subf_apply, addf_apply, divf_apply, broadcast_apply, colBcast_apply, zero_word]
    rfl

theorem tile_apply (i : grid0.Coords) (x0 : FVec Ideal S512x4x2 .f32) (x1 : FVec Ideal S4x2x512 .f32) (x2 : FVec Ideal S512x2x2 .f32) (x3 : FVec Ideal S2x2x512 .f32) (r c : Fin 512) :
    tile (F := Ideal) i x0 x1 x2 x3 (ix2 r c)
      = if (i 0).val * 512 + r.val = (i 1).val * 512 + c.val then 0
        else max (min (part1 (F := Ideal) x0 x1 x2 x3 (ix2 r c)) (MG.gAK (ciOf x0 r) (aiOf x2 r) (cjOf x1 c) 1)) 0 := by
  have h0 : (i 0).val < 8 := (i 0).isLt
  have h1 : (i 1).val < 8 := (i 1).isLt
  unfold tile
  refine (pay1_apply _ _ _ _ _ _ _ _ r c).trans ?_
  rw [pay74_apply, smin_apply, smax_apply, cminT_apply, cmaxT_apply]
  refine if_congr (word_eq_iff _ _ h0 h1 r c) rfl ?_
  unfold MG.gAK
  rw [giouK_eq_giouPt]

end Cert.KernelIdeal.Tile

end
-- ==== Proof.KTileValue.lean ====
/-
  A tile entry is the pairwise measure of its row box and its column box: the three parts put together.
-/
import proofs.«172119_j59760174957246_1_alg».proof.Proof.KPart0
import proofs.«172119_j59760174957246_1_alg».proof.Proof.KPart1
import proofs.«172119_j59760174957246_1_alg».proof.Proof.KTileApply

noncomputable section

namespace Cert.KernelIdeal.Tile

open Cert.KernelIdeal Cert.KernelIdeal.Gen Idealize.ShloMosaic Idealize.ShloMosaic.ValueIdx

theorem tile_value (i : grid0.Coords) (x0 : FVec Ideal S512x4x2 .f32) (x1 : FVec Ideal S4x2x512 .f32) (x2 : FVec Ideal S512x2x2 .f32) (x3 : FVec Ideal S2x2x512 .f32) (r c : Fin 512) :
    tile (F := Ideal) i x0 x1 x2 x3 (ix2 r c)
      = if (i 0).val * 512 + r.val = (i 1).val * 512 + c.val then 0
        else max (MG.gminK (ciOf x0 r) (aiOf x2 r) (cjOf x1 c) (ajOf x3 c)) 0 := by
  rw [tile_apply, part1_apply, part0_apply]; rfl

end Cert.KernelIdeal.Tile

end
-- ==== Proof.KHost.lean ====
/-
  The kernel program's result array. The host operations before the call leave the corner array, the axis array and their
  transposes; every grid point writes the tile of its row block and column block; the tiles cover the result.
-/
import proofs.«172119_j59760174957246_1_alg».proof.Proof.KernelIdealValueP
import proofs.«172119_j59760174957246_1_alg».proof.Proof.KStages
import proofs.«172119_j59760174957246_1_alg».proof.Proof.KTileValue
import Idealize.ShloMosaic.Lib.StableHlo.Run

noncomputable section

namespace Cert.KernelIdeal.Hand

open Cert.KernelIdeal Cert.KernelIdeal.Gen Cert.KernelIdeal.GenP Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- The argument array on core c. -/
abbrev xin (c : Dev nD) : FVec Ideal S4096x5 .f32 := m ((c : Thread nD τ).loc main_arg0)

/-- A concatenation of two pieces depends only on the pieces. -/
private theorem concat2_congr {α : Type} {t s1 s2 : Shape} {a : Fin t.rank} {x1 x1' : s1.Idx → α} {x2 x2' : s2.Idx → α}
    {h : Shape.Concatenates [s1, s2] t a} (e1 : x1 = x1') (e2 : x2 = x2') :
    concatenate t a [⟨s1, x1⟩, ⟨s2, x2⟩] h = concatenate t a [⟨s1, x1'⟩, ⟨s2, x2'⟩] h := by subst e1 e2; rfl

attribute [local congr] concat2_congr

/-- What the region finds in the four arrays it stages. -/
theorem V_v26 (c : Dev nD) : (V m c main_v26 : S4096x4x2.Idx → EReal) = Stages.t_main_v26 (xin m c) := by
  dsimp only [V, hostOps0]
  after_results_simp
  rfl
theorem V_v39 (c : Dev nD) : (V m c main_v39 : S4096x2x2.Idx → EReal) = Stages.t_main_v39 (xin m c) := by
  dsimp only [V, hostOps0]
  after_results_simp
  rfl
theorem V_v40 (c : Dev nD) : (V m c main_v40 : S4x2x4096.Idx → EReal) = Stages.t_main_v40 (xin m c) := by
  dsimp only [V, hostOps0]
  after_results_simp
  rfl
theorem V_v41 (c : Dev nD) : (V m c main_v41 : S2x2x4096.Idx → EReal) = Stages.t_main_v41 (xin m c) := by
  dsimp only [V, hostOps0]
  after_results_simp
  rfl

/-- The zero offsets of a whole-block access, of rank two and three. -/
private theorem zeros2 : (![0, 0] : Fin 2 → Nat) = fun _ => 0 := funext fun a => by fin_cases a <;> rfl
private theorem zeros3 : (![0, 0, 0] : Fin 3 → Nat) = fun _ => 0 := funext fun a => by fin_cases a <;> rfl

/-- The body's stored value is the tile. -/
theorem out_eq_tile (i : grid0.Coords) (x0 : Vec Ideal S512x4x2 .f32) (x1 : Vec Ideal S4x2x512 .f32) (x2 : Vec Ideal S512x2x2 .f32) (x3 : Vec Ideal S2x2x512 .f32) :
    out0_4 (F := Ideal) i x0 x1 x2 x3 = Tile.tile i x0 x1 x2 x3 := by
  unfold out0_4 Tile.tile Tile.part1 Tile.part0
  rw [View.canon_unit_zero zeros2]
  simp only [View.ld_unit_zero (S := S512x4x2) zeros3, View.ld_unit_zero (S := S4x2x512) zeros3, View.ld_unit_zero (S := S512x2x2) zeros3, View.ld_unit_zero (S := S2x2x512) zeros3]

/-- The result array as one function of the argument array. -/
def KOut (x : FVec Ideal S4096x5 .f32) : S4096x4096.Idx → EReal :=
  fun idx => MG.outK (Stages.t_main_v26 x) (Stages.t_main_v39 x) (idx 0) (idx 1)

/-- The tile of grid point (i0, i1) holds rows i0 * 512 … and columns i1 * 512 … of the result: an entry's global row and column. -/
private def grow (i : grid0.Coords) (r : Fin 512) : Fin 4096 :=
  ⟨(i 0).val * 512 + r.val, by have h : (i 0).val < 8 := (i 0).isLt; have := r.isLt; omega⟩
private def gcol (i : grid0.Coords) (q : Fin 512) : Fin 4096 :=
  ⟨(i 1).val * 512 + q.val, by have h : (i 1).val < 8 := (i 1).isLt; have := q.isLt; omega⟩

/-- A tile entry is the result at its global row and column, once the four blocks are the corresponding rows of the corner
    and axis arrays. -/
private theorem tile_at (x : FVec Ideal S4096x5 .f32) (i : grid0.Coords)
    (x0 : Vec Ideal S512x4x2 .f32) (x1 : Vec Ideal S4x2x512 .f32) (x2 : Vec Ideal S512x2x2 .f32) (x3 : Vec Ideal S2x2x512 .f32)
    (h0 : ∀ (r : Fin 512) (k : Fin 4) (d : Fin 2), x0 (ix3 r k d) = Stages.t_main_v26 x (ix3 (grow i r) k d))
    (h1 : ∀ (k : Fin 4) (d : Fin 2) (q : Fin 512), x1 (ix3 k d q) = Stages.t_main_v26 x (ix3 (gcol i q) k d))
    (h2 : ∀ (r : Fin 512) (e : Fin 2) (d : Fin 2), x2 (ix3 r e d) = Stages.t_main_v39 x (ix3 (grow i r) e d))
    (h3 : ∀ (e : Fin 2) (d : Fin 2) (q : Fin 512), x3 (ix3 e d q) = Stages.t_main_v39 x (ix3 (gcol i q) e d))
    (r q : Fin 512) :
    Tile.tile (F := Ideal) i x0 x1 x2 x3 (ix2 r q) = KOut x (ix2 (grow i r) (gcol i q)) := by
  rw [Tile.tile_value]
  have e0 : Tile.ciOf x0 r = MG.rowsC (Stages.t_main_v26 x) (grow i r) := funext fun k => funext fun d => h0 r k d
  have e1 : Tile.cjOf x1 q = MG.rowsC (Stages.t_main_v26 x) (gcol i q) := funext fun k => funext fun d => h1 k d q
  have e2 : Tile.aiOf x2 r = MG.rowsA (Stages.t_main_v39 x) (grow i r) := funext fun e => funext fun d => h2 r e d
  have e3 : Tile.ajOf x3 q = MG.rowsA (Stages.t_main_v39 x) (gcol i q) := funext fun e => funext fun d => h3 e d q
  rw [e0, e1, e2, e3]
  show _ = MG.outK (Stages.t_main_v26 x) (Stages.t_main_v39 x) (grow i r) (gcol i q)
  unfold MG.outK
  exact if_congr (Fin.ext_iff (a := grow i r) (b := gcol i q)).symm rfl rfl

/-- The same at any block index and any array index with the matching coordinates. -/
private theorem tile_at' (x : FVec Ideal S4096x5 .f32) (i : grid0.Coords)
    (x0 : Vec Ideal S512x4x2 .f32) (x1 : Vec Ideal S4x2x512 .f32) (x2 : Vec Ideal S512x2x2 .f32) (x3 : Vec Ideal S2x2x512 .f32)
    (h0 : ∀ (r : Fin 512) (k : Fin 4) (d : Fin 2), x0 (ix3 r k d) = Stages.t_main_v26 x (ix3 (grow i r) k d))
    (h1 : ∀ (k : Fin 4) (d : Fin 2) (q : Fin 512), x1 (ix3 k d q) = Stages.t_main_v26 x (ix3 (gcol i q) k d))
    (h2 : ∀ (r : Fin 512) (e : Fin 2) (d : Fin 2), x2 (ix3 r e d) = Stages.t_main_v39 x (ix3 (grow i r) e d))
    (h3 : ∀ (e : Fin 2) (d : Fin 2) (q : Fin 512), x3 (ix3 e d q) = Stages.t_main_v39 x (ix3 (gcol i q) e d))
    (j : S512x512.Idx) (k : S4096x4096.Idx)
    (hk0 : (k 0).val = (i 0).val * 512 + (j 0).val) (hk1 : (k 1).val = (i 1).val * 512 + (j 1).val) :
    Tile.tile (F := Ideal) i x0 x1 x2 x3 j = KOut x k := by
  obtain ⟨r, q, rfl⟩ : ∃ (r q : Fin 512), j = ix2 r q := ⟨j 0, j 1, eq_ix2 j⟩
  obtain ⟨a, b, rfl⟩ : ∃ (a b : Fin 4096), k = ix2 a b := ⟨k 0, k 1, eq_ix2 k⟩
  have ha : a = grow i r := Fin.ext hk0
  have hb : b = gcol i q := Fin.ext hk1
  subst ha hb
  exact tile_at x i x0 x1 x2 x3 h0 h1 h2 h3 r q

/-- The windows' block indices at a grid point, decided over the 64 points: the row windows follow the first grid
    coordinate on the box axis, the column windows the second, the result window both. -/
private theorem idx_facts : ∀ t : Fin cfg0.N,
    win0_0.index t (0 : Fin 3) = (grid0.coords t 0).val ∧ win0_0.index t (1 : Fin 3) = 0 ∧ win0_0.index t (2 : Fin 3) = 0
    ∧ win0_1.index t (0 : Fin 3) = 0 ∧ win0_1.index t (1 : Fin 3) = 0 ∧ win0_1.index t (2 : Fin 3) = (grid0.coords t 1).val
    ∧ win0_2.index t (0 : Fin 3) = (grid0.coords t 0).val ∧ win0_2.index t (1 : Fin 3) = 0 ∧ win0_2.index t (2 : Fin 3) = 0
    ∧ win0_3.index t (0 : Fin 3) = 0 ∧ win0_3.index t (1 : Fin 3) = 0 ∧ win0_3.index t (2 : Fin 3) = (grid0.coords t 1).val
    ∧ win0_4.index t (0 : Fin 2) = (grid0.coords t 0).val ∧ win0_4.index t (1 : Fin 2) = (grid0.coords t 1).val :=
  (by decide +kernel : ∀ t : Fin grid0.N, _)

/-- Every block of the result is some grid point's. -/
private theorem idx_onto : ∀ (q0 q1 : Fin 8), ∃ t : Fin cfg0.N, win0_4.index t (0 : Fin 2) = q0.val ∧ win0_4.index t (1 : Fin 2) = q1.val :=
  (by decide +kernel : ∀ (q0 q1 : Fin 8), ∃ t : Fin grid0.N, win0_4.index t (0 : Fin 2) = q0.val ∧ win0_4.index t (1 : Fin 2) = q1.val)

/-- The row boxes' corner block: rows i0 * 512 … of the corner array. -/
private theorem blk0 (c : Dev nD) (t : Fin cfg0.N) (r : Fin 512) (k : Fin 4) (d : Fin 2) :
    (iblk m c 0 t : Vec Ideal S512x4x2 .f32) (ix3 r k d) = Stages.t_main_v26 (xin m c) (ix3 (grow (grid0.coords t) r) k d) := by
  rw [← V_v26 m c]
  obtain ⟨e0, e1, e2, -⟩ := idx_facts t
  show (V m c main_v26 : S4096x4x2.Idx → EReal) (((cfg0.win 0).blk t).view.emb (ix3 r k d)) = _
  refine congrArg (V m c main_v26 : S4096x4x2.Idx → EReal) (funext fun a => Fin.ext ?_)
  match a with
  | ⟨0, _⟩ => show win0_0.index t (0 : Fin 3) * 512 + 1 * r.val = (grid0.coords t 0).val * 512 + r.val; rw [e0]; omega
  | ⟨1, _⟩ => show win0_0.index t (1 : Fin 3) * 4 + 1 * k.val = k.val; rw [e1]; omega
  | ⟨2, _⟩ => show win0_0.index t (2 : Fin 3) * 2 + 1 * d.val = d.val; rw [e2]; omega

/-- The row boxes' axis block: rows i0 * 512 … of the axis array. -/
private theorem blk2 (c : Dev nD) (t : Fin cfg0.N) (r : Fin 512) (e : Fin 2) (d : Fin 2) :
    (iblk m c 2 t : Vec Ideal S512x2x2 .f32) (ix3 r e d) = Stages.t_main_v39 (xin m c) (ix3 (grow (grid0.coords t) r) e d) := by
  rw [← V_v39 m c]
  obtain ⟨-, -, -, -, -, -, e0, e1, e2, -⟩ := idx_facts t
  show (V m c main_v39 : S4096x2x2.Idx → EReal) (((cfg0.win 2).blk t).view.emb (ix3 r e d)) = _
  refine congrArg (V m c main_v39 : S4096x2x2.Idx → EReal) (funext fun a => Fin.ext ?_)
  match a with
  | ⟨0, _⟩ => show win0_2.index t (0 : Fin 3) * 512 + 1 * r.val = (grid0.coords t 0).val * 512 + r.val; rw [e0]; omega
  | ⟨1, _⟩ => show win0_2.index t (1 : Fin 3) * 2 + 1 * e.val = e.val; rw [e1]; omega
  | ⟨2, _⟩ => show win0_2.index t (2 : Fin 3) * 2 + 1 * d.val = d.val; rw [e2]; omega

/-- The transposed corner array read at (k, d, j) is the corner array at (j, k, d). -/
private theorem v40_apply (x : FVec Ideal S4096x5 .f32) (k : Fin 4) (d : Fin 2) (j : Fin 4096) :
    Stages.t_main_v40 x (ix3 k d j) = Stages.t_main_v26 x (ix3 j k d) := by
  unfold Stages.t_main_v40
  exact transpose_apply _ _ _ (ix3 k d j) (ix3 j k d) fun b => match b with | ⟨0, _⟩ => rfl | ⟨1, _⟩ => rfl | ⟨2, _⟩ => rfl

/-- The transposed axis array read at (e, d, j) is the axis array at (j, e, d). -/
private theorem v41_apply (x : FVec Ideal S4096x5 .f32) (e : Fin 2) (d : Fin 2) (j : Fin 4096) :
    Stages.t_main_v41 x (ix3 e d j) = Stages.t_main_v39 x (ix3 j e d) := by
  unfold Stages.t_main_v41
  exact transpose_apply _ _ _ (ix3 e d j) (ix3 j e d) fun b => match b with | ⟨0, _⟩ => rfl | ⟨1, _⟩ => rfl | ⟨2, _⟩ => rfl

/-- The column boxes' corner block: columns i1 * 512 … of the transposed corner array. -/
private theorem blk1 (c : Dev nD) (t : Fin cfg0.N) (k : Fin 4) (d : Fin 2) (q : Fin 512) :
    (iblk m c 1 t : Vec Ideal S4x2x512 .f32) (ix3 k d q) = Stages.t_main_v26 (xin m c) (ix3 (gcol (grid0.coords t) q) k d) := by
  rw [← v40_apply, ← V_v40 m c]
  obtain ⟨-, -, -, e0, e1, e2, -⟩ := idx_facts t
  show (V m c main_v40 : S4x2x4096.Idx → EReal) (((cfg0.win 1).blk t).view.emb (ix3 k d q)) = _
  refine congrArg (V m c main_v40 : S4x2x4096.Idx → EReal) (funext fun a => Fin.ext ?_)
  match a with
  | ⟨0, _⟩ => show win0_1.index t (0 : Fin 3) * 4 + 1 * k.val = k.val; rw [e0]; omega
  | ⟨1, _⟩ => show win0_1.index t (1 : Fin 3) * 2 + 1 * d.val = d.val; rw [e1]; omega
  | ⟨2, _⟩ => show win0_1.index t (2 : Fin 3) * 512 + 1 * q.val = (grid0.coords t 1).val * 512 + q.val; rw [e2]; omega

/-- The column boxes' axis block: columns i1 * 512 … of the transposed axis array. -/
private theorem blk3 (c : Dev nD) (t : Fin cfg0.N) (e : Fin 2) (d : Fin 2) (q : Fin 512) :
    (iblk m c 3 t : Vec Ideal S2x2x512 .f32) (ix3 e d q) = Stages.t_main_v39 (xin m c) (ix3 (gcol (grid0.coords t) q) e d) := by
  rw [← v41_apply, ← V_v41 m c]
  obtain ⟨-, -, -, -, -, -, -, -, -, e0, e1, e2, -⟩ := idx_facts t
  show (V m c main_v41 : S2x2x4096.Idx → EReal) (((cfg0.win 3).blk t).view.emb (ix3 e d q)) = _
  refine congrArg (V m c main_v41 : S2x2x4096.Idx → EReal) (funext fun a => Fin.ext ?_)
  match a with
  | ⟨0, _⟩ => show win0_3.index t (0 : Fin 3) * 2 + 1 * e.val = e.val; rw [e0]; omega
  | ⟨1, _⟩ => show win0_3.index t (1 : Fin 3) * 2 + 1 * d.val = d.val; rw [e1]; omega
  | ⟨2, _⟩ => show win0_3.index t (2 : Fin 3) * 512 + 1 * q.val = (grid0.coords t 1).val * 512 + q.val; rw [e2]; omega

/-- What grid point t writes back is its block of the result. -/
private theorem flushed_eq (c : Dev nD) (t : Fin cfg0.N) :
    (dats m 0 c).flushed 4 t = ((cfg0.win 4).blk t).view.read (Elt Ideal) (KOut (xin m c)) := by
  rw [ValueP.flushed4, out_eq_tile]
  obtain ⟨-, -, -, -, -, -, -, -, -, -, -, -, e0, e1⟩ := idx_facts t
  funext y
  show Tile.tile (F := Ideal) (grid0.coords t) (iblk m c 0 t) (iblk m c 1 t) (iblk m c 2 t) (iblk m c 3 t) ((cfg0.win 4).xinj (grid0.coords t) y)
    = KOut (xin m c) (((cfg0.win 4).blk t).view.emb y)
  refine tile_at' (xin m c) (grid0.coords t) _ _ _ _ (blk0 m c t) (blk1 m c t) (blk2 m c t) (blk3 m c t) _ _ ?_ ?_
  · show win0_4.index t (0 : Fin 2) * 512 + 1 * (y 0).val = (grid0.coords t 0).val * 512 + (y 0).val
    rw [e0]; omega
  · show win0_4.index t (1 : Fin 2) * 512 + 1 * (y 1).val = (grid0.coords t 1).val * 512 + (y 1).val
    rw [e1]; omega

/-- An index of the result is in grid point t's block iff each coordinate is in the block's range on its axis. -/
private theorem mem_blk (t : Fin cfg0.N) (i : S4096x4096.Idx) :
    i ∈ ((cfg0.win 4).blk t).view.set ↔ ∀ a : Fin 2, win0_4.index t a * S512x512.size a ≤ (i a).val ∧ (i a).val < win0_4.index t a * S512x512.size a + S512x512.size a := by
  show i ∈ ((View.whole main_v42).slice (win0_4.rect t)).set ↔ _
  rw [View.set_slice_whole, Rect.mem_set_unit]
  exact Iff.rfl

/-- The 64 blocks cover the result: entry (p, q) is in the block of grid point (p / 512, q / 512). -/
private theorem covered (i : S4096x4096.Idx) : ∃ t : Fin cfg0.N, (cfg0.win 4).flush t = true ∧ i ∈ ((cfg0.win 4).blk t).view.set := by
  have hi0 : (i 0).val < 4096 := (i 0).isLt
  have hi1 : (i 1).val < 4096 := (i 1).isLt
  obtain ⟨t, q0, q1⟩ := idx_onto ⟨(i 0).val / 512, by omega⟩ ⟨(i 1).val / 512, by omega⟩
  have q0' : win0_4.index t (0 : Fin 2) = (i 0).val / 512 := q0
  have q1' : win0_4.index t (1 : Fin 2) = (i 1).val / 512 := q1
  refine ⟨t, flush0_4 t, ?_⟩
  rw [mem_blk]
  intro a
  match a with
  | ⟨0, _⟩ => show win0_4.index t (0 : Fin 2) * 512 ≤ (i 0).val ∧ (i 0).val < win0_4.index t (0 : Fin 2) * 512 + 512; omega
  | ⟨1, _⟩ => show win0_4.index t (1 : Fin 2) * 512 ≤ (i 1).val ∧ (i 1).val < win0_4.index t (1 : Fin 2) * 512 + 512; omega

theorem final (c : Dev nD) : (dats m 0 c).arrAt 4 cfg0.N = KOut (xin m c) := by
  exact (dats m 0 c).arrAt_eq_of_cover 4 (KOut (xin m c)) (fun t _ => flushed_eq m c t) covered

theorem run : θ_run defs (onTc (τ := τ) (main (F := Ideal))) ⟨m, fun _ => 0, ρ⟩ fun r => ∀ c : Dev nD,
      r.2.mem ((c : Thread nD τ).loc main_v42) = KOut (xin m c)
      ∧ r.2.mem ((c : Thread nD τ).loc main_arg0) = m ((c : Thread nD τ).loc main_arg0) :=
  (θ_run defs _ _).mono (fun r h c => ⟨(h c).1.trans (final m c), (h c).2⟩) (ValueP.run_blocks m ρ)

end Cert.KernelIdeal.Hand

end
-- ==== Proof.RRead1.lean ====
/-
  The reference's projections read at an index: each box's corners on its own axes (sp, least and greatest over the corners) and on every other box's axes (cp), and the transposed pair.
-/
import proofs.«172119_j59760174957246_1_alg».proof.Proof.RStages
import proofs.«172119_j59760174957246_1_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.ReferenceIdeal.Read

open Cert.ReferenceIdeal Cert.ReferenceIdeal.Gen Cert.ReferenceIdeal.Stages Idealize.ShloMosaic Idealize.ShloMosaic.ValueIdx

/-! ### A reduction along the last axis, read at an index

For a commutative and associative operation the reduction of an array along its last axis is, at a kept index, the fold of the
operation from the initial value over the last coordinate: the source index over a kept index with the dropped coordinate put
back is the plain coordinate tuple. -/

/-- In an [a, b, c] shape reduced along its last axis, the index over (p, q) with `k` put back is (p, q, k). -/
private theorem lift_last3 {a b c : Nat} (h : Shape.Reduces ⟨3, ![a, b, c]⟩ [2] ⟨2, ![a, b]⟩) (p : Fin a) (q : Fin b) (k : Fin c) :
    h.lift (ix2 p q) k = ix3 p q k := by
  funext e
  apply Fin.ext
  match e with
  | ⟨0, _⟩ => rfl
  | ⟨1, _⟩ => rfl
  | ⟨2, _⟩ => rfl

/-- In an [a, b, c, d] shape reduced along its last axis, the index over (p, q, r) with `k` put back is (p, q, r, k). -/
private theorem lift_last4 {a b c d : Nat} (h : Shape.Reduces ⟨4, ![a, b, c, d]⟩ [3] ⟨3, ![a, b, c]⟩) (p : Fin a) (q : Fin b)
    (r : Fin c) (k : Fin d) : h.lift (ix3 p q r) k = ix4 p q r k := by
  funext e
  apply Fin.ext
  match e with
  | ⟨0, _⟩ => rfl
  | ⟨1, _⟩ => rfl
  | ⟨2, _⟩ => rfl
  | ⟨3, _⟩ => rfl

/-- The reduction of an [a, b, c] array along its last axis at (p, q): the fold over the entries (p, q, k). -/
private theorem reduce_last3 {a b c : Nat} {u : Shape} (f : EReal → EReal → EReal) [Std.Commutative f] [Std.Associative f]
    (h' : Shape.ReducesTo ⟨3, ![a, b, c]⟩ [2] ⟨2, ![a, b]⟩) (h : Shape.Reduces ⟨3, ![a, b, c]⟩ [2] ⟨2, ![a, b]⟩)
    (y : (⟨3, ![a, b, c]⟩ : Shape).Idx → EReal) (init : u.Idx → EReal) (hu : 0 < u.numel) (p : Fin a) (q : Fin b) :
    Host.reduce f y init h' hu (ix2 p q)
      = (Finset.univ : Finset (Fin c)).fold f (init (Shape.Idx.first hu)) (fun k => y (ix3 p q k)) := by
  rw [Host.reduce_eq_fold_single f y init h' h hu]
  show (Finset.univ : Finset (Fin c)).fold f (init (Shape.Idx.first hu)) (fun k => y (h.lift (ix2 p q) k)) = _
  exact congrArg (fun g => (Finset.univ : Finset (Fin c)).fold f (init (Shape.Idx.first hu)) g)
    (funext fun k => congrArg y (lift_last3 h p q k))

/-- The reduction of an [a, b, c, d] array along its last axis at (p, q, r): the fold over the entries (p, q, r, k). -/
private theorem reduce_last4 {a b c d : Nat} {u : Shape} (f : EReal → EReal → EReal) [Std.Commutative f] [Std.Associative f]
    (h' : Shape.ReducesTo ⟨4, ![a, b, c, d]⟩ [3] ⟨3, ![a, b, c]⟩) (h : Shape.Reduces ⟨4, ![a, b, c, d]⟩ [3] ⟨3, ![a, b, c]⟩)
    (y : (⟨4, ![a, b, c, d]⟩ : Shape).Idx → EReal) (init : u.Idx → EReal) (hu : 0 < u.numel) (p : Fin a) (q : Fin b) (r : Fin c) :
    Host.reduce f y init h' hu (ix3 p q r)
      = (Finset.univ : Finset (Fin d)).fold f (init (Shape.Idx.first hu)) (fun k => y (ix4 p q r k)) := by
  rw [Host.reduce_eq_fold_single f y init h' h hu]
  show (Finset.univ : Finset (Fin d)).fold f (init (Shape.Idx.first hu)) (fun k => y (h.lift (ix3 p q r) k)) = _
  exact congrArg (fun g => (Finset.univ : Finset (Fin d)).fold f (init (Shape.Idx.first hu)) g)
    (funext fun k => congrArg y (lift_last4 h p q r k))

/-- The word 0x7F800000 denotes plus infinity, the top of the extended reals. -/
private theorem ofBits_pos_inf : Ideal.ofBits .f32 0x7F800000#32 = (⊤ : EReal) := by simp [Ideal.ofBits, Ideal.ieee]
/-- The word 0xFF800000 denotes minus infinity, the bottom of the extended reals. -/
private theorem ofBits_neg_inf : Ideal.ofBits .f32 0xFF800000#32 = (⊥ : EReal) := by simp [Ideal.ofBits, Ideal.ieee]

/-! ### The two products' operand indices, one axis at a time

With the box as batch axis the result index is (b, e, k): the axis array is read at (b, e, d), the corner array at (b, k, d).
With no batch axis the result index is (j, e, i, k): the axis array is read at (j, e, d), the corner array at (i, k, d). -/

private theorem lhsB_0 (i : S4096x2x4.Idx) (q : dot_S4096x2x2_S4096x4x2_S4096x2x4_2_2_1_1_0_0.contr.Idx) :
    (dot_S4096x2x2_S4096x4x2_S4096x2x4_2_2_1_1_0_0.lhsIdx i q 0).val = (i 0).val := by
  unfold DotDims.lhsIdx
  rw [dif_pos (show (0 : Fin S4096x2x2.rank) ∈ dot_S4096x2x2_S4096x4x2_S4096x2x4_2_2_1_1_0_0.lhsBatch by decide)]
  rfl
private theorem lhsB_1 (i : S4096x2x4.Idx) (q : dot_S4096x2x2_S4096x4x2_S4096x2x4_2_2_1_1_0_0.contr.Idx) :
    (dot_S4096x2x2_S4096x4x2_S4096x2x4_2_2_1_1_0_0.lhsIdx i q 1).val = (i 1).val := by
  unfold DotDims.lhsIdx
  rw [dif_neg (show ¬(1 : Fin S4096x2x2.rank) ∈ dot_S4096x2x2_S4096x4x2_S4096x2x4_2_2_1_1_0_0.lhsBatch by decide),
    dif_pos (show (1 : Fin S4096x2x2.rank) ∈ dot_S4096x2x2_S4096x4x2_S4096x2x4_2_2_1_1_0_0.lhsNonContracting by decide)]
  rfl
private theorem lhsB_2 (i : S4096x2x4.Idx) (q : dot_S4096x2x2_S4096x4x2_S4096x2x4_2_2_1_1_0_0.contr.Idx) :
    (dot_S4096x2x2_S4096x4x2_S4096x2x4_2_2_1_1_0_0.lhsIdx i q 2).val = (q ⟨0, by decide⟩).val :=
  dot_S4096x2x2_S4096x4x2_S4096x2x4_2_2_1_1_0_0.lhsIdx_val_of_single rfl i q
private theorem rhsB_0 (i : S4096x2x4.Idx) (q : dot_S4096x2x2_S4096x4x2_S4096x2x4_2_2_1_1_0_0.contr.Idx) :
    (dot_S4096x2x2_S4096x4x2_S4096x2x4_2_2_1_1_0_0.rhsIdx i q 0).val = (i 0).val := by
  unfold DotDims.rhsIdx
  rw [dif_pos (show (0 : Fin S4096x4x2.rank) ∈ dot_S4096x2x2_S4096x4x2_S4096x2x4_2_2_1_1_0_0.rhsBatch by decide)]
  rfl
private theorem rhsB_1 (i : S4096x2x4.Idx) (q : dot_S4096x2x2_S4096x4x2_S4096x2x4_2_2_1_1_0_0.contr.Idx) :
    (dot_S4096x2x2_S4096x4x2_S4096x2x4_2_2_1_1_0_0.rhsIdx i q 1).val = (i 2).val := by
  unfold DotDims.rhsIdx
  rw [dif_neg (show ¬(1 : Fin S4096x4x2.rank) ∈ dot_S4096x2x2_S4096x4x2_S4096x2x4_2_2_1_1_0_0.rhsBatch by decide),
    dif_pos (show (1 : Fin S4096x4x2.rank) ∈ dot_S4096x2x2_S4096x4x2_S4096x2x4_2_2_1_1_0_0.rhsNonContracting by decide)]
  rfl
private theorem rhsB_2 (i : S4096x2x4.Idx) (q : dot_S4096x2x2_S4096x4x2_S4096x2x4_2_2_1_1_0_0.contr.Idx) :
    (dot_S4096x2x2_S4096x4x2_S4096x2x4_2_2_1_1_0_0.rhsIdx i q 2).val = (q ⟨0, by decide⟩).val :=
  dot_S4096x2x2_S4096x4x2_S4096x2x4_2_2_1_1_0_0.rhsIdx_val_of_single rfl i q
private theorem lhsN_0 (i : S4096x2x4096x4.Idx) (q : dot_S4096x2x2_S4096x4x2_S4096x2x4096x4_2_2_01_01_n_n.contr.Idx) :
    (dot_S4096x2x2_S4096x4x2_S4096x2x4096x4_2_2_01_01_n_n.lhsIdx i q 0).val = (i 0).val := by
  unfold DotDims.lhsIdx
  rw [dif_neg (show ¬(0 : Fin S4096x2x2.rank) ∈ dot_S4096x2x2_S4096x4x2_S4096x2x4096x4_2_2_01_01_n_n.lhsBatch by decide),
    dif_pos (show (0 : Fin S4096x2x2.rank) ∈ dot_S4096x2x2_S4096x4x2_S4096x2x4096x4_2_2_01_01_n_n.lhsNonContracting by decide)]
  rfl
private theorem lhsN_1 (i : S4096x2x4096x4.Idx) (q : dot_S4096x2x2_S4096x4x2_S4096x2x4096x4_2_2_01_01_n_n.contr.Idx) :
    (dot_S4096x2x2_S4096x4x2_S4096x2x4096x4_2_2_01_01_n_n.lhsIdx i q 1).val = (i 1).val := by
  unfold DotDims.lhsIdx
  rw [dif_neg (show ¬(1 : Fin S4096x2x2.rank) ∈ dot_S4096x2x2_S4096x4x2_S4096x2x4096x4_2_2_01_01_n_n.lhsBatch by decide),
    dif_pos (show (1 : Fin S4096x2x2.rank) ∈ dot_S4096x2x2_S4096x4x2_S4096x2x4096x4_2_2_01_01_n_n.lhsNonContracting by decide)]
  rfl
private theorem lhsN_2 (i : S4096x2x4096x4.Idx) (q : dot_S4096x2x2_S4096x4x2_S4096x2x4096x4_2_2_01_01_n_n.contr.Idx) :
    (dot_S4096x2x2_S4096x4x2_S4096x2x4096x4_2_2_01_01_n_n.lhsIdx i q 2).val = (q ⟨0, by decide⟩).val :=
  dot_S4096x2x2_S4096x4x2_S4096x2x4096x4_2_2_01_01_n_n.lhsIdx_val_of_single rfl i q
private theorem rhsN_0 (i : S4096x2x4096x4.Idx) (q : dot_S4096x2x2_S4096x4x2_S4096x2x4096x4_2_2_01_01_n_n.contr.Idx) :
    (dot_S4096x2x2_S4096x4x2_S4096x2x4096x4_2_2_01_01_n_n.rhsIdx i q 0).val = (i 2).val := by
  unfold DotDims.rhsIdx
  rw [dif_neg (show ¬(0 : Fin S4096x4x2.rank) ∈ dot_S4096x2x2_S4096x4x2_S4096x2x4096x4_2_2_01_01_n_n.rhsBatch by decide),
    dif_pos (show (0 : Fin S4096x4x2.rank) ∈ dot_S4096x2x2_S4096x4x2_S4096x2x4096x4_2_2_01_01_n_n.rhsNonContracting by decide)]
  rfl
private theorem rhsN_1 (i : S4096x2x4096x4.Idx) (q : dot_S4096x2x2_S4096x4x2_S4096x2x4096x4_2_2_01_01_n_n.contr.Idx) :
    (dot_S4096x2x2_S4096x4x2_S4096x2x4096x4_2_2_01_01_n_n.rhsIdx i q 1).val = (i 3).val := by
  unfold DotDims.rhsIdx
  rw [dif_neg (show ¬(1 : Fin S4096x4x2.rank) ∈ dot_S4096x2x2_S4096x4x2_S4096x2x4096x4_2_2_01_01_n_n.rhsBatch by decide),
    dif_pos (show (1 : Fin S4096x4x2.rank) ∈ dot_S4096x2x2_S4096x4x2_S4096x2x4096x4_2_2_01_01_n_n.rhsNonContracting by decide)]
  rfl
private theorem rhsN_2 (i : S4096x2x4096x4.Idx) (q : dot_S4096x2x2_S4096x4x2_S4096x2x4096x4_2_2_01_01_n_n.contr.Idx) :
    (dot_S4096x2x2_S4096x4x2_S4096x2x4096x4_2_2_01_01_n_n.rhsIdx i q 2).val = (q ⟨0, by decide⟩).val :=
  dot_S4096x2x2_S4096x4x2_S4096x2x4096x4_2_2_01_01_n_n.rhsIdx_val_of_single rfl i q

variable (x : FVec Ideal S4096x5 .f32)

/-- The batched product at (b, e, k): the plane's dot product of axis e with corner k, both of box b. -/
private theorem v40_apply (b : Fin 4096) (e : Fin 2) (k : Fin 4) :
    t_main_v40 x (ix3 b e k) = ∑ d : Fin 2, t_main_v39 x (ix3 b e d) * t_main_v26 x (ix3 b k d) := by
  unfold t_main_v40
  simp only [Host.dotGeneral]
  rw [Ideal.dotGeneral_apply, ← Equiv.sum_comp (contrEquiv1 dot_S4096x2x2_S4096x4x2_S4096x2x4_2_2_1_1_0_0 2 rfl rfl).symm]
  refine Finset.sum_congr rfl fun d _ => ?_
  have hk := contrEquiv1_symm_val dot_S4096x2x2_S4096x4x2_S4096x2x4_2_2_1_1_0_0 2 rfl rfl d
  have el : dot_S4096x2x2_S4096x4x2_S4096x2x4_2_2_1_1_0_0.lhsIdx (ix3 b e k)
      ((contrEquiv1 dot_S4096x2x2_S4096x4x2_S4096x2x4_2_2_1_1_0_0 2 rfl rfl).symm d) = ix3 b e d := funext fun a => Fin.ext (by
    match a with
    | ⟨0, _⟩ => exact lhsB_0 _ _
    | ⟨1, _⟩ => exact lhsB_1 _ _
    | ⟨2, _⟩ => exact (lhsB_2 _ _).trans hk)
  have er : dot_S4096x2x2_S4096x4x2_S4096x2x4_2_2_1_1_0_0.rhsIdx (ix3 b e k)
      ((contrEquiv1 dot_S4096x2x2_S4096x4x2_S4096x2x4_2_2_1_1_0_0 2 rfl rfl).symm d) = ix3 b k d := funext fun a => Fin.ext (by
    match a with
    | ⟨0, _⟩ => exact rhsB_0 _ _
    | ⟨1, _⟩ => exact rhsB_1 _ _
    | ⟨2, _⟩ => exact (rhsB_2 _ _).trans hk)
  rw [el, er]

/-- The full product at (j, e, i, k): the plane's dot product of axis e of box j with corner k of box i. -/
private theorem v43_apply (j : Fin 4096) (e : Fin 2) (i : Fin 4096) (k : Fin 4) :
    t_main_v43 x (ix4 j e i k) = ∑ d : Fin 2, t_main_v39 x (ix3 j e d) * t_main_v26 x (ix3 i k d) := by
  unfold t_main_v43
  simp only [Host.dotGeneral]
  rw [Ideal.dotGeneral_apply, ← Equiv.sum_comp (contrEquiv1 dot_S4096x2x2_S4096x4x2_S4096x2x4096x4_2_2_01_01_n_n 2 rfl rfl).symm]
  refine Finset.sum_congr rfl fun d _ => ?_
  have hk := contrEquiv1_symm_val dot_S4096x2x2_S4096x4x2_S4096x2x4096x4_2_2_01_01_n_n 2 rfl rfl d
  have el : dot_S4096x2x2_S4096x4x2_S4096x2x4096x4_2_2_01_01_n_n.lhsIdx (ix4 j e i k)
      ((contrEquiv1 dot_S4096x2x2_S4096x4x2_S4096x2x4096x4_2_2_01_01_n_n 2 rfl rfl).symm d) = ix3 j e d := funext fun a => Fin.ext (by
    match a with
    | ⟨0, _⟩ => exact lhsN_0 _ _
    | ⟨1, _⟩ => exact lhsN_1 _ _
    | ⟨2, _⟩ => exact (lhsN_2 _ _).trans hk)
  have er : dot_S4096x2x2_S4096x4x2_S4096x2x4096x4_2_2_01_01_n_n.rhsIdx (ix4 j e i k)
      ((contrEquiv1 dot_S4096x2x2_S4096x4x2_S4096x2x4096x4_2_2_01_01_n_n 2 rfl rfl).symm d) = ix3 i k d := funext fun a => Fin.ext (by
    match a with
    | ⟨0, _⟩ => exact rhsN_0 _ _
    | ⟨1, _⟩ => exact rhsN_1 _ _
    | ⟨2, _⟩ => exact (rhsN_2 _ _).trans hk)
  rw [el, er]

/-- The full product with the corners' box first: at (i, j, e, k) it is the entry (j, e, i, k). -/
private theorem v44_apply (i j : Fin 4096) (e : Fin 2) (k : Fin 4) :
    t_main_v44 x (ix4 i j e k) = ∑ d : Fin 2, t_main_v39 x (ix3 j e d) * t_main_v26 x (ix3 i k d) := by
  unfold t_main_v44
  refine (transpose_apply [2, 0, 1, 3] (t_main_v43 x) transposes_S4096x2x4096x4_S4096x4096x2x4_2_0_1_3 (ix4 i j e k) (ix4 j e i k)
    (fun b => by
      match b with
      | ⟨0, _⟩ => rfl
      | ⟨1, _⟩ => rfl
      | ⟨2, _⟩ => rfl
      | ⟨3, _⟩ => rfl)).trans ?_
  exact v43_apply x j e i k

/-- Least own projection of box b on its axis e. -/
theorem v41_apply (b : Fin 4096) (e : Fin 2) :
    t_main_v41 x (ix2 b e) = MG.flo fun k => MG.sdot (MG.rowsA (t_main_v39 x) b e) (MG.rowsC (t_main_v26 x) b k) := by
  unfold t_main_v41
  refine (reduce_last3 (FloatOps.minimumf (F := Ideal) (φ := .f32)) reducesTo_S4096x2x4_S4096x2_d2 (by decide) (t_main_v40 x)
    (t_main_cst_1 x) h_S_ b e).trans ?_
  have h0 : t_main_cst_1 x (Shape.Idx.first h_S_) = (⊤ : EReal) := ofBits_pos_inf
  have hf : (fun k : Fin 4 => t_main_v40 x (ix3 b e k))
      = fun k => MG.sdot (MG.rowsA (t_main_v39 x) b e) (MG.rowsC (t_main_v26 x) b k) := funext fun k => v40_apply x b e k
  rw [h0, hf]
  rfl
/-- Greatest own projection. -/
theorem v42_apply (b : Fin 4096) (e : Fin 2) :
    t_main_v42 x (ix2 b e) = MG.fhi fun k => MG.sdot (MG.rowsA (t_main_v39 x) b e) (MG.rowsC (t_main_v26 x) b k) := by
  unfold t_main_v42
  refine (reduce_last3 (FloatOps.maximumf (F := Ideal) (φ := .f32)) reducesTo_S4096x2x4_S4096x2_d2 (by decide) (t_main_v40 x)
    (t_main_cst_2 x) h_S_ b e).trans ?_
  have h0 : t_main_cst_2 x (Shape.Idx.first h_S_) = (⊥ : EReal) := ofBits_neg_inf
  have hf : (fun k : Fin 4 => t_main_v40 x (ix3 b e k))
      = fun k => MG.sdot (MG.rowsA (t_main_v39 x) b e) (MG.rowsC (t_main_v26 x) b k) := funext fun k => v40_apply x b e k
  rw [h0, hf]
  rfl
/-- Least projection of box i's corners on axis e of box j. -/
theorem v45_apply (i j : Fin 4096) (e : Fin 2) :
    t_main_v45 x (ix3 i j e) = MG.flo fun k => MG.sdot (MG.rowsA (t_main_v39 x) j e) (MG.rowsC (t_main_v26 x) i k) := by
  unfold t_main_v45
  refine (reduce_last4 (FloatOps.minimumf (F := Ideal) (φ := .f32)) reducesTo_S4096x4096x2x4_S4096x4096x2_d3 (by decide)
    (t_main_v44 x) (t_main_cst_3 x) h_S_ i j e).trans ?_
  have h0 : t_main_cst_3 x (Shape.Idx.first h_S_) = (⊤ : EReal) := ofBits_pos_inf
  have hf : (fun k : Fin 4 => t_main_v44 x (ix4 i j e k))
      = fun k => MG.sdot (MG.rowsA (t_main_v39 x) j e) (MG.rowsC (t_main_v26 x) i k) := funext fun k => v44_apply x i j e k
  rw [h0, hf]
  rfl
/-- Greatest such projection. -/
theorem v46_apply (i j : Fin 4096) (e : Fin 2) :
    t_main_v46 x (ix3 i j e) = MG.fhi fun k => MG.sdot (MG.rowsA (t_main_v39 x) j e) (MG.rowsC (t_main_v26 x) i k) := by
  unfold t_main_v46
  refine (reduce_last4 (FloatOps.maximumf (F := Ideal) (φ := .f32)) reducesTo_S4096x4096x2x4_S4096x4096x2_d3 (by decide)
    (t_main_v44 x) (t_main_cst_4 x) h_S_ i j e).trans ?_
  have h0 : t_main_cst_4 x (Shape.Idx.first h_S_) = (⊥ : EReal) := ofBits_neg_inf
  have hf : (fun k : Fin 4 => t_main_v44 x (ix4 i j e k))
      = fun k => MG.sdot (MG.rowsA (t_main_v39 x) j e) (MG.rowsC (t_main_v26 x) i k) := funext fun k => v44_apply x i j e k
  rw [h0, hf]
  rfl
/-- The pair swapped. -/
theorem v47_apply (i j : Fin 4096) (e : Fin 2) : t_main_v47 x (ix3 i j e) = t_main_v45 x (ix3 j i e) := by
  unfold t_main_v47
  exact transpose_apply [1, 0, 2] (t_main_v45 x) transposes_S4096x4096x2_S4096x4096x2_1_0_2 (ix3 i j e) (ix3 j i e)
    (fun b => by
      match b with
      | ⟨0, _⟩ => rfl
      | ⟨1, _⟩ => rfl
      | ⟨2, _⟩ => rfl)
theorem v48_apply (i j : Fin 4096) (e : Fin 2) : t_main_v48 x (ix3 i j e) = t_main_v46 x (ix3 j i e) := by
  unfold t_main_v48
  exact transpose_apply [1, 0, 2] (t_main_v46 x) transposes_S4096x4096x2_S4096x4096x2_1_0_2 (ix3 i j e) (ix3 j i e)
    (fun b => by
      match b with
      | ⟨0, _⟩ => rfl
      | ⟨1, _⟩ => rfl
      | ⟨2, _⟩ => rfl)

end Cert.ReferenceIdeal.Read

end
-- ==== Proof.RRead2.lean ====
/-
  The reference's one-dimensional generalized IoU on an axis of box i (v70) and on an axis of box j (v92), read at an index from the interval ends.
-/
import proofs.«172119_j59760174957246_1_alg».proof.Proof.RStages
import proofs.«172119_j59760174957246_1_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.ReferenceIdeal.Read

open Cert.ReferenceIdeal Cert.ReferenceIdeal.Gen Cert.ReferenceIdeal.Stages Idealize.ShloMosaic Idealize.ShloMosaic.ValueIdx

/-! ### Spreading an array along a new axis, read at an index -/

/-- A [4096, 2] array given a unit middle axis reads, at (i, 0, e), the array at (i, e). -/
private theorem mid_apply (A : FVec Ideal S4096x2 .f32) (i : Fin 4096) (e : Fin 2) :
    broadcastInDim S4096x1x2 ![0, 2] bcast_S4096x2_S4096x1x2_0_2 A (ix3 i 0 e) = A (ix2 i e) :=
  broadcastInDim_apply _ _ A (ix3 i 0 e) (ix2 i e) fun a =>
    match a with | ⟨0, _⟩ => rfl | ⟨1, _⟩ => rfl

/-- A [4096, 1, 2] array spread along its unit axis reads, at (i, j, e), the array at (i, 0, e). -/
private theorem spreadMid_apply (Y : FVec Ideal S4096x1x2 .f32) (i j : Fin 4096) (e : Fin 2) :
    broadcastInDim S4096x4096x2 ![0, 1, 2] bcast_S4096x1x2_S4096x4096x2_0_1_2 Y (ix3 i j e) = Y (ix3 i 0 e) :=
  broadcastInDim_apply _ _ Y (ix3 i j e) (ix3 i 0 e) fun a =>
    match a with | ⟨0, _⟩ => rfl | ⟨1, _⟩ => rfl | ⟨2, _⟩ => rfl

/-- A [4096, 2] array given a unit leading axis reads, at (0, j, e), the array at (j, e). -/
private theorem lead_apply (A : FVec Ideal S4096x2 .f32) (j : Fin 4096) (e : Fin 2) :
    broadcastInDim S1x4096x2 ![1, 2] bcast_S4096x2_S1x4096x2_1_2 A (ix3 0 j e) = A (ix2 j e) :=
  broadcastInDim_apply _ _ A (ix3 0 j e) (ix2 j e) fun a =>
    match a with | ⟨0, _⟩ => rfl | ⟨1, _⟩ => rfl

/-- A [1, 4096, 2] array spread along its unit axis reads, at (i, j, e), the array at (0, j, e). -/
private theorem spreadLead_apply (Y : FVec Ideal S1x4096x2 .f32) (i j : Fin 4096) (e : Fin 2) :
    broadcastInDim S4096x4096x2 ![0, 1, 2] bcast_S1x4096x2_S4096x4096x2_0_1_2 Y (ix3 i j e) = Y (ix3 0 j e) :=
  broadcastInDim_apply _ _ Y (ix3 i j e) (ix3 0 j e) fun a =>
    match a with | ⟨0, _⟩ => rfl | ⟨1, _⟩ => rfl | ⟨2, _⟩ => rfl

variable (x : FVec Ideal S4096x5 .f32)

/-! ### The interval ends of box i spread over the pairs -/

private theorem v49_apply (i : Fin 4096) (e : Fin 2) : t_main_v49 x (ix3 i 0 e) = t_main_v41 x (ix2 i e) := mid_apply _ i e
private theorem v50_apply (i : Fin 4096) (e : Fin 2) : t_main_v50 x (ix3 i 0 e) = t_main_v42 x (ix2 i e) := mid_apply _ i e
private theorem v51_apply (i j : Fin 4096) (e : Fin 2) : t_main_v51 x (ix3 i j e) = t_main_v42 x (ix2 i e) :=
  (spreadMid_apply _ i j e).trans (v50_apply x i e)
private theorem v53_apply (i j : Fin 4096) (e : Fin 2) : t_main_v53 x (ix3 i j e) = t_main_v41 x (ix2 i e) :=
  (spreadMid_apply _ i j e).trans (v49_apply x i e)
private theorem v62_apply (i j : Fin 4096) (e : Fin 2) : t_main_v62 x (ix3 i j e) = t_main_v42 x (ix2 i e) :=
  (spreadMid_apply _ i j e).trans (v50_apply x i e)
private theorem v64_apply (i j : Fin 4096) (e : Fin 2) : t_main_v64 x (ix3 i j e) = t_main_v41 x (ix2 i e) :=
  (spreadMid_apply _ i j e).trans (v49_apply x i e)
/-- The length of box i's interval, spread over the pairs. -/
private theorem v59_apply (i j : Fin 4096) (e : Fin 2) :
    t_main_v59 x (ix3 i j e) = t_main_v42 x (ix2 i e) - t_main_v41 x (ix2 i e) := by
  refine (spreadMid_apply _ i j e).trans ?_
  show t_main_v50 x (ix3 i 0 e) - t_main_v49 x (ix3 i 0 e) = _
  rw [v50_apply, v49_apply]
/-- The clamp's lower bound is zero everywhere. -/
private theorem call0_v1_apply (q : S4096x4096x2.Idx) : t_main_call0_v1 x q = 0 := Ideal.ofBits_zero_f32

/-! ### The elementwise stages read at an index -/

/-- The host's quotient at an index is the ideal quotient of the elements. -/
private theorem hostDivf_apply {s : Shape} (a b : FVec Ideal s .f32) (q : s.Idx) : Host.divf a b q = Ideal.div (a q) (b q) := rfl

private theorem v56_at (q : S4096x4096x2.Idx) :
    t_main_v56 x q = max (t_main_call0_v1 x q) (min (t_main_v51 x q) (t_main_v48 x q) - max (t_main_v53 x q) (t_main_v47 x q)) := by
  unfold t_main_v56 t_main_v55 t_main_v52 t_main_v54
  rw [maximumf_apply, subf_apply, minimumf_apply, maximumf_apply]
private theorem v61_at (q : S4096x4096x2.Idx) :
    t_main_v61 x q = t_main_v59 x q + (t_main_v48 x q - t_main_v47 x q) - t_main_v56 x q := by
  unfold t_main_v61 t_main_v60 t_main_v58
  rw [subf_apply, addf_apply, subf_apply]
private theorem v66_at (q : S4096x4096x2.Idx) :
    t_main_v66 x q = max (t_main_v62 x q) (t_main_v48 x q) - min (t_main_v64 x q) (t_main_v47 x q) := by
  unfold t_main_v66 t_main_v63 t_main_v65
  rw [subf_apply, maximumf_apply, minimumf_apply]
private theorem v70_at (q : S4096x4096x2.Idx) :
    t_main_v70 x q = Ideal.div (t_main_v56 x q) (t_main_v61 x q) - Ideal.div (t_main_v66 x q - t_main_v61 x q) (t_main_v66 x q) := by
  unfold t_main_v70 t_main_v67 t_main_v69 t_main_v68
  rw [subf_apply, hostDivf_apply, hostDivf_apply, subf_apply]

theorem v70_apply (i j : Fin 4096) (e : Fin 2) :
    t_main_v70 x (ix3 i j e)
      = MG.giouR (t_main_v41 x (ix2 i e)) (t_main_v42 x (ix2 i e)) (t_main_v47 x (ix3 i j e)) (t_main_v48 x (ix3 i j e)) := by
  rw [v70_at, v61_at, v66_at, v56_at, call0_v1_apply, v51_apply, v53_apply, v59_apply, v62_apply, v64_apply]
  unfold MG.giouR MG.giouWith
  with_reducible rfl

/-! ### The interval ends of box j spread over the pairs -/

private theorem v71_apply (j : Fin 4096) (e : Fin 2) : t_main_v71 x (ix3 0 j e) = t_main_v41 x (ix2 j e) := lead_apply _ j e
private theorem v72_apply (j : Fin 4096) (e : Fin 2) : t_main_v72 x (ix3 0 j e) = t_main_v42 x (ix2 j e) := lead_apply _ j e
private theorem v73_apply (i j : Fin 4096) (e : Fin 2) : t_main_v73 x (ix3 i j e) = t_main_v42 x (ix2 j e) :=
  (spreadLead_apply _ i j e).trans (v72_apply x j e)
private theorem v75_apply (i j : Fin 4096) (e : Fin 2) : t_main_v75 x (ix3 i j e) = t_main_v41 x (ix2 j e) :=
  (spreadLead_apply _ i j e).trans (v71_apply x j e)
private theorem v84_apply (i j : Fin 4096) (e : Fin 2) : t_main_v84 x (ix3 i j e) = t_main_v42 x (ix2 j e) :=
  (spreadLead_apply _ i j e).trans (v72_apply x j e)
private theorem v86_apply (i j : Fin 4096) (e : Fin 2) : t_main_v86 x (ix3 i j e) = t_main_v41 x (ix2 j e) :=
  (spreadLead_apply _ i j e).trans (v71_apply x j e)
/-- The length of box j's interval, spread over the pairs. -/
private theorem v81_apply (i j : Fin 4096) (e : Fin 2) :
    t_main_v81 x (ix3 i j e) = t_main_v42 x (ix2 j e) - t_main_v41 x (ix2 j e) := by
  refine (spreadLead_apply _ i j e).trans ?_
  show t_main_v72 x (ix3 0 j e) - t_main_v71 x (ix3 0 j e) = _
  rw [v72_apply, v71_apply]
/-- The clamp's lower bound is zero everywhere. -/
private theorem call1_v1_apply (q : S4096x4096x2.Idx) : t_main_call1_v1 x q = 0 := Ideal.ofBits_zero_f32

private theorem v78_at (q : S4096x4096x2.Idx) :
    t_main_v78 x q = max (t_main_call1_v1 x q) (min (t_main_v46 x q) (t_main_v73 x q) - max (t_main_v45 x q) (t_main_v75 x q)) := by
  unfold t_main_v78 t_main_v77 t_main_v74 t_main_v76
  rw [maximumf_apply, subf_apply, minimumf_apply, maximumf_apply]
private theorem v83_at (q : S4096x4096x2.Idx) :
    t_main_v83 x q = (t_main_v46 x q - t_main_v45 x q) + t_main_v81 x q - t_main_v78 x q := by
  unfold t_main_v83 t_main_v82 t_main_v79
  rw [subf_apply, addf_apply, subf_apply]
private theorem v88_at (q : S4096x4096x2.Idx) :
    t_main_v88 x q = max (t_main_v46 x q) (t_main_v84 x q) - min (t_main_v45 x q) (t_main_v86 x q) := by
  unfold t_main_v88 t_main_v85 t_main_v87
  rw [subf_apply, maximumf_apply, minimumf_apply]
private theorem v92_at (q : S4096x4096x2.Idx) :
    t_main_v92 x q = Ideal.div (t_main_v78 x q) (t_main_v83 x q) - Ideal.div (t_main_v88 x q - t_main_v83 x q) (t_main_v88 x q) := by
  unfold t_main_v92 t_main_v89 t_main_v91 t_main_v90
  rw [subf_apply, hostDivf_apply, hostDivf_apply, subf_apply]

theorem v92_apply (i j : Fin 4096) (e : Fin 2) :
    t_main_v92 x (ix3 i j e)
      = MG.giouR (t_main_v45 x (ix3 i j e)) (t_main_v46 x (ix3 i j e)) (t_main_v41 x (ix2 j e)) (t_main_v42 x (ix2 j e)) := by
  rw [v92_at, v83_at, v88_at, v78_at, call1_v1_apply, v73_apply, v75_apply, v81_apply, v84_apply, v86_apply]
  unfold MG.giouR MG.giouWith
  with_reducible rfl

end Cert.ReferenceIdeal.Read

end
-- ==== Proof.RRead3.lean ====
/-
  The four axes joined, their least value and the clamp, read at an index.
-/
import proofs.«172119_j59760174957246_1_alg».proof.Proof.RStages
import proofs.«172119_j59760174957246_1_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.ReferenceIdeal.Read

open Cert.ReferenceIdeal Cert.ReferenceIdeal.Gen Cert.ReferenceIdeal.Stages Idealize.ShloMosaic Idealize.ShloMosaic.ValueIdx

variable (x : FVec Ideal S4096x5 .f32)

/-! ### The joined array: the first two places of the last axis are box i's axes, the last two box j's -/

private theorem v93_left (i j : Fin 4096) (e : Fin 2) (k : Fin 4) (hk : k.val = e.val) :
    t_main_v93 x (ix3 i j k) = t_main_v70 x (ix3 i j e) :=
  concatenate_pair_apply_left (2 : Fin S4096x4096x4.rank) (t_main_v70 x) (t_main_v92 x)
    concatenates_S4096x4096x2_S4096x4096x2_S4096x4096x4_d2 (ix3 i j k) rfl (ix3 i j e) fun b =>
      match b with | ⟨0, _⟩ => rfl | ⟨1, _⟩ => rfl | ⟨2, _⟩ => hk.symm

private theorem v93_right (i j : Fin 4096) (e : Fin 2) (k : Fin 4) (hk : e.val + 2 = k.val) :
    t_main_v93 x (ix3 i j k) = t_main_v92 x (ix3 i j e) :=
  concatenate_pair_apply_right (2 : Fin S4096x4096x4.rank) (t_main_v70 x) (t_main_v92 x)
    concatenates_S4096x4096x2_S4096x4096x2_S4096x4096x4_d2 (ix3 i j k) rfl rfl (ix3 i j e)
    (fun b => match b with | ⟨0, _⟩ => fun _ => rfl | ⟨1, _⟩ => fun _ => rfl | ⟨2, _⟩ => fun h => absurd rfl h)
    hk

/-! ### The least value along the last axis -/

/-- The last axis dropped: the shapes' side condition. -/
private theorem red : S4096x4096x4.Reduces [2] S4096x4096 := by decide

/-- The index over (i, j) with k on the dropped axis. -/
private theorem lift_eq (i j : Fin 4096) (k : Fin 4) : red.lift (ix2 i j) k = ix3 i j k := by
  funext c
  match c with
  | ⟨0, _⟩ => rfl
  | ⟨1, _⟩ => rfl
  | ⟨2, _⟩ => rfl

/-- The word 0x7F800000 denotes the top element. -/
private theorem cst_7_apply (q : S_.Idx) : t_main_cst_7 x q = ⊤ := by
  show Ideal.ofBits .f32 0x7F800000#32 = ⊤
  simp [Ideal.ofBits, Ideal.ieee]

/-- A function on four places is the vector of its four values. -/
private theorem vec4_eta {α : Type} (g : Fin 4 → α) : g = ![g 0, g 1, g 2, g 3] := by
  funext k
  match k with
  | ⟨0, _⟩ => rfl
  | ⟨1, _⟩ => rfl
  | ⟨2, _⟩ => rfl
  | ⟨3, _⟩ => rfl

/-- The fold of the least value over four places, from the places' values. -/
private theorem flo_of (g : Fin 4 → EReal) (a b c d : EReal) (h0 : g 0 = a) (h1 : g 1 = b) (h2 : g 2 = c) (h3 : g 3 = d) :
    (Finset.univ : Finset (Fin 4)).fold min ⊤ g = MG.flo ![a, b, c, d] := by
  subst h0 h1 h2 h3
  unfold MG.flo
  rw [← vec4_eta g]

/-- The reduction by the least value along the last axis of a [4096, 4096, 4] array, at (i, j): the fold of min over the four places. -/
private theorem min_last_apply (X : FVec Ideal S4096x4096x4 .f32) (init : FVec Ideal S_ .f32) (i j : Fin 4096) :
    Host.reduce FloatOps.minimumf X init reducesTo_S4096x4096x4_S4096x4096_d2 h_S_ (ix2 i j)
      = (Finset.univ : Finset (Fin 4)).fold min (init (Shape.Idx.first h_S_)) (fun k => X (ix3 i j k)) := by
  refine (Host.reduce_eq_fold_single FloatOps.minimumf X init reducesTo_S4096x4096x4_S4096x4096_d2 red h_S_ (ix2 i j)).trans ?_
  have hl : (X ∘ red.lift (ix2 i j)) = fun k : Fin 4 => X (ix3 i j k) := funext fun k => congrArg X (lift_eq i j k)
  rw [hl]
  rfl

private theorem v94_apply (i j : Fin 4096) :
    t_main_v94 x (ix2 i j)
      = MG.flo ![t_main_v70 x (ix3 i j 0), t_main_v70 x (ix3 i j 1), t_main_v92 x (ix3 i j 0), t_main_v92 x (ix3 i j 1)] := by
  refine (min_last_apply (t_main_v93 x) (t_main_cst_7 x) i j).trans ?_
  rw [cst_7_apply]
  exact flo_of (fun k => t_main_v93 x (ix3 i j k)) _ _ _ _
    (v93_left x i j 0 0 rfl) (v93_left x i j 1 1 rfl) (v93_right x i j 0 2 rfl) (v93_right x i j 1 3 rfl)

/-- The clamp's lower bound is zero everywhere. -/
private theorem call2_v1_apply (q : S4096x4096.Idx) : t_main_call2_v1 x q = 0 := Ideal.ofBits_zero_f32

theorem v95_apply (i j : Fin 4096) :
    t_main_v95 x (ix2 i j)
      = max 0 (MG.flo ![t_main_v70 x (ix3 i j 0), t_main_v70 x (ix3 i j 1), t_main_v92 x (ix3 i j 0), t_main_v92 x (ix3 i j 1)]) := by
  unfold t_main_v95
  rw [maximumf_apply, call2_v1_apply, v94_apply]

end Cert.ReferenceIdeal.Read

end
-- ==== Proof.LibScatterDiag.lean ====
/-
  A scatter of scalars onto the diagonal of a square array, read at an index.

  The operand has shape [N, N], the indices shape [N, 2] and the updates shape [N]; both operand axes are inserted
  window axes, so update n replaces the one element whose two coordinates are the two indices of row n read signed.
  When row n of the indices is (n, n), update n lands on the diagonal element (n, n). These positions are pairwise
  distinct, so in whatever order the updates are taken, element (i, j) of the result is update i when i = j and the
  operand's element otherwise.
-/
import Mathlib.Data.List.Basic
import Idealize.ShloMosaic.PureOps.ShapeOps
import Idealize.ShloMosaic.Lib.ValueIdx

namespace Diag.Scatter

open Idealize.ShloMosaic Idealize.ShloMosaic.ValueIdx

/-! ### A fold of point replacements -/

section Fold
variable {κ ι α : Type} [DecidableEq ι] (pos : κ → ι) (v : κ → α)

/-- One replacement: the element at `pos n` becomes `v n`, every other element stays. -/
def put (r : ι → α) (n : κ) : ι → α := fun i' => if i' = pos n then v n else r i'

/-- A position no replacement of the list hits keeps its element. -/
theorem foldl_put_of_ne (l : List κ) (x : ι → α) (p : ι) (h : ∀ n ∈ l, pos n ≠ p) :
    l.foldl (put pos v) x p = x p := by
  induction l generalizing x with
  | nil => rfl
  | cons a t ih =>
    rw [List.foldl_cons, ih _ (fun n hn => h n (List.mem_cons_of_mem _ hn))]
    unfold put
    rw [if_neg (fun hp => h a List.mem_cons_self hp.symm)]

/-- When the positions are pairwise distinct and the list has no repeats, the position of a member of the list holds
    that member's value after the fold. -/
theorem foldl_put_of_mem (hinj : Function.Injective pos) (l : List κ) (hl : l.Nodup) (x : ι → α) (n0 : κ)
    (h0 : n0 ∈ l) : l.foldl (put pos v) x (pos n0) = v n0 := by
  induction l generalizing x with
  | nil => exact absurd h0 List.not_mem_nil
  | cons a t ih =>
    rw [List.foldl_cons]
    have hnd := List.nodup_cons.mp hl
    rcases List.mem_cons.mp h0 with h | ht
    · subst h
      rw [foldl_put_of_ne pos v t _ _ (fun n hn hp => hnd.1 (by have := hinj hp; subst this; exact hn))]
      unfold put
      rw [if_pos rfl]
    · exact ih hnd.2 _ ht

end Fold

/-! ### The dimension numbers and where an update lands -/

/-- The dimension numbers of a scatter of scalars into a square array at index pairs. -/
abbrev diagDims (N : Nat) (wf : ScatterDims.WF ⟨2, ![N, N]⟩ ⟨2, ![N, 2]⟩ ⟨1, ![N]⟩ [] [0, 1] [0, 1] 1) :
    ScatterDims ⟨2, ![N, N]⟩ ⟨2, ![N, 2]⟩ ⟨1, ![N]⟩ where
  updateWindowDims := []
  insertedWindowDims := [0, 1]
  scatterDimsToOperandDims := [0, 1]
  indexVectorDim := 1
  wf := wf

/-- The coordinate of a rank-1 index. -/
def coord {N : Nat} (j : (⟨1, ![N]⟩ : Shape).Idx) : Fin N := j 0

theorem eq_ix1_coord {N : Nat} (j : (⟨1, ![N]⟩ : Shape).Idx) : j = ix1 (coord j) := eq_ix1 j

section Land
variable {N w : Nat} (wf : ScatterDims.WF ⟨2, ![N, N]⟩ ⟨2, ![N, 2]⟩ ⟨1, ![N]⟩ [] [0, 1] [0, 1] 1)
  (idx : IVec ⟨2, ![N, 2]⟩ w) (n : Fin N)

/-- On the row axis the landing coordinate of update n is the first index of row n read signed. -/
private theorem land0 (h0 : 0 < 2) :
    (diagDims N wf).start (ix1 n) idx ⟨0, h0⟩ + ((diagDims N wf).window (ix1 n) ⟨0, h0⟩ : ℤ)
      = (idx (ix2 n ⟨0, Nat.zero_lt_two⟩)).toInt := by
  have hm : (⟨0, h0⟩ : Fin 2) ∈ (diagDims N wf).scatterDimsToOperandDims := List.mem_cons_self
  have hk : (⟨0, h0⟩ : Fin 2) ∉ (diagDims N wf).sKept := fun h =>
    (List.mem_filter.mp h).2 |> fun h' => by simp at h'
  unfold ScatterDims.start ScatterDims.window
  rw [dif_pos hm, dif_neg hk]
  have hsi : (diagDims N wf).siIdx (ix1 n)
      ⟨List.idxOf (⟨0, h0⟩ : Fin 2) (diagDims N wf).scatterDimsToOperandDims,
        List.idxOf_lt_length_iff.2 hm⟩ = ix2 n ⟨0, Nat.zero_lt_two⟩ := by
    funext b; refine Fin.ext ?_
    match b with
    | ⟨0, _⟩ => rfl
    | ⟨1, _⟩ => rfl
  rw [hsi]
  simp

/-- On the column axis the landing coordinate of update n is the second index of row n read signed. -/
private theorem land1 (h1 : 1 < 2) :
    (diagDims N wf).start (ix1 n) idx ⟨1, h1⟩ + ((diagDims N wf).window (ix1 n) ⟨1, h1⟩ : ℤ)
      = (idx (ix2 n ⟨1, Nat.one_lt_two⟩)).toInt := by
  have hm : (⟨1, h1⟩ : Fin 2) ∈ (diagDims N wf).scatterDimsToOperandDims :=
    List.mem_cons_of_mem _ List.mem_cons_self
  have hk : (⟨1, h1⟩ : Fin 2) ∉ (diagDims N wf).sKept := fun h =>
    (List.mem_filter.mp h).2 |> fun h' => by simp at h'
  unfold ScatterDims.start ScatterDims.window
  rw [dif_pos hm, dif_neg hk]
  have hsi : (diagDims N wf).siIdx (ix1 n)
      ⟨List.idxOf (⟨1, h1⟩ : Fin 2) (diagDims N wf).scatterDimsToOperandDims,
        List.idxOf_lt_length_iff.2 hm⟩ = ix2 n ⟨1, Nat.one_lt_two⟩ := by
    funext b; refine Fin.ext ?_
    match b with
    | ⟨0, _⟩ => rfl
    | ⟨1, _⟩ => rfl
  rw [hsi]
  simp

/-- When row n of the indices reads (n, n), update n lands on the diagonal element (n, n). -/
theorem resultIdx_diag
    (hi0 : ∀ n : Fin N, (idx (ix2 n ⟨0, Nat.zero_lt_two⟩)).toInt = (n.val : ℤ))
    (hi1 : ∀ n : Fin N, (idx (ix2 n ⟨1, Nat.one_lt_two⟩)).toInt = (n.val : ℤ)) :
    (diagDims N wf).resultIdx? (ix1 n) idx = some (ix2 n n) := by
  unfold ScatterDims.resultIdx?
  have hall : ∀ a, 0 ≤ (diagDims N wf).start (ix1 n) idx a + ((diagDims N wf).window (ix1 n) a : ℤ)
      ∧ (diagDims N wf).start (ix1 n) idx a + ((diagDims N wf).window (ix1 n) a : ℤ)
        < (((⟨2, ![N, N]⟩ : Shape).size a : ℕ) : ℤ) := by
    intro a
    match a with
    | ⟨0, h0⟩ =>
      rw [land0, hi0 n]
      have := n.isLt
      exact ⟨by omega, show (n.val : ℤ) < ((N : ℕ) : ℤ) by omega⟩
    | ⟨1, h1⟩ =>
      rw [land1, hi1 n]
      have := n.isLt
      exact ⟨by omega, show (n.val : ℤ) < ((N : ℕ) : ℤ) by omega⟩
  rw [dif_pos hall]
  congr 1
  funext a
  refine Fin.ext ?_
  match a with
  | ⟨0, h0⟩ =>
    show ((diagDims N wf).start (ix1 n) idx ⟨0, h0⟩ + ((diagDims N wf).window (ix1 n) ⟨0, h0⟩ : ℤ)).toNat = n.val
    rw [land0, hi0 n]; omega
  | ⟨1, h1⟩ =>
    show ((diagDims N wf).start (ix1 n) idx ⟨1, h1⟩ + ((diagDims N wf).window (ix1 n) ⟨1, h1⟩ : ℤ)).toNat = n.val
    rw [land1, hi1 n]; omega

end Land

/-! ### The scatter read at an index -/

/-- THE DIAGONAL SCATTER READ AT (i, j): update i on the diagonal, the operand's element off it. -/
theorem scatter_diag_apply {α : Type} {N w : Nat}
    (wf : ScatterDims.WF ⟨2, ![N, N]⟩ ⟨2, ![N, 2]⟩ ⟨1, ![N]⟩ [] [0, 1] [0, 1] 1)
    (x : (⟨2, ![N, N]⟩ : Shape).Idx → α) (idx : IVec ⟨2, ![N, 2]⟩ w) (upd : (⟨1, ![N]⟩ : Shape).Idx → α)
    (hi0 : ∀ n : Fin N, (idx (ix2 n ⟨0, Nat.zero_lt_two⟩)).toInt = (n.val : ℤ))
    (hi1 : ∀ n : Fin N, (idx (ix2 n ⟨1, Nat.one_lt_two⟩)).toInt = (n.val : ℤ)) (i j : Fin N) :
    Host.scatter (diagDims N wf) (fun _ b => b) x idx upd (ix2 i j) = if i = j then upd (ix1 i) else x (ix2 i j) := by
  unfold Host.scatter
  -- the fold is a fold of point replacements: update position n replaces the diagonal element at its coordinate
  let pos : Fin (⟨1, ![N]⟩ : Shape).numel → (⟨2, ![N, N]⟩ : Shape).Idx := fun n =>
    ix2 (coord ((⟨1, ![N]⟩ : Shape).rowMajor.symm n)) (coord ((⟨1, ![N]⟩ : Shape).rowMajor.symm n))
  let v : Fin (⟨1, ![N]⟩ : Shape).numel → α := fun n => upd ((⟨1, ![N]⟩ : Shape).rowMajor.symm n)
  refine (congrFun (List.foldl_ext _ (put pos v) x ?_) (ix2 i j)).trans ?_
  · intro r n _
    show _ = fun i' => if i' = ix2 (coord ((⟨1, ![N]⟩ : Shape).rowMajor.symm n))
      (coord ((⟨1, ![N]⟩ : Shape).rowMajor.symm n)) then upd ((⟨1, ![N]⟩ : Shape).rowMajor.symm n) else r i'
    generalize (⟨1, ![N]⟩ : Shape).rowMajor.symm n = q
    obtain ⟨m, rfl⟩ : ∃ m, q = ix1 m := ⟨_, eq_ix1_coord q⟩
    rw [resultIdx_diag wf idx m hi0 hi1]
    rfl
  -- the positions are pairwise distinct
  have hinj : Function.Injective pos := by
    intro n m h
    have a : coord ((⟨1, ![N]⟩ : Shape).rowMajor.symm n) = coord ((⟨1, ![N]⟩ : Shape).rowMajor.symm m) :=
      congrFun h ⟨0, Nat.zero_lt_two⟩
    have e : (⟨1, ![N]⟩ : Shape).rowMajor.symm n = (⟨1, ![N]⟩ : Shape).rowMajor.symm m :=
      calc (⟨1, ![N]⟩ : Shape).rowMajor.symm n = ix1 (coord ((⟨1, ![N]⟩ : Shape).rowMajor.symm n)) := eq_ix1_coord _
        _ = ix1 (coord ((⟨1, ![N]⟩ : Shape).rowMajor.symm m)) := by rw [a]
        _ = (⟨1, ![N]⟩ : Shape).rowMajor.symm m := (eq_ix1_coord _).symm
    exact (⟨1, ![N]⟩ : Shape).rowMajor.symm.injective e
  by_cases hij : i = j
  · subst hij
    rw [if_pos rfl]
    have hq : (⟨1, ![N]⟩ : Shape).rowMajor.symm ((⟨1, ![N]⟩ : Shape).rowMajor (ix1 i)) = ix1 i :=
      Equiv.symm_apply_apply _ _
    have hp : pos ((⟨1, ![N]⟩ : Shape).rowMajor (ix1 i)) = ix2 i i := by
      show ix2 (coord ((⟨1, ![N]⟩ : Shape).rowMajor.symm ((⟨1, ![N]⟩ : Shape).rowMajor (ix1 i))))
        (coord ((⟨1, ![N]⟩ : Shape).rowMajor.symm ((⟨1, ![N]⟩ : Shape).rowMajor (ix1 i)))) = _
      rw [hq]; rfl
    have hv : v ((⟨1, ![N]⟩ : Shape).rowMajor (ix1 i)) = upd (ix1 i) := by
      show upd ((⟨1, ![N]⟩ : Shape).rowMajor.symm ((⟨1, ![N]⟩ : Shape).rowMajor (ix1 i))) = _
      rw [hq]
    have hm := foldl_put_of_mem pos v hinj _ (List.nodup_finRange _) x ((⟨1, ![N]⟩ : Shape).rowMajor (ix1 i))
      (List.mem_finRange _)
    rw [hp, hv] at hm
    exact hm
  · rw [if_neg hij]
    refine foldl_put_of_ne pos v _ x _ (fun n _ hp => hij ?_)
    have a : coord ((⟨1, ![N]⟩ : Shape).rowMajor.symm n) = i := congrFun hp ⟨0, Nat.zero_lt_two⟩
    have b : coord ((⟨1, ![N]⟩ : Shape).rowMajor.symm n) = j := congrFun hp ⟨1, Nat.one_lt_two⟩
    exact a.symm.trans b

end Diag.Scatter
-- ==== Proof.RScatter.lean ====
/-
  The zeroed diagonal: the scatter of zeros at the index pairs (n, n) read at an index.

  The index array's row n is the pair (n, n): each column is the position word n passed through the wrap of negative
  indices (add the extent when the word is negative as a signed number), which leaves it alone because a position below
  4096 is never negative. The updates are all the zero of the extended reals. So the scatter replaces the diagonal
  element (n, n) by 0 for every n and leaves every other element as it was.
-/
import proofs.«172119_j59760174957246_1_alg».proof.Proof.RStages
import proofs.«172119_j59760174957246_1_alg».proof.Proof.Spec
import proofs.«172119_j59760174957246_1_alg».proof.Proof.LibScatterDiag
import Idealize.ShloMosaic.Lib.ValueIdx
import Idealize.ShloMosaic.Lib.Pipeline.Value
import Idealize.ShloMosaic.Lib.ValueLayout
import Idealize.ShloMosaic.Lib.StableHlo.Predicate
import Idealize.ShloMosaic.PureOps.Ideal.Laws

noncomputable section

namespace Cert.ReferenceIdeal.Read

open Cert.ReferenceIdeal Cert.ReferenceIdeal.Gen Cert.ReferenceIdeal.Stages Idealize.ShloMosaic Idealize.ShloMosaic.ValueIdx

variable (x : FVec Ideal S4096x5 .f32)

/-- A position below 4096, as a 32-bit word, is not negative: the signed comparison with zero fails. -/
private theorem pos_not_neg (n : Fin 4096) : IntOp.cmpi .slt (BitVec.ofNat 32 n.val) 0#32 = 0#1 := by
  have ha : (BitVec.ofNat 32 n.val).toNat < 2 ^ 31 := by
    rw [BitVec.toNat_ofNat]; have := n.isLt; omega
  have hb : (0#32 : BitVec 32).toNat < 2 ^ 31 := by decide
  exact eq_zero_of_ne_one fun h => Nat.not_lt_zero _ ((StableHlo.Predicate.slt_iff_toNat ha hb).mp h)

/-- The row index after the wrap of negative indices is the position word. -/
private theorem v101_apply (n : Fin 4096) : t_main_v101 x (ix1 n) = BitVec.ofNat 32 n.val := by
  show Scalar.select (IntOp.cmpi .slt (BitVec.ofNat 32 n.val) 0#32) (IntOp.addi (BitVec.ofNat 32 n.val) 4096#32)
    (BitVec.ofNat 32 n.val) = _
  rw [pos_not_neg, select_zero]

/-- The column index after the wrap of negative indices is the position word. -/
private theorem v106_apply (n : Fin 4096) : t_main_v106 x (ix1 n) = BitVec.ofNat 32 n.val := by
  show Scalar.select (IntOp.cmpi .slt (BitVec.ofNat 32 n.val) 0#32) (IntOp.addi (BitVec.ofNat 32 n.val) 4096#32)
    (BitVec.ofNat 32 n.val) = _
  rw [pos_not_neg, select_zero]

/-- The position word read signed is the position. -/
private theorem pos_toInt (n : Fin 4096) : (BitVec.ofNat 32 n.val).toInt = (n.val : ℤ) :=
  StableHlo.Predicate.toInt_ofNat_small n.val (by have := n.isLt; omega)

/-- The first index of row n is the word n. -/
private theorem v109_apply0 (n : Fin 4096) :
    t_main_v109 x (ix2 n ⟨0, Nat.zero_lt_two⟩) = BitVec.ofNat 32 n.val := by
  refine (concatenate_pair_apply_left (1 : Fin 2) (t_main_v107 x) (t_main_v108 x)
    Facts₀.concatenates_S4096x1_S4096x1_S4096x2_d1 (ix2 n ⟨0, Nat.zero_lt_two⟩) rfl (ix2 n ⟨0, Nat.one_pos⟩)
    (fun b => match b with | ⟨0, _⟩ => rfl | ⟨1, _⟩ => rfl)).trans ?_
  refine (broadcastInDim_apply (![0] : Fin 1 → Fin 2) Facts₀.bcast_S4096_S4096x1_0 (t_main_v101 x)
    (ix2 n ⟨0, Nat.one_pos⟩) (ix1 n) (fun a => match a with | ⟨0, _⟩ => rfl)).trans ?_
  exact v101_apply x n

/-- The second index of row n is the word n. -/
private theorem v109_apply1 (n : Fin 4096) :
    t_main_v109 x (ix2 n ⟨1, Nat.one_lt_two⟩) = BitVec.ofNat 32 n.val := by
  refine (concatenate_pair_apply_right (1 : Fin 2) (t_main_v107 x) (t_main_v108 x)
    Facts₀.concatenates_S4096x1_S4096x1_S4096x2_d1 (ix2 n ⟨1, Nat.one_lt_two⟩) rfl rfl (ix2 n ⟨0, Nat.one_pos⟩)
    (fun b hb => match b, hb with | ⟨0, _⟩, _ => rfl | ⟨1, _⟩, hb => absurd rfl hb) rfl).trans ?_
  refine (broadcastInDim_apply (![0] : Fin 1 → Fin 2) Facts₀.bcast_S4096_S4096x1_0 (t_main_v106 x)
    (ix2 n ⟨0, Nat.one_pos⟩) (ix1 n) (fun a => match a with | ⟨0, _⟩ => rfl)).trans ?_
  exact v106_apply x n

/-- Every update is the zero of the extended reals. -/
private theorem v110_apply (n : Fin 4096) : t_main_v110 x (ix1 n) = 0 := by
  show Ideal.ofBits .f32 0x00000000#32 = 0
  exact Ideal.ofBits_zero_f32

theorem v111_apply (i j : Fin 4096) :
    t_main_v111 x (ix2 i j) = if i = j then 0 else t_main_v95 x (ix2 i j) := by
  have h := Diag.Scatter.scatter_diag_apply (N := 4096) Facts₀.scatter_S4096x4096_S4096x2_S4096_n_01_01_1_wf
    (t_main_v95 x) (t_main_v109 x) (t_main_v110 x)
    (fun n => by rw [v109_apply0]; exact pos_toInt n) (fun n => by rw [v109_apply1]; exact pos_toInt n) i j
  rw [v110_apply] at h
  exact h

end Cert.ReferenceIdeal.Read

end
-- ==== Proof.RValue.lean ====
/-
  The reference's result at (i, j) is the pairwise measure of boxes i and j, the reference's way.
-/
import proofs.«172119_j59760174957246_1_alg».proof.Proof.RRead1
import proofs.«172119_j59760174957246_1_alg».proof.Proof.RRead2
import proofs.«172119_j59760174957246_1_alg».proof.Proof.RRead3
import proofs.«172119_j59760174957246_1_alg».proof.Proof.RScatter

noncomputable section

namespace Cert.ReferenceIdeal.Read

open Cert.ReferenceIdeal Cert.ReferenceIdeal.Gen Cert.ReferenceIdeal.Stages Idealize.ShloMosaic Idealize.ShloMosaic.ValueIdx

theorem out_apply (x : FVec Ideal S4096x5 .f32) (i j : Fin 4096) :
    t_main_v111 x (ix2 i j) = MG.outR (t_main_v26 x) (t_main_v39 x) i j := by
  rw [v111_apply, v95_apply, v70_apply, v70_apply, v92_apply, v92_apply]
  simp only [v41_apply, v42_apply, v45_apply, v46_apply, v47_apply, v48_apply]
  rfl

end Cert.ReferenceIdeal.Read

end
-- ==== Proof.Bridge.lean ====
/-
  Both programs build the corner array and the axis array from the boxes by the same host operations, so the two arrays are the
  same functions of the argument; with that the kernel's result array and the reference's are one function.
-/
import proofs.«172119_j59760174957246_1_alg».proof.Proof.KHost
import proofs.«172119_j59760174957246_1_alg».proof.Proof.RValue

noncomputable section

namespace Cert.Bridge

open Idealize.ShloMosaic Idealize.ShloMosaic.ValueIdx

/-- The corner arrays: the same operations in the same order on both sides (the two programs' shape and evidence names differ, the terms do not). -/
theorem corners_eq {F : FTy → Type} [FloatOps F] (x : FVec F Cert.KernelIdeal.S4096x5 .f32) :
    Cert.KernelIdeal.Stages.t_main_v26 x = Cert.ReferenceIdeal.Stages.t_main_v26 x := rfl
/-- The axis arrays likewise. -/
theorem axes_eq {F : FTy → Type} [FloatOps F] (x : FVec F Cert.KernelIdeal.S4096x5 .f32) :
    Cert.KernelIdeal.Stages.t_main_v39 x = Cert.ReferenceIdeal.Stages.t_main_v39 x := rfl

/-- The reference's last stage is the kernel's result array. -/
theorem result_eq (x : FVec Ideal Cert.KernelIdeal.S4096x5 .f32) :
    Cert.ReferenceIdeal.Stages.t_main_v111 x = Cert.KernelIdeal.Hand.KOut x := by
  funext idx
  obtain ⟨i, j, rfl⟩ : ∃ (i j : Fin 4096), idx = ix2 i j := ⟨idx 0, idx 1, eq_ix2 idx⟩
  rw [Cert.ReferenceIdeal.Read.out_apply]
  unfold Cert.KernelIdeal.Hand.KOut
  rw [corners_eq, axes_eq]
  exact (Cert.MG.outK_eq_outR _ _ i j).symm

end Cert.Bridge

end
-- ==== Proof.lean ====
/-
  Pairwise projection IoU of 4096 rotated boxes: the kernel against the reference, over the extended reals.

  Both programs turn each box (centre, size, angle) into four corners and two edge axes by the same host operations. For a pair
  (i, j) they project the corners of each box on the four axes, compare the two projected intervals on every axis by the
  one-dimensional generalized IoU, take the least value, clamp it at zero and put zero on the diagonal. The kernel does this
  tile by tile on an 8 x 8 grid of 512 x 512 tiles, from a row block of boxes and a (transposed) column block, and finds the
  diagonal by comparing global row and column numbers; the reference does it on whole arrays and zeroes the diagonal by a
  scatter. The two results are one function of the corner and axis arrays (Proof/Spec.lean: commutativity and associativity
  of +, *, min and max only, so no finiteness is used), the tiles cover the result array (Proof/KHost.lean), and the
  reference's stages are read index by index (Proof/RRead1 .. RScatter, RValue).

  The three frames: the kernel programs' from the launch of the one region (their frame modules), the reference's from its
  straight-line run with the result dropped. No operation was rewritten by the idealization, so that claim is trivial.
-/
import proofs.«172119_j59760174957246_1_alg».proof.Defs
import proofs.«172119_j59760174957246_1_alg».proof.Proof.Gen.Kernel
import proofs.«172119_j59760174957246_1_alg».proof.Proof.Gen.KernelIdeal
import proofs.«172119_j59760174957246_1_alg».proof.Proof.Gen.ReferenceIdeal
import proofs.«172119_j59760174957246_1_alg».proof.Proof.Gen.Pre_finite_inputs
import proofs.«172119_j59760174957246_1_alg».proof.Proof.KernelFrameP
import proofs.«172119_j59760174957246_1_alg».proof.Proof.KernelIdealFrameP
import proofs.«172119_j59760174957246_1_alg».proof.Proof.RRun
import proofs.«172119_j59760174957246_1_alg».proof.Proof.Bridge
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.GenP.frame m ρ

theorem frame_ki : Cert.frame_KernelIdeal := fun m ρ _ => Cert.KernelIdeal.GenP.frame m ρ

/-- The reference's straight-line run, its result dropped. -/
theorem frame_ri : Cert.frame_ReferenceIdeal := fun m ρ _ =>
  (θ_run Cert.ReferenceIdeal.defs _ _).mono (fun _ h c => (h c).2) (Cert.ReferenceIdeal.Hand.run (F := Ideal) m ρ)

/-- Both runs end with the result array at the pairwise measure of the argument's boxes. -/
theorem algebraic : Cert.algebraic_KernelIdeal_ReferenceIdeal := by
  intro m ρ m' ρ' _ hagree
  refine ⟨fun c => Cert.KernelIdeal.Hand.KOut (Cert.KernelIdeal.Hand.xin m c), Cert.KernelIdeal.Hand.run m ρ, ?_⟩
  refine (θ_run Cert.ReferenceIdeal.defs _ _).mono (fun _ h c => ⟨(h c).1.trans ?_, (h c).2⟩)
    (Cert.ReferenceIdeal.Hand.run (F := Ideal) m' ρ')
  rw [hagree c]
  exact Cert.Bridge.result_eq _

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
